-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pos_big" .f32 0x7F61B1E6#32 ⊤
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x64x3 : Shape := ⟨4, ![32, 128, 64, 3]⟩
abbrev S_ : Shape := ⟨0, ![]⟩

class Facts : Prop where
  bcast_S_S32x128x64x3 : S_.BroadcastsInDim S32x128x64x3 (![] : Fin 0 → Fin S32x128x64x3.rank)
  reducesTo_S32x128x64x3_S_d0_1_2_3 : S32x128x64x3.ReducesTo [0, 1, 2, 3] S_
  h_S_ : 0 < S_.numel

variable [Facts]

def fn {F : FTy → Type} [FloatOps F] (main_arg0 : FVec F S32x128x64x3 .f32) (main_arg1 : FVec F S32x128x64x3 .f32) : IVec S_ 1 :=
  let main_v0 : FVec F S32x128x64x3 .f32 := Host.absf main_arg0
  let main_cst : FVec F S_ .f32 := constant S_ .f32 0x7F800000#32
  let main_v1 : FVec F S32x128x64x3 .f32 := broadcastInDim S32x128x64x3 ![] bcast_S_S32x128x64x3 main_cst
  let main_v2 : IVec S32x128x64x3 1 := cmpf .olt main_v0 main_v1
  let main_c : IVec S_ 1 := constantI S_ 1 1#1
  let main_v3 : IVec S_ 1 := (fun x v => Host.reduce IntOp.andi x v reducesTo_S32x128x64x3_S_d0_1_2_3 h_S_) main_v2 main_c
  let main_v4 : FVec F S32x128x64x3 .f32 := Host.absf main_arg1
  let main_cst_0 : FVec F S_ .f32 := constant S_ .f32 0x7F800000#32
  let main_v5 : FVec F S32x128x64x3 .f32 := broadcastInDim S32x128x64x3 ![] bcast_S_S32x128x64x3 main_cst_0
  let main_v6 : IVec S32x128x64x3 1 := cmpf .olt main_v4 main_v5
  let main_c_1 : IVec S_ 1 := constantI S_ 1 1#1
  let main_v7 : IVec S_ 1 := (fun x v => Host.reduce IntOp.andi x v reducesTo_S32x128x64x3_S_d0_1_2_3 h_S_) main_v6 main_c_1
  let main_v8 : IVec S_ 1 := andi main_v3 main_v7
  main_v8
-- ==== Kernel.lean ====
abbrev S32x128x64x3 : Shape := ⟨4, ![32, 128, 64, 3]⟩
abbrev S4096x64x3 : Shape := ⟨3, ![4096, 64, 3]⟩
abbrev S4096x3x64 : Shape := ⟨3, ![4096, 3, 64]⟩
abbrev S32x16 : Shape := ⟨2, ![32, 16]⟩
abbrev S24x3x64 : Shape := ⟨3, ![24, 3, 64]⟩
abbrev S16 : Shape := ⟨1, ![16]⟩
abbrev S_ : Shape := ⟨0, ![]⟩
abbrev S1x1x16 : Shape := ⟨3, ![1, 1, 16]⟩
abbrev S1 : Shape := ⟨1, ![1]⟩
abbrev S1x16 : Shape := ⟨2, ![1, 16]⟩
abbrev S1x1 : Shape := ⟨2, ![1, 1]⟩
abbrev S256x3x64 : Shape := ⟨3, ![256, 3, 64]⟩
abbrev S256x64 : Shape := ⟨2, ![256, 64]⟩
abbrev S256x1x64 : Shape := ⟨3, ![256, 1, 64]⟩
abbrev S256x5x64 : Shape := ⟨3, ![256, 5, 64]⟩
abbrev S256x64x64 : Shape := ⟨3, ![256, 64, 64]⟩
abbrev S1x256x64 : Shape := ⟨3, ![1, 256, 64]⟩
abbrev S1x1x1 : Shape := ⟨3, ![1, 1, 1]⟩

abbrev nBuf : Table → Nat
  | .hbm => 14
  | .local .tc .vmem => 5
  | .local .scVector .vmem => 3
  | _ => 0

abbrev bufTy : (tb : Table) → Fin (nBuf tb) → BufTy
  | .hbm, ⟨0, _⟩ => ⟨S32x128x64x3, .f32⟩
  | .hbm, ⟨1, _⟩ => ⟨S32x128x64x3, .f32⟩
  | .hbm, ⟨2, _⟩ => ⟨S4096x64x3, .f32⟩
  | .hbm, ⟨3, _⟩ => ⟨S4096x3x64, .f32⟩
  | .hbm, ⟨4, _⟩ => ⟨S4096x64x3, .f32⟩
  | .hbm, ⟨5, _⟩ => ⟨S4096x3x64, .f32⟩
  | .hbm, ⟨6, _⟩ => ⟨S32x16, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S256x3x64, .f32⟩
  | .local .tc .vmem, ⟨1, _⟩ => ⟨S256x3x64, .f32⟩
  | .local .tc .vmem, ⟨2, _⟩ => ⟨S256x3x64, .f32⟩
  | .local .tc .vmem, ⟨3, _⟩ => ⟨S256x3x64, .f32⟩
  | .local .tc .vmem, ⟨4, _⟩ => ⟨S1x1, .f32⟩
  | .local .scVector .vmem, ⟨0, _⟩ => ⟨S24x3x64, .f32⟩
  | .local .scVector .vmem, ⟨1, _⟩ => ⟨S24x3x64, .f32⟩
  | .local .scVector .vmem, ⟨2, _⟩ => ⟨S16, .f32⟩
  | _, _ => ⟨S32x128x64x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c3328_i32 : BitVec 32 := 3328#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let v3 : BitVec 32 := Scalar.addi c3328_i32 v2
  let c0_i32_2_r0 : BitVec 32 := 0#32
  let c0_i32_3_r0 : BitVec 32 := 0#32
  ![v3.toNat, 0, 0]
@[reducible] def k0_t1_loop : Scf.Loop 32 :=
  let c0_i32 : BitVec 32 := 0#32
  let c24_i32_0 : BitVec 32 := 24#32
  let v5 : BitVec 32 := Scalar.addi c0_i32 c24_i32_0
  let c1_i32 : BitVec 32 := 1#32
  ⟨c0_i32, v5, c1_i32⟩
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v10 : Index := Scalar.indexCast arg8
  let c0_i32_2 : BitVec 32 := 0#32
  let v11 : Index := Scalar.indexCast c0_i32_2
  let c0_3 : Index := 0#32
  ![v10.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v14 : Index := Scalar.indexCast arg8
  let c0_i32_4 : BitVec 32 := 0#32
  let v15 : Index := Scalar.indexCast c0_i32_4
  let c16 : Index := 16#32
  ![v14.toNat, 0, 16]
def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let v18 : Index := Scalar.indexCast arg8
  let c0_i32_5 : BitVec 32 := 0#32
  let v19 : Index := Scalar.indexCast c0_i32_5
  let c32 : Index := 32#32
  ![v18.toNat, 0, 32]
def k0_off5 (k0_t1 : Fin k0_t1_loop.trips) : Fin 3 → Nat :=
  let c0_i32 : BitVec 32 := 0#32
  let c1_i32 : BitVec 32 := 1#32
  let arg8 : BitVec 32 := Scf.iv c0_i32 c1_i32 k0_t1
  let v22 : Index := Scalar.indexCast arg8
  let c0_i32_6 : BitVec 32 := 0#32
  let v23 : Index := Scalar.indexCast c0_i32_6
  let c48 : Index := 48#32
  ![v22.toNat, 0, 48]
def k0_off6 (k0_t1 : Fin k0_t1_loop.trips) : Fin 3 → Nat :=
  let c0_i32 : BitVec 32 := 0#32
  let c1_i32 : BitVec 32 := 1#32
  let arg8 : BitVec 32 := Scf.iv c0_i32 c1_i32 k0_t1
  let v26 : Index := Scalar.indexCast arg8
  let c1_i32_7 : BitVec 32 := 1#32
  let v27 : Index := Scalar.indexCast c1_i32_7
  let c0_8 : Index := 0#32
  ![v26.toNat, 1, 0]
def k0_off7 (k0_t1 : Fin k0_t1_loop.trips) : Fin 3 → Nat :=
  let c0_i32 : BitVec 32 := 0#32
  let c1_i32 : BitVec 32 := 1#32
  let arg8 : BitVec 32 := Scf.iv c0_i32 c1_i32 k0_t1
  let v30 : Index := Scalar.indexCast arg8
  let c1_i32_9 : BitVec 32 := 1#32
  let v31 : Index := Scalar.indexCast c1_i32_9
  let c16_10 : Index := 16#32
  ![v30.toNat, 1, 16]
def k0_off8 (k0_t1 : Fin k0_t1_loop.trips) : Fin 3 → Nat :=
  let c0_i32 : BitVec 32 := 0#32
  let c1_i32 : BitVec 32 := 1#32
  let arg8 : BitVec 32 := Scf.iv c0_i32 c1_i32 k0_t1
  let v34 : Index := Scalar.indexCast arg8
  let c1_i32_11 : BitVec 32 := 1#32
  let v35 : Index := Scalar.indexCast c1_i32_11
  let c32_12 : Index := 32#32
  ![v34.toNat, 1, 32]
def k0_off9 (k0_t1 : Fin k0_t1_loop.trips) : Fin 3 → Nat :=
  let c0_i32 : BitVec 32 := 0#32
  let c1_i32 : BitVec 32 := 1#32
  let arg8 : BitVec 32 := Scf.iv c0_i32 c1_i32 k0_t1
  let v38 : Index := Scalar.indexCast arg8
  let c1_i32_13 : BitVec 32 := 1#32
  let v39 : Index := Scalar.indexCast c1_i32_13
  let c48_14 : Index := 48#32
  ![v38.toNat, 1, 48]
def k0_off10 (k0_t1 : Fin k0_t1_loop.trips) : Fin 3 → Nat :=
  let c0_i32 : BitVec 32 := 0#32
  let c1_i32 : BitVec 32 := 1#32
  let arg8 : BitVec 32 := Scf.iv c0_i32 c1_i32 k0_t1
  let v42 : Index := Scalar.indexCast arg8
  let c2_i32_15 : BitVec 32 := 2#32
  let v43 : Index := Scalar.indexCast c2_i32_15
  let c0_16 : Index := 0#32
  ![v42.toNat, 2, 0]
def k0_off11 (k0_t1 : Fin k0_t1_loop.trips) : Fin 3 → Nat :=
  let c0_i32 : BitVec 32 := 0#32
  let c1_i32 : BitVec 32 := 1#32
  let arg8 : BitVec 32 := Scf.iv c0_i32 c1_i32 k0_t1
  let v46 : Index := Scalar.indexCast arg8
  let c2_i32_17 : BitVec 32 := 2#32
  let v47 : Index := Scalar.indexCast c2_i32_17
  let c16_18 : Index := 16#32
  ![v46.toNat, 2, 16]
def k0_off12 (k0_t1 : Fin k0_t1_loop.trips) : Fin 3 → Nat :=
  let c0_i32 : BitVec 32 := 0#32
  let c1_i32 : BitVec 32 := 1#32
  let arg8 : BitVec 32 := Scf.iv c0_i32 c1_i32 k0_t1
  let v50 : Index := Scalar.indexCast arg8
  let c2_i32_19 : BitVec 32 := 2#32
  let v51 : Index := Scalar.indexCast c2_i32_19
  let c32_20 : Index := 32#32
  ![v50.toNat, 2, 32]
def k0_off13 (k0_t1 : Fin k0_t1_loop.trips) : Fin 3 → Nat :=
  let c0_i32 : BitVec 32 := 0#32
  let c1_i32 : BitVec 32 := 1#32
  let arg8 : BitVec 32 := Scf.iv c0_i32 c1_i32 k0_t1
  let v54 : Index := Scalar.indexCast arg8
  let c2_i32_21 : BitVec 32 := 2#32
  let v55 : Index := Scalar.indexCast c2_i32_21
  let c48_22 : Index := 48#32
  ![v54.toNat, 2, 48]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
abbrev grid1 : Pipeline.Grid := ⟨1, ![13], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x128x64x3_S4096x64x3 : S32x128x64x3.ShapeCasts S4096x64x3
  transposes_S4096x64x3_S4096x3x64_0_2_1 : S4096x64x3.Transposes [0, 2, 1] S4096x3x64
  h_S1x1x16 : 0 < S1x1x16.numel
  shapeCasts_S1x1x16_S16 : S1x1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S1x1_S1x1_0_0 : ∀ a, (![0, 0] : Fin 2 → Nat) a + S1x1.size a ≤ S1x1.size a
  h_S1x1 : 0 < S1x1.numel
  inb_S256x3x64_S256x3x64_0_0_0 : ∀ a, (![0, 0, 0] : Fin 3 → Nat) a + S256x3x64.size a ≤ S256x3x64.size a
  h_S256x3x64 : 0 < S256x3x64.numel
  shapeCasts_S256x3x64_S256x3x64 : S256x3x64.ShapeCasts S256x3x64
  reduces_S256x3x64_S256x64 : S256x3x64.Reduces [1] S256x64
  shapeCasts_S256x64_S256x1x64 : S256x64.ShapeCasts S256x1x64
  concatenates_S256x3x64_S256x1x64_S256x1x64_S256x5x64_d1 : Shape.Concatenates [S256x3x64, S256x1x64, S256x1x64] S256x5x64 1
  reduces_S256x64x64_S256x64 : S256x64x64.Reduces [2] S256x64
  reduces_S256x64x64_S256x64_2 : S256x64x64.Reduces [1] S256x64
  shapeCasts_S256x64_S1x256x64 : S256x64.ShapeCasts S1x256x64
  reduces_S1x256x64_S1 : S1x256x64.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  reducesTo_S32x16_S_d0_1 : S32x16.ReducesTo [0, 1] S_
  h_S_ : 0 < S_.numel
  dot_S256x5x64_S256x5x64_S256x64x64_1_1_2_2_0_0_wf : DotDims.WF S256x5x64 S256x5x64 S256x64x64 [1] [1] [2] [2] [0] [0]
  hcc0_scoped0 : 0 + S_.numel ≤ 8
  hcc0_scoped1 : 1 + S_.numel ≤ 8
  hcc0_scoped2 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S24x3x64.size a ≤ S4096x3x64.size a
  k0_t1_ok : k0_t1_loop.OK
  k0_off2_inb : ∀ k0_t1 : Fin k0_t1_loop.trips, ∀ a, (k0_off2 k0_t1) a + S1x1x16.size a ≤ S24x3x64.size a
  k0_off3_inb : ∀ k0_t1 : Fin k0_t1_loop.trips, ∀ a, (k0_off3 k0_t1) a + S1x1x16.size a ≤ S24x3x64.size a
  k0_off4_inb : ∀ k0_t1 : Fin k0_t1_loop.trips, ∀ a, (k0_off4 k0_t1) a + S1x1x16.size a ≤ S24x3x64.size a
  k0_off5_inb : ∀ k0_t1 : Fin k0_t1_loop.trips, ∀ a, (k0_off5 k0_t1) a + S1x1x16.size a ≤ S24x3x64.size a
  k0_off6_inb : ∀ k0_t1 : Fin k0_t1_loop.trips, ∀ a, (k0_off6 k0_t1) a + S1x1x16.size a ≤ S24x3x64.size a
  k0_off7_inb : ∀ k0_t1 : Fin k0_t1_loop.trips, ∀ a, (k0_off7 k0_t1) a + S1x1x16.size a ≤ S24x3x64.size a
  k0_off8_inb : ∀ k0_t1 : Fin k0_t1_loop.trips, ∀ a, (k0_off8 k0_t1) a + S1x1x16.size a ≤ S24x3x64.size a
  k0_off9_inb : ∀ k0_t1 : Fin k0_t1_loop.trips, ∀ a, (k0_off9 k0_t1) a + S1x1x16.size a ≤ S24x3x64.size a
  k0_off10_inb : ∀ k0_t1 : Fin k0_t1_loop.trips, ∀ a, (k0_off10 k0_t1) a + S1x1x16.size a ≤ S24x3x64.size a
  k0_off11_inb : ∀ k0_t1 : Fin k0_t1_loop.trips, ∀ a, (k0_off11 k0_t1) a + S1x1x16.size a ≤ S24x3x64.size a
  k0_off12_inb : ∀ k0_t1 : Fin k0_t1_loop.trips, ∀ a, (k0_off12 k0_t1) a + S1x1x16.size a ≤ S24x3x64.size a
  k0_off13_inb : ∀ k0_t1 : Fin k0_t1_loop.trips, ∀ a, (k0_off13 k0_t1) a + S1x1x16.size a ≤ S24x3x64.size a
  k0_off14_inb : ∀ i : grid0.Coords, ∀ a, (k0_off14 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3x64.size a ≤ S4096x3x64.size a
  hwx1_0 : ∀ i : grid1.Coords, EltTy.bits .f32 = 32 ∨ (Rect.block (s := S4096x3x64) S256x3x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3x64.size a ≤ S4096x3x64.size a
  hwx1_1 : ∀ i : grid1.Coords, EltTy.bits .f32 = 32 ∨ (Rect.block (s := S4096x3x64) S256x3x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S256x5x64_S256x5x64_S256x64x64_1_1_2_2_0_0 : DotDims S256x5x64 S256x5x64 S256x64x64 where
  lhsContracting := [1]
  rhsContracting := [1]
  lhsNonContracting := [2]
  rhsNonContracting := [2]
  lhsBatch := [0]
  rhsBatch := [0]
  wf := dot_S256x5x64_S256x5x64_S256x64x64_1_1_2_2_0_0_wf

abbrev win1_0 : Pipeline.Window sig grid1 :=
  Pipeline.Window.ofSpec (Memref.whole main_v1) S256x3x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x3x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x128x64x3 : Shape := ⟨4, ![32, 128, 64, 3]⟩
abbrev S4096x64x3 : Shape := ⟨3, ![4096, 64, 3]⟩
abbrev S_ : Shape := ⟨0, ![]⟩
abbrev S4096x64 : Shape := ⟨2, ![4096, 64]⟩
abbrev S4096x64x64 : Shape := ⟨3, ![4096, 64, 64]⟩
abbrev S4096x64x1 : Shape := ⟨3, ![4096, 64, 1]⟩
abbrev S4096x1x64 : Shape := ⟨3, ![4096, 1, 64]⟩
abbrev S4096 : Shape := ⟨1, ![4096]⟩

abbrev nBuf : Space → Nat
  | .hbm => 42
  | .vmem => 0
  | .smem => 0
  | _ => 0

abbrev bufTy : (tb : Table) → Fin (tcTables nBuf tb) → BufTy
  | .hbm, ⟨0, _⟩ => ⟨S32x128x64x3, .f32⟩
  | .hbm, ⟨1, _⟩ => ⟨S32x128x64x3, .f32⟩
  | .hbm, ⟨2, _⟩ => ⟨S4096x64x3, .f32⟩
  | .hbm, ⟨3, _⟩ => ⟨S4096x64x3, .f32⟩
  | .hbm, ⟨4, _⟩ => ⟨S4096x64x3, .f32⟩
  | .hbm, ⟨5, _⟩ => ⟨S_, .f32⟩
  | .hbm, ⟨6, _⟩ => ⟨S4096x64, .f32⟩
  | .hbm, ⟨7, _⟩ => ⟨S4096x64x3, .f32⟩
  | .hbm, ⟨8, _⟩ => ⟨S_, .f32⟩
  | .hbm, ⟨9, _⟩ => ⟨S4096x64, .f32⟩
  | .hbm, ⟨10, _⟩ => ⟨S4096x64x64, .f32⟩
  | .hbm, ⟨11, _⟩ => ⟨S4096x64x1, .f32⟩
  | .hbm, ⟨12, _⟩ => ⟨S4096x1x64, .f32⟩
  | .hbm, ⟨13, _⟩ => ⟨S4096x64x64, .f32⟩
  | .hbm, ⟨14, _⟩ => ⟨S4096x64x64, .f32⟩
  | .hbm, ⟨15, _⟩ => ⟨S4096x64x64, .f32⟩
  | .hbm, ⟨16, _⟩ => ⟨S_, .f32⟩
  | .hbm, ⟨17, _⟩ => ⟨S4096x64x64, .f32⟩
  | .hbm, ⟨18, _⟩ => ⟨S4096x64x64, .f32⟩
  | .hbm, ⟨19, _⟩ => ⟨S4096x64x64, .f32⟩
  | .hbm, ⟨20, _⟩ => ⟨S_, .f32⟩
  | .hbm, ⟨21, _⟩ => ⟨S4096x64x64, .f32⟩
  | .hbm, ⟨22, _⟩ => ⟨S4096x64x64, .f32⟩
  | .hbm, ⟨23, _⟩ => ⟨S_, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096x64, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x128x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S32x128x64x3_S4096x64x3 : S32x128x64x3.ShapeCasts S4096x64x3
  reducesTo_S4096x64x3_S4096x64_d2 : S4096x64x3.ReducesTo [2] S4096x64
  h_S_ : 0 < S_.numel
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  bcast_S_S4096x64x64 : S_.BroadcastsInDim S4096x64x64 (![] : Fin 0 → Fin S4096x64x64.rank)
  reducesTo_S4096x64x64_S4096x64_d2 : S4096x64x64.ReducesTo [2] S4096x64
  reducesTo_S4096x64_S4096_d1 : S4096x64.ReducesTo [1] S4096
  bcast_S_S4096 : S_.BroadcastsInDim S4096 (![] : Fin 0 → Fin S4096.rank)
  reducesTo_S4096x64x64_S4096x64_d1 : S4096x64x64.ReducesTo [1] S4096x64
  reducesTo_S4096_S_d0 : S4096.ReducesTo [0] S_
  dot_S4096x64x3_S4096x64x3_S4096x64x64_2_2_1_1_0_0_wf : DotDims.WF S4096x64x3 S4096x64x3 S4096x64x64 [2] [2] [1] [1] [0] [0]

variable [Facts₀]

def dot_S4096x64x3_S4096x64x3_S4096x64x64_2_2_1_1_0_0 : DotDims S4096x64x3 S4096x64x3 S4096x64x64 where
  lhsContracting := [2]
  rhsContracting := [2]
  lhsNonContracting := [1]
  rhsNonContracting := [1]
  lhsBatch := [0]
  rhsBatch := [0]
  wf := dot_S4096x64x3_S4096x64x3_S4096x64x64_2_2_1_1_0_0_wf

class Facts : Prop extends Facts₀ where

variable [Facts]
-- ==== Proof.Setup.lean ====
import proofs.«212928_g62723702391633_cont_9to1_m_929_36_alg».proof.KernelIdeal
import proofs.«212928_g62723702391633_cont_9to1_m_929_36_alg».proof.Proof.Gen.KernelIdeal
import proofs.«212928_g62723702391633_cont_9to1_m_929_36_alg».proof.Proof.Gen.KernelIdeal.Launch
import proofs.«212928_g62723702391633_cont_9to1_m_929_36_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

/-!
# The program as its launch sees it

One device; its TensorCore runs the host operations, starts the 32 vector subcores (2 cores of 16)
on the patches `3328 …`, waits for them, runs the 13-step pipelined region on the patches below
`3328`, and adds the two shares. The proof's own state has three parts: the rounds of the four
launch handshakes, the rounds of the region's five staging cells, and the counters of the
subcores' local copies.
-/

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Labels, tables, variants -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The proof's state: handshake rounds × (staging-cell rounds × counters) -/

abbrev UH : Type := URounds (GSem nD τ sig) ℕ
abbrev UP : Type := URounds (GSem nD τ sig) Unit
abbrev UU : Type := UH × (UP × Counters)

/-- The model the assertions are over. -/
abbrev MM (F : FTy → Type) : Type := MT nD τ sig (HIx 1) (Elt F) ℕ UU ℕ

local notation "𝕄" => MM F

/-- The handshakes' rounds: the left part. -/
abbrev EH : Emb UH (MM F) := embL
/-- The staging cells' rounds: the left of the right part. -/
def EP : Emb UP (MM F) := (Emb.inl : Emb UP (UP × Counters)).trans embR

instance EP_landsIn : (EP : Emb UP (MM F)).LandsIn (upEmb : UEmb _ (MM F)) := by unfold EP embR; infer_instance

/-! ## The arrays, as the TensorCore holds them -/

abbrev xLoc (d : Dev nD) : Loc nD τ sig := (SparseCore.T d).loc main_arg0
abbrev yLoc (d : Dev nD) : Loc nD τ sig := (SparseCore.T d).loc main_arg1
/-- The transposed patch arrays `f32[4096, 3, 64]` the two kernels read. -/
abbrev aLoc (d : Dev nD) : Loc nD τ sig := (SparseCore.T d).loc main_v1
abbrev bLoc (d : Dev nD) : Loc nD τ sig := (SparseCore.T d).loc main_v3
/-- The subcores' partial sums `f32[32, 16]`. -/
abbrev pLoc (d : Dev nD) : Loc nD τ sig := (SparseCore.T d).loc main_v4
/-- The region's result `f32[1, 1]`. -/
abbrev tLoc (d : Dev nD) : Loc nD τ sig := (SparseCore.T d).loc main_v5
/-- The program's result. -/
abbrev rLoc (d : Dev nD) : Loc nD τ sig := (SparseCore.T d).loc main_v9

/-- The transposed patch array of an input: entry `(m, d, p)` is coordinate `d` of point `p` of patch `m`. -/
def patches (X : (⟨S32x128x64x3, .f32⟩ : BufTy).Contents (Elt F)) : (⟨S4096x3x64, .f32⟩ : BufTy).Contents (Elt F) :=
  transpose S4096x3x64 [0, 2, 1] (shapeCast S4096x64x3 X shapeCasts_S32x128x64x3_S4096x64x3) transposes_S4096x64x3_S4096x3x64_0_2_1

end Cert.Proof.KI

end
-- ==== Proof.ScTile.lean ====
import proofs.«212928_g62723702391633_cont_9to1_m_929_36_alg».proof.Proof.Setup
import proofs.«212928_g62723702391633_cont_9to1_m_929_36_alg».proof.Proof.Gen.KernelIdeal.Skeleton
import Idealize.ShloMosaic.Lib.Tactic
import Idealize.ShloMosaic.Lib.ValueIdx

/-!
# The vector-subcore kernel at one tile

A tile copies its 24 patches of each transposed patch array into its two scratches, runs 24 trips
that each add one patch pair's two directed sums to a 16-lane accumulator, stores the accumulator in
its third scratch and copies that to its row of the partial sums. The trip is run once, at symbolic
scratch contents; the accumulator it returns is the witness of that run, and the partial sums are
stated through it.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

abbrev cV (L : grid0.Coords) : Fin τ.nSC := (L 0).castLE hcore0
abbrev jV (L : grid0.Coords) : Fin τ.nSub := (L 1).castLE hsub0

abbrev aV : Memref sig .scVector .hbm S4096x3x64 .f32 := Memref.whole main_v1_scv
abbrev bV : Memref sig .scVector .hbm S4096x3x64 .f32 := Memref.whole main_v3_scv
abbrev pV : Memref sig .scVector .hbm S32x16 .f32 := Memref.whole main_v4_scv
abbrev sA : Memref sig .scVector .vmem S24x3x64 .f32 := Memref.whole cc0_scratch0
abbrev sB : Memref sig .scVector .vmem S24x3x64 .f32 := Memref.whole cc0_scratch1
abbrev sO : Memref sig .scVector .vmem S16 .f32 := Memref.whole cc0_scratch2

/-! ## The tile -/

/-- The grid point of core c, subcore s. -/
def coordsV (c : Fin (grid0.bound 0)) (s : Fin (grid0.bound 1)) : grid0.Coords :=
  fun | 0 => c | 1 => s | ⟨_ + 2, h⟩ => absurd h (Nat.not_lt.2 (Nat.le_add_left _ _))

/-- The grid point whose worker number, twice the subcore plus the core, is w. -/
def tileOf (w : Fin 32) : grid0.Coords :=
  coordsV ⟨w.val % 2, Nat.mod_lt _ (by decide)⟩ ⟨w.val / 2, by have := w.isLt; show w.val / 2 < 16; omega⟩

/-! ## The tile's pieces of the arrays -/

abbrev slabRect (L : grid0.Coords) : Rect S4096x3x64 := Rect.unit (s := S4096x3x64) (k0_off1 L) S24x3x64.size (k0_off1_inb L)
abbrev rowRect (L : grid0.Coords) : Rect S32x16 := Rect.unit (s := S32x16) (k0_off14 L) S1x16.size (k0_off14_inb L)
abbrev aSlab (L : grid0.Coords) : Memref sig .scVector .hbm S24x3x64 .f32 := (aV).slice (slabRect L) (fun _ => rfl)
abbrev bSlab (L : grid0.Coords) : Memref sig .scVector .hbm S24x3x64 .f32 := (bV).slice (slabRect L) (fun _ => rfl)
abbrev pRow (L : grid0.Coords) : Memref sig .scVector .hbm S16 .f32 := ((pV).slice (rowRect L) (fun _ => rfl)).squeeze S16 squeezes_S1x16_S16

abbrev slabSet (L : grid0.Coords) : Finset S4096x3x64.Idx := (aSlab L).view.set
abbrev rowSet (L : grid0.Coords) : Finset S32x16.Idx := (pRow L).view.set

/-- What a scratch holds once the tile's slab of an array has landed in it. -/
def slabOf (L : grid0.Coords) (A : (⟨S4096x3x64, .f32⟩ : BufTy).Contents (Elt F)) : (⟨S24x3x64, .f32⟩ : BufTy).Contents (Elt F) :=
  (aSlab L).view.read (Elt F) A

/-! ## The trip, run once -/

set_option maxHeartbeats 4000000 in
/-- One trip of the loop, run once at symbolic scratch contents: the new accumulator is the witness. -/
def tripRun (d : Dev nD) (L : grid0.Coords) (fa fb : (⟨S24x3x64, .f32⟩ : BufTy).Contents (Elt F)) (k : Fin k0_t1_loop.trips) (acc : FVec F S16 .f32) :
    { W : FVec F S16 .f32 // ∀ (E : Set ℕ) (Q : FVec F S16 .f32 → sProp 𝕄),
      iprop(((sA).view.loc (V d (cV L) (jV L)) ↦{fullShare} fa) ∗ ((sB).view.loc (V d (cV L) (jV L)) ↦{fullShare} fb)
          ∗ ((((sA).view.loc (V d (cV L) (jV L)) ↦{fullShare} fa) ∗ ((sB).view.loc (V d (cV L) (jV L)) ↦{fullShare} fb)) -∗ Q W))
        ⊢ wp frame (wpE (defs₀ (F := F)) 𝒱₀ (V d (cV L) (jV L)) none) E
            (k0_t1_body L aV (Memref.isWhole_whole _) bV (Memref.isWhole_whole _) pV (Memref.isWhole_whole _)
              sA (Memref.isWhole_whole _) sB (Memref.isWhole_whole _) sO (Memref.isWhole_whole _) cc0_scoped0 cc0_scoped1 cc0_scoped2 k acc) Q } := by
  refine ⟨?_, fun E Q => ?run⟩
  case run =>
    iintro ⟨H5, H6, Hk⟩
    unfold k0_t1_body
    sl_exec_parts
    sl_step
    iapply Hk
    isplitl [H5]; · iexact H5
    iexact H6

/-! ## What the run computes -/

/-- One trip: the new accumulator from the two scratches' contents, the trip and the old accumulator. -/
def tripStep (fa fb : (⟨S24x3x64, .f32⟩ : BufTy).Contents (Elt F)) (k : Fin k0_t1_loop.trips) (acc : FVec F S16 .f32) : FVec F S16 .f32 :=
  (tripRun (F := F) 0 (tileOf 0) fa fb k acc).1

theorem tripRun_val (d : Dev nD) (L : grid0.Coords) (fa fb : (⟨S24x3x64, .f32⟩ : BufTy).Contents (Elt F)) (k : Fin k0_t1_loop.trips) (acc : FVec F S16 .f32) :
    (tripRun d L fa fb k acc).1 = tripStep fa fb k acc := rfl

/-- The accumulator after the first k trips. -/
def accTo (fa fb : (⟨S24x3x64, .f32⟩ : BufTy).Contents (Elt F)) : ℕ → FVec F S16 .f32
  | 0 => k0_pay1252
  | k + 1 => if h : k < k0_t1_loop.trips then tripStep fa fb ⟨k, h⟩ (accTo fa fb k) else accTo fa fb k

theorem accTo_succ (fa fb : (⟨S24x3x64, .f32⟩ : BufTy).Contents (Elt F)) (k : Fin k0_t1_loop.trips) :
    accTo fa fb (k.val + 1) = tripStep fa fb k (accTo fa fb k.val) := by
  show (if h : k.val < k0_t1_loop.trips then tripStep fa fb ⟨k.val, h⟩ (accTo fa fb k.val) else accTo fa fb k.val) = _
  rw [dif_pos k.isLt]

/-- What the tile at L stores: its accumulator after all the trips. -/
def tileAcc (A B : (⟨S4096x3x64, .f32⟩ : BufTy).Contents (Elt F)) (L : grid0.Coords) : FVec F S16 .f32 :=
  k0_pay1255 (accTo (slabOf L A) (slabOf L B) k0_t1_loop.trips)

/-- The partial sums: row w is what worker w's tile stores. -/
def partials (A B : (⟨S4096x3x64, .f32⟩ : BufTy).Contents (Elt F)) : (⟨S32x16, .f32⟩ : BufTy).Contents (Elt F) :=
  fun i => tileAcc A B (tileOf (i 0)) (ValueIdx.ix1 (i 1))

section Tile

variable (d : Dev nD) (L : grid0.Coords)

/-! ## The tile's own semaphores and scratches, and the arrays as the tile addresses them -/

abbrev thrV : Thread nD τ := V d (cV L) (jV L)
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)

omit [FloatOps F] [Named F] in
theorem set_bSlab : (bSlab L).view.set = slabSet L := rfl

omit [FloatOps F] [Named F] in
theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L))
              fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] [Named F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] [Named F] in
theorem pts_aSlab (f : Buf (Elt F) (aLoc d)) :
    ((aSlab L).view.loc (V d (cV L) (jV L)) ↦[(aSlab L).view.set]{fullShare} f : sProp 𝕄) = aLoc d ↦[slabSet L]{fullShare} f := rfl
omit [FloatOps F] [Named F] in
theorem pts_bSlab (f : Buf (Elt F) (bLoc d)) :
    ((bSlab L).view.loc (V d (cV L) (jV L)) ↦[(bSlab L).view.set]{fullShare} f : sProp 𝕄) = bLoc d ↦[slabSet L]{fullShare} f := rfl
omit [FloatOps F] [Named F] in
theorem pts_pRow (f : Buf (Elt F) (pLoc d)) :
    ((pRow L).view.loc (V d (cV L) (jV L)) ↦[(pRow L).view.set]{fullShare} f : sProp 𝕄) = pLoc d ↦[rowSet L]{fullShare} f := rfl
omit [FloatOps F] [Named F] in
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
omit [FloatOps F] [Named F] in
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
omit [FloatOps F] [Named F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-! ## The loop's invariant and the row written out -/

/-- Before trip k: the accumulator is what k trips make of the scratches' contents, both scratches held. -/
def inv (fa fb : (⟨S24x3x64, .f32⟩ : BufTy).Contents (Elt F)) (k : Nat) (acc : FVec F S16 .f32) : sProp 𝕄 :=
  iprop(⌜acc = accTo fa fb k⌝ ∗ ((sA).view.loc (V d (cV L) (jV L)) ↦{fullShare} fa) ∗ ((sB).view.loc (V d (cV L) (jV L)) ↦{fullShare} fb))

theorem trip_region (fa fb : (⟨S24x3x64, .f32⟩ : BufTy).Contents (Elt F)) (k : Fin k0_t1_loop.trips) (acc : FVec F S16 .f32) :
    inv d L fa fb k.val acc ⊢ wp frame (wpE (defs₀ (F := F)) 𝒱₀ (V d (cV L) (jV L)) none) Set.univ
      (k0_t1_body L aV (Memref.isWhole_whole _) bV (Memref.isWhole_whole _) pV (Memref.isWhole_whole _)
        sA (Memref.isWhole_whole _) sB (Memref.isWhole_whole _) sO (Memref.isWhole_whole _) cc0_scoped0 cc0_scoped1 cc0_scoped2 k acc)
      (inv d L fa fb (k.val + 1)) := by
  unfold inv
  iintro ⟨%hacc, H5, H6⟩
  iapply ((tripRun d L fa fb k acc).2 Set.univ _)
  isplitl [H5]; · iexact H5
  isplitl [H6]; · iexact H6
  iintro ⟨H5, H6⟩
  isplitr
  · ipureintro; rw [tripRun_val, hacc, accTo_succ]
  isplitl [H5]; · iexact H5
  iexact H6

omit [FloatOps F] [Named F] in
theorem landed (b : Ref sig .scVector) (c : Fin τ.nSC) (s : Fin τ.nSub) (f x : b.ty.Contents (Elt F)) :
    ((View.whole b).loc (V d c s) ↦{fullShare} View.write (Elt F) (View.whole b) f x Finset.univ : sProp 𝕄)
      ⊢ (View.whole b).loc (V d c s) ↦{fullShare} x := by
  rw [View.write_whole_univ]

omit [FloatOps F] [Named F] in
theorem tileOf_worker (hL0 : (L 0).val < 2) (hL1 : (L 1).val < 16) (w : Fin 32) (hw : w.val = 2 * (L 1).val + (L 0).val) : tileOf w = L := by
  funext a
  match a with
  | ⟨0, _⟩ => apply Fin.ext; show w.val % 2 = (L 0).val; omega
  | ⟨1, _⟩ => apply Fin.ext; show w.val / 2 = (L 1).val; omega

omit [FloatOps F] [Named F] in
theorem pRow_emb0 (x : S16.Idx) : ((((pRow L).view.emb x) 0 : Fin 32) : ℕ) = 2 * (L 1).val + (L 0).val := by
  have h := Shape.reshapeEquiv_cons_one (n := 1) (d := ![16]) squeezes_S1x16_S16.numel_eq x
  show (k0_off14 L) 0 + 1 * ((Shape.reshapeEquiv squeezes_S1x16_S16.numel_eq x) 0 : ℕ) = _
  rw [h, k0_off14_eq]; show 2 * (L 1).val + (L 0).val + 1 * 0 = _; omega

omit [FloatOps F] [Named F] in
theorem pRow_emb1 (x : S16.Idx) : ((((pRow L).view.emb x) 1 : Fin 16) : ℕ) = (x 0).val := by
  have h := Shape.reshapeEquiv_cons_one (n := 1) (d := ![16]) squeezes_S1x16_S16.numel_eq x
  show (k0_off14 L) 1 + 1 * ((Shape.reshapeEquiv squeezes_S1x16_S16.numel_eq x) 1 : ℕ) = _
  rw [h, k0_off14_eq]; show 0 + 1 * (x 0).val = (x 0).val; omega

omit [FloatOps F] [Named F] in
/-- The row a tile writes, read at the one whole-array function whose row w is worker w's vector. -/
theorem row_final (T : grid0.Coords → S16.Idx → Elt F .f32) (fp : Buf (Elt F) (pLoc d)) (f7 : Buf (Elt F) ((V d (cV L) (jV L)).loc cc0_scratch2)) :
    ((pRow L).view.loc (V d (cV L) (jV L)) ↦[(pRow L).view.set]{fullShare}
        (pRow L).view.writes (Elt F) fp [⟨Rect.whole S16, ReadAs.same.apply (View.read (Elt F) (sO).view ((sO).view.writes (Elt F) f7
          [⟨Rect.unit (s := S16) ![0] S16.size inb_S16_S16_0, T L⟩]))⟩] : sProp 𝕄)
      = pLoc d ↦[rowSet L]{fullShare} (fun i => T (tileOf (i 0)) (ValueIdx.ix1 (i 1))) := by
  refine pointsTo_congr fun i hi => ?_
  obtain ⟨x, -, rfl⟩ := Finset.mem_map.mp hi
  have hx : (Rect.unit (s := S16) ![0] S16.size inb_S16_S16_0).emb x = x := by
    funext a; apply Fin.ext; rw [Rect.emb_apply]; simp
  have hL0 : (L 0).val < 2 := (L 0).isLt
  have hL1 : (L 1).val < 16 := (L 1).isLt
  have e1 : tileOf (((pRow L).view.emb x) 0) = L := tileOf_worker L hL0 hL1 _ (pRow_emb0 L x)
  have e2 : ValueIdx.ix1 (((pRow L).view.emb x) 1) = x := by
    funext a; match a with | ⟨0, _⟩ => exact Fin.ext (pRow_emb1 L x)
  have e3 : (pRow L).view.emb x = ((pRow L).view.slice (Rect.whole S16)).emb x := by simp
  refine Eq.trans ?_ (congr (congrArg T e1) e2).symm
  rw [View.writes_singleton]
  conv_lhs => rw [e3, View.write_emb_of_mem _ _ (Finset.mem_univ x)]
  show (View.read (Elt F) (sO).view ((sO).view.writes (Elt F) f7 [⟨Rect.unit (s := S16) ![0] S16.size inb_S16_S16_0, T L⟩])) x = T L x
  conv_lhs => rw [← hx]
  exact View.read_writes_cons_emb (sO).view f7 (Rect.unit (s := S16) ![0] S16.size inb_S16_S16_0) (T L) [] x

/-! ## The body -/

/-- The kernel on the tile at L: both slabs fetched, the 24 trips by the invariant, the accumulator stored and written
    out to the tile's row, which ends at the partial sums' row. -/
theorem tile_body (hF : (K (F := F)).Facts) (A B : (⟨S4096x3x64, .f32⟩ : BufTy).Contents (Elt F))
    (O : CellTallies nD τ sig (HIx 1)) (W : Waits sig (HIx 1)) (hO : ∀ g, O g none = 0) :
    iprop(levAts (K (F := F)).L (K (F := F)).lev
        ∗ ((aLoc d ↦[slabSet L]{fullShare} A) ∗ (bLoc d ↦[slabSet L]{fullShare} B) ∗ ∃ f, pLoc d ↦[rowSet L]{fullShare} f)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_chamfer L aV (Memref.isWhole_whole _) bV (Memref.isWhole_whole _) pV (Memref.isWhole_whole _)
            sA (Memref.isWhole_whole _) sB (Memref.isWhole_whole _) sO (Memref.isWhole_whole _) cc0_scoped0 cc0_scoped1 cc0_scoped2)
          fun _ => iprop(((aLoc d ↦[slabSet L]{fullShare} A) ∗ (bLoc d ↦[slabSet L]{fullShare} B) ∗ (pLoc d ↦[rowSet L]{fullShare} partials A B))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__sc_chamfer_eq_skeleton]; unfold cc0__sc_chamfer_skel
  rw [(K (F := F)).scopedBufs_V hF d (cV L) (jV L), SparseCore.Cfg.scopedSems0_V (Val := Elt F) d (cV L) (jV L), ownSems0_V, ownBufs_V]
  iintro ⟨#Hlv, ⟨Ha, Hb, %fp, Hp⟩, ⟨⟨%f5, H5⟩, ⟨%f6, H6⟩, ⟨%f7, H7⟩, Hbufs⟩, ⟨Hsem0, Hsem1, Hsem2, Hsems⟩, HO⟩
  ihave Hmw := ((K (F := F)).mayWaits_none (thr := V d (cV L) (jV L)) hO) $$ Hlv
  ihave Ha' := (Entails.of_eq (pts_aSlab (F := F) d L _).symm) $$ Ha
  ihave Hb' := (Entails.of_eq (pts_bSlab (F := F) d L _).symm) $$ Hb
  ihave Hp' := (Entails.of_eq (pts_pRow (F := F) d L _).symm) $$ Hp
  ihave H5' := (Entails.of_eq (pts_sA (F := F) d L _).symm) $$ H5
  ihave H6' := (Entails.of_eq (pts_sB (F := F) d L _).symm) $$ H6
  ihave H7' := (Entails.of_eq (pts_sO (F := F) d L _).symm) $$ H7
  -- the two fetches and their waits
  sl_exec
  ihave H5 := (landed (F := F) d cc0_scratch0 (cV L) (jV L) f5 _) $$ H5'
  ihave H6 := (landed (F := F) d cc0_scratch1 (cV L) (jV L) f6 _) $$ H6'
  -- the trips
  sl_for (inv d L (slabOf L A) (slabOf L B)) $$ [H5 H6]
  case region => exact trip_region d L _ _
  · unfold inv
    isplitr; · ipureintro; rfl
    isplitl [H5]; · iexact H5
    iexact H6
  iintro %acc HI
  unfold inv
  icases HI with ⟨%hacc, H5, H6⟩
  subst hacc
  -- the accumulator stored, written out, the write-out waited for
  sl_exec
  sl_step
  isplitl [Ha' Hb' Hp']
  · isplitl [Ha']; · iexact Ha'
    isplitl [Hb']; · iexact Hb'
    iapply (Entails.of_eq (row_final (F := F) d L (tileAcc A B) fp f7)); iexact Hp'
  isplitl [H5 H6 H7' Hbufs]
  · isplitl [H5]; · iexists _; iexact H5
    isplitl [H6]; · iexists _; iexact H6
    isplitl [H7']; · iexists _; iexact H7'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI

end
-- ==== Proof.ScLaunch.lean ====
import proofs.«212928_g62723702391633_cont_9to1_m_929_36_alg».proof.Proof.Setup
import proofs.«212928_g62723702391633_cont_9to1_m_929_36_alg».proof.Proof.ScTile
import Idealize.ShloMosaic.Lib.Pipeline.Sound
import Idealize.ShloMosaic.Lib.SparseCore.Launch
import Idealize.ShloMosaic.Lib.Tactic

/-!
# The vector subcores' side of the launch

What the four handshakes of the one SparseCore call carry, how a core's operands are its sixteen tiles',
a tile's obligation from its body's, and the launch element: the handshakes' rounds, the region's five
staging cells funded for the TensorCore, the counters dropped.
-/

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## The region's staging cells, as the launch funds them -/

/-- The one admissible contents of each pipeline: none has a prefetched table. -/
abbrev adm : (p : Fin 1) → (pcfgs (F := F) p).Adm := fun p => (cfgs p).toPCfg_adm

/-- The staging cells of the pipelines at those contents are pairwise distinct. -/
theorem pin_inj : Function.Injective (Pipeline.cellOf (nD := nD) (τ := τ) (Pipeline.pin (pcfgs (F := F)) adm)) := cellOf_inj

/-- What device `d`'s TensorCore is dealt for the region: its staging cells' ghost state and the duty tokens of
    the transfers its loop issues. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The same over the printed configurations, which the pinned ones are. -/
theorem G_eq (d : Dev nD) : G (F := F) d = iprop(Pipeline.cellsGhost cfgs EP 0 d ∗ Pipeline.toksInit cfgs EP 0 d) := rfl

/-- The launch element: the handshakes' rounds, the staging cells' rounds, the counters at their unit. -/
def u₀ : UU :=
  (initOf (K (F := F)).hsCells (K (F := F)).hsToks,
    (initOf (Pipeline.cells (Pipeline.pin (pcfgs (F := F)) adm) pin_inj) (Pipeline.launchToks (Pipeline.pin (pcfgs (F := F)) adm) pin_inj), 1))

theorem bigSep_emp' {I : Type} (s : Finset I) : (bigSep s fun _ => iprop(emp)) = (iprop(emp) : sProp 𝕄) := bigSep_emp_const s

/-- Over the one pipeline, a conjunction is its term. -/
theorem bigSep_pipes (Φ : Fin 1 → sProp 𝕄) : bigSep Finset.univ Φ = Φ 0 := bigSep_univ_of_subsingleton (0 : Fin 1)

/-- The launch element's parts: the handshakes' rounds and the staging cells' rounds, each through its embedding; the
    counters dropped. -/
theorem ownU_parts (a : UH) (b : UP) (c : Counters) : (ownU ((a, (b, c)) : UU) : sProp 𝕄) ⊢ iprop(BI.own (EH a) ∗ BI.own (EP b)) := by
  unfold EP
  iintro Hu
  ihave H := (ownU_pair _ _) $$ Hu
  icases H with ⟨HH, HR⟩
  ihave HR' := (own_pair_emb embR _ _) $$ HR
  icases HR' with ⟨HP, -⟩
  isplitl [HH]; · iexact HH
  iexact HP

/-- The launch element without the vector subcores' own part: the handshakes' rounds, each TensorCore's `G`. -/
theorem hu₀_G : (ownU (u₀ (F := F)) : sProp 𝕄)
    ⊢ |={Set.univ}=> iprop(BI.own (EH (initOf (K (F := F)).hsCells (K (F := F)).hsToks)) ∗ bigSep Finset.univ fun d : Dev nD => G (F := F) d) := by
  unfold u₀
  iintro Hu
  ihave H := (ownU_parts _ _ _) $$ Hu
  icases H with ⟨HH, HP⟩
  imod (Pipeline.fund_ghost (Pipeline.pin (pcfgs (F := F)) adm) EP pin_inj) $$ HP with ⟨Hg, Ht⟩
  imodintro
  isplitl [HH]; · iexact HH
  unfold G
  rw [bigSep_sep']
  ihave Hg' := (Entails.of_eq (bigSep_congr fun d _ => bigSep_pipes (fun p => Pipeline.cellsGhost (Pipeline.pin (pcfgs (F := F)) adm) EP p d))) $$ Hg
  ihave Ht' := (Entails.of_eq (bigSep_congr fun d _ => bigSep_pipes (fun p => Pipeline.toksInit (Pipeline.pin (pcfgs (F := F)) adm) EP p d))) $$ Ht
  isplitl [Hg']
  · iexact Hg'
  · iexact Ht'

/-! ## What the handshakes carry -/

variable (m : (ℓ : Loc nD τ sig) → Buf (Elt F) ℓ) (ρ : Dev nD → PrngReg)

/-- The transposed patch arrays as the call finds them: the host operations before it compute them from the arguments. -/
abbrev arrA (d : Dev nD) : (⟨S4096x3x64, .f32⟩ : BufTy).Contents (Elt F) := patches (m (xLoc d))
abbrev arrB (d : Dev nD) : (⟨S4096x3x64, .f32⟩ : BufTy).Contents (Elt F) := patches (m (yLoc d))

/-- The grid point of subcore `i` of core `c`. -/
abbrev tL (c : Fin 2) (i : Fin 16) : grid0.Coords := coordsV c i

/-- A tile's operands: its 24 patches of each array, and its row of the partial sums at some contents. -/
def tileRes (d : Dev nD) (L : grid0.Coords) : sProp 𝕄 :=
  iprop((aLoc d ↦[slabSet L]{fullShare} arrA m d) ∗ (bLoc d ↦[slabSet L]{fullShare} arrB m d) ∗ ∃ f, pLoc d ↦[rowSet L]{fullShare} f)
/-- A tile's results: the same, its row at the partial sums. -/
def tileDone (d : Dev nD) (L : grid0.Coords) : sProp 𝕄 :=
  iprop((aLoc d ↦[slabSet L]{fullShare} arrA m d) ∗ (bLoc d ↦[slabSet L]{fullShare} arrB m d) ∗ (pLoc d ↦[rowSet L]{fullShare} partials (arrA m d) (arrB m d)))

instance tileRes_storable (d : Dev nD) (L : grid0.Coords) : BI.Storable (upEmb : UEmb _ 𝕄) (tileRes m d L) := by unfold tileRes; infer_instance
instance tileDone_storable (d : Dev nD) (L : grid0.Coords) : BI.Storable (upEmb : UEmb _ 𝕄) (tileDone m d L) := by unfold tileDone; infer_instance

/-- The one call hands each core its sixteen tiles' operands, each tile its own, and brings back their results. -/
def P : (K (F := F)).Pay (nD := nD) (Val := Elt F) (Name := ℕ) (U := UU) where
  st := fun q d c => match q with | 0 => bigSep Finset.univ fun i : Fin 16 => tileRes m d (tL (Fin.cast nCore_zero c) i)
  dn := fun q d c => match q with | 0 => bigSep Finset.univ fun i : Fin 16 => tileDone m d (tL (Fin.cast nCore_zero c) i)
  go := fun q d c i => match q with | 0 => tileRes m d (tL (Fin.cast nCore_zero c) (Fin.cast nSub_zero i))
  td := fun q d c i => match q with | 0 => tileDone m d (tL (Fin.cast nCore_zero c) (Fin.cast nSub_zero i))
  x := fun _ _ => iprop(emp)

theorem P_st (d : Dev nD) (c : Fin ((K (F := F)).nCore 0)) :
    (P m).st 0 d c = bigSep Finset.univ fun i : Fin 16 => tileRes m d (tL (Fin.cast nCore_zero c) i) := rfl
theorem P_dn (d : Dev nD) (c : Fin ((K (F := F)).nCore 0)) :
    (P m).dn 0 d c = bigSep Finset.univ fun i : Fin 16 => tileDone m d (tL (Fin.cast nCore_zero c) i) := rfl
theorem P_go (d : Dev nD) (c : Fin ((K (F := F)).nCore 0)) (i : Fin ((K (F := F)).nSub 0)) :
    (P m).go 0 d c i = tileRes m d (tL (Fin.cast nCore_zero c) (Fin.cast nSub_zero i)) := rfl
theorem P_td (d : Dev nD) (c : Fin ((K (F := F)).nCore 0)) (i : Fin ((K (F := F)).nSub 0)) :
    (P m).td 0 d c i = tileDone m d (tL (Fin.cast nCore_zero c) (Fin.cast nSub_zero i)) := rfl
theorem P_x (q : Fin 1) (thr : Thread nD τ) : (P m).x q thr = iprop(emp) := rfl

instance P_storable : (P (F := F) m).IsStorable where
  st q d c := match q with
    | 0 => (inferInstance : BI.Storable (upEmb : UEmb _ 𝕄) (bigSep Finset.univ fun i : Fin 16 => tileRes m d (tL (Fin.cast nCore_zero c) i)))
  dn q d c := match q with
    | 0 => (inferInstance : BI.Storable (upEmb : UEmb _ 𝕄) (bigSep Finset.univ fun i : Fin 16 => tileDone m d (tL (Fin.cast nCore_zero c) i)))
  go q d c i := match q with
    | 0 => (inferInstance : BI.Storable (upEmb : UEmb _ 𝕄) (tileRes m d (tL (Fin.cast nCore_zero c) (Fin.cast nSub_zero i))))
  td q d c i := match q with
    | 0 => (inferInstance : BI.Storable (upEmb : UEmb _ 𝕄) (tileDone m d (tL (Fin.cast nCore_zero c) (Fin.cast nSub_zero i))))

/-! ## A core's operands are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun i => tileRes m d (tL (Fin.cast nCore_zero c) i)),
    bigSep_tasks (F := F) (fun i => tileDone m d (tL (Fin.cast nCore_zero c) i))]
  iintro H; imodintro
  isplitl [H]; · iexact H
  iintro H; iexact H

/-! ## A tile's obligation -/

theorem defs₀_vector (c : Fin τ.nSC) (s : Fin τ.nSub) :
    defs₀ (F := F) (.scVector c s) 0 ()
      = SparseCore.onTile hcore0 hsub0 (fun c s => cc0__sc_chamfer (coordsV c s)
          aV (Memref.isWhole_whole _) bV (Memref.isWhole_whole _) pV (Memref.isWhole_whole _)
          sA (Memref.isWhole_whole _) sB (Memref.isWhole_whole _) sO (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A R B C E : sProp 𝕄} : iprop(A ∗ emp ∗ R ∗ B ∗ C ∗ E) ⊢ iprop(A ∗ R ∗ B ∗ C ∗ E) := by
  iintro ⟨HA, -, HR, HB, HC, HE⟩
  isplitl [HA]; · iexact HA
  isplitl [HR]; · iexact HR
  isplitl [HB]; · iexact HB
  isplitl [HC]; · iexact HC
  iexact HE

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold tileRes tileDone
  exact (obl_pre.trans (tile_body d (coordsV ⟨_, hc.1⟩ ⟨_, hc.2⟩) hF (arrA m d) (arrB m d) O W hO)).trans (wp_mono frame _ _ fun _ => obl_post)

/-! ## The launch element -/

theorem Px_all : (bigSep Finset.univ fun thr : Thread nD τ => bigSep Finset.univ fun q : Fin 1 => (P (F := F) m).x q thr) = iprop(emp) := by
  simp only [P_x]
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [Px_all]
  iintro Hu
  imod (hu₀_G (F := F)) $$ Hu with ⟨HH, HG⟩
  imodintro
  isplitl [HH]; · iexact HH
  isplitl [HG]; · iexact HG
  iempintro

/-! ## The call's operands from the arrays, and its results back -/

/-- A tile's slab and row are their rectangles' elements. -/
theorem slabSet_eq (L : grid0.Coords) : slabSet L = (slabRect L).set := by
  show ((View.whole (main_v1_scv : Ref sig .scVector)).slice (slabRect L)).set = _
  rw [View.set_slice]; exact Finset.map_refl
theorem rowSet_eq (L : grid0.Coords) : rowSet L = (rowRect L).set := by
  show (((View.whole (main_v4_scv : Ref sig .scVector)).slice (rowRect L)).reshape S16 squeezes_S1x16_S16.numel_eq).set = _
  rw [View.set_reshape, View.set_slice]; exact Finset.map_refl

/-- Tile `(c, i)` has the 24 patches from `3328 + 24 (2 i + c)` and row `2 i + c`: distinct tiles' are apart. -/
theorem slabs_disjoint : ∀ t ∈ (Finset.univ : Finset (Fin 2 × Fin 16)), ∀ t' ∈ (Finset.univ : Finset (Fin 2 × Fin 16)), t ≠ t' →
    Disjoint (slabSet (tL t.1 t.2)) (slabSet (tL t'.1 t'.2)) := by
  rintro ⟨c, i⟩ - ⟨c', i'⟩ - h
  rw [slabSet_eq, slabSet_eq]
  have hne : c.val ≠ c'.val ∨ i.val ≠ i'.val := by
    rcases Decidable.em (c.val = c'.val) with e1 | e1
    · exact Or.inr fun e2 => h (Prod.ext (Fin.ext e1) (Fin.ext e2))
    · exact Or.inl e1
  have := c.isLt; have := c'.isLt
  refine Rect.unit_disjoint 0 ?_
  rw [k0_off1_eq, k0_off1_eq]
  show 48 * i.val + 24 * c.val + 3328 + 24 ≤ 48 * i'.val + 24 * c'.val + 3328 ∨ 48 * i'.val + 24 * c'.val + 3328 + 24 ≤ 48 * i.val + 24 * c.val + 3328
  omega
theorem rows_disjoint : ∀ t ∈ (Finset.univ : Finset (Fin 2 × Fin 16)), ∀ t' ∈ (Finset.univ : Finset (Fin 2 × Fin 16)), t ≠ t' →
    Disjoint (rowSet (tL t.1 t.2)) (rowSet (tL t'.1 t'.2)) := by
  rintro ⟨c, i⟩ - ⟨c', i'⟩ - h
  rw [rowSet_eq, rowSet_eq]
  have hne : c.val ≠ c'.val ∨ i.val ≠ i'.val := by
    rcases Decidable.em (c.val = c'.val) with e1 | e1
    · exact Or.inr fun e2 => h (Prod.ext (Fin.ext e1) (Fin.ext e2))
    · exact Or.inl e1
  have := c.isLt; have := c'.isLt
  refine Rect.unit_disjoint 0 ?_
  rw [k0_off14_eq, k0_off14_eq]
  show 2 * i.val + c.val + 1 ≤ 2 * i'.val + c'.val ∨ 2 * i'.val + c'.val + 1 ≤ 2 * i.val + c.val
  omega
/-- The 32 rows are the whole of the partial sums. -/
theorem rows_cover : (Finset.univ : Finset (Fin 2 × Fin 16)).biUnion (fun t => rowSet (tL t.1 t.2)) = Finset.univ := by
  ext x
  simp only [Finset.mem_biUnion, Finset.mem_univ, true_and, iff_true]
  have hx : (x 0).val < 32 := (x 0).isLt
  have hy : (x 1).val < 16 := (x 1).isLt
  refine ⟨(⟨(x 0).val % 2, Nat.mod_lt _ (by decide)⟩, ⟨(x 0).val / 2, by omega⟩), ?_⟩
  rw [rowSet_eq, Rect.mem_set_unit, k0_off14_eq]
  intro a
  match a with
  | 0 => show 2 * ((x 0).val / 2) + (x 0).val % 2 ≤ (x 0).val ∧ (x 0).val < 2 * ((x 0).val / 2) + (x 0).val % 2 + 1; omega
  | 1 => show 0 ≤ (x 1).val ∧ (x 1).val < 0 + 16; omega

/-- The patches the vector subcores read: the 32 tiles' slabs. -/
def scSet : Finset S4096x3x64.Idx := (Finset.univ : Finset (Fin 2 × Fin 16)).biUnion fun t => slabSet (tL t.1 t.2)

theorem pRows (d : Dev nD) (f : Buf (Elt F) (pLoc d)) :
    (pLoc d ↦{fullShare} f : sProp 𝕄) = bigSep Finset.univ fun t : Fin 2 × Fin 16 => pLoc d ↦[rowSet (tL t.1 t.2)]{fullShare} f := by
  rw [← pointsTo_biUnion Finset.univ (ℓ := pLoc d) (fun t : Fin 2 × Fin 16 => rowSet (tL t.1 t.2)) rows_disjoint, rows_cover]; try rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem row_some (d : Dev nD) (L : grid0.Coords) (fp : Buf (Elt F) (pLoc d)) :
    (pLoc d ↦[rowSet L]{fullShare} fp : sProp 𝕄) ⊢ iprop(∃ f, pLoc d ↦[rowSet L]{fullShare} f) := by
  iintro H; iexists fp; iexact H

theorem tiles_res (d : Dev nD) (fp : Buf (Elt F) (pLoc d)) :
    iprop((aLoc d ↦[scSet]{fullShare} arrA m d) ∗ (bLoc d ↦[scSet]{fullShare} arrB m d) ∗ (pLoc d ↦{fullShare} fp))
      ⊢ bigSep Finset.univ fun t : Fin 2 × Fin 16 => tileRes m d (tL t.1 t.2) := by
  unfold scSet tileRes
  rw [pointsTo_biUnion Finset.univ _ slabs_disjoint, pointsTo_biUnion Finset.univ _ slabs_disjoint, pRows, bigSep_sep', bigSep_sep']
  exact sep_mono .rfl (sep_mono .rfl (bigSep_mono fun t _ => row_some d _ fp))

theorem tiles_done (d : Dev nD) :
    (bigSep Finset.univ fun t : Fin 2 × Fin 16 => tileDone m d (tL t.1 t.2))
      ⊢ iprop((aLoc d ↦[scSet]{fullShare} arrA m d) ∗ (bLoc d ↦[scSet]{fullShare} arrB m d) ∗ (pLoc d ↦{fullShare} partials (arrA m d) (arrB m d))) := by
  unfold scSet tileDone
  rw [pointsTo_biUnion Finset.univ _ slabs_disjoint, pointsTo_biUnion Finset.univ _ slabs_disjoint, pRows, bigSep_sep', bigSep_sep']

/-- What the TensorCore hands the call: the vector subcores' patches of both arrays and the partial sums, at any contents. -/
theorem st0_intro (d : Dev nD) (fp : Buf (Elt F) (pLoc d)) :
    iprop((aLoc d ↦[scSet]{fullShare} arrA m d) ∗ (bLoc d ↦[scSet]{fullShare} arrB m d) ∗ (pLoc d ↦{fullShare} fp))
      ⊢ bigSep Finset.univ fun c : Fin ((K (F := F)).nCore 0) => (P m).st 0 d c := by
  simp only [P_st]
  rw [bigSep_cores (F := F) (fun c => bigSep Finset.univ fun i : Fin 16 => tileRes m d (tL c i)),
    ← bigSep_univ_prod (fun t : Fin 2 × Fin 16 => tileRes m d (tL t.1 t.2))]
  exact tiles_res m d fp

/-- What it gets back: the same patches, the partial sums at the tiles' results. -/
theorem dn0_elim (d : Dev nD) :
    (bigSep Finset.univ fun c : Fin ((K (F := F)).nCore 0) => (P m).dn 0 d c)
      ⊢ iprop((aLoc d ↦[scSet]{fullShare} arrA m d) ∗ (bLoc d ↦[scSet]{fullShare} arrB m d) ∗ (pLoc d ↦{fullShare} partials (arrA m d) (arrB m d))) := by
  simp only [P_dn]
  rw [bigSep_cores (F := F) (fun c => bigSep Finset.univ fun i : Fin 16 => tileDone m d (tL c i)),
    ← bigSep_univ_prod (fun t : Fin 2 × Fin 16 => tileDone m d (tL t.1 t.2))]
  exact tiles_done m d

end Cert.Proof.KI

end
-- ==== Proof.TcRegion.lean ====
import proofs.«212928_g62723702391633_cont_9to1_m_929_36_alg».proof.Proof.Setup
import proofs.«212928_g62723702391633_cont_9to1_m_929_36_alg».proof.Proof.Gen.KernelIdeal.Skeleton
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.Tactic

/-!
# The pipelined TensorCore region

Thirteen points; at point `t` the two input windows hold rows `256 t … 256 t + 255` of the two patch
arrays, and the one-element output block is carried from point to point: cleared at point `0`, the
point's sum added at every point, written back after the last. This file gives the region's proof
data, the body's obligation at every point, and what the output array holds at the end: the fold of
the points' sums from zero.
-/

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MM F

/-! ## The arrays' types -/

/-- Contents of a transposed patch array `f32[4096, 3, 64]`. -/
abbrev PatchArr (F : FTy → Type) : Type := (⟨S4096x3x64, .f32⟩ : BufTy).Contents (Elt F)
/-- Contents of the region's result `f32[1, 1]`. -/
abbrev OutArr (F : FTy → Type) : Type := (⟨S1x1, .f32⟩ : BufTy).Contents (Elt F)

/-! ## The blocks and the running sum -/

/-- Block `t` of the first patch array: its rows `256 t … 256 t + 255`. -/
def tcBlkA (A : PatchArr F) (t : Fin cfg1.N) : Vec F S256x3x64 .f32 := ((cfg1.win 0).blk t).view.read (Elt F) A
/-- Block `t` of the second patch array. -/
def tcBlkB (B : PatchArr F) (t : Fin cfg1.N) : Vec F S256x3x64 .f32 := ((cfg1.win 1).blk t).view.read (Elt F) B

/-- What the output block holds after the body at point `n`: at point `0` the point's sum added to
    zero, at a later point the point's sum added to what the point before left. -/
def tcOutsAt (A B : PatchArr F) : (n : ℕ) → n < cfg1.N → Vec F S1x1 .f32
  | 0, hn => k1_pay2 (tcBlkA A ⟨0, hn⟩) (tcBlkB B ⟨0, hn⟩) k1_pay1
  | n + 1, hn => k1_pay2 (tcBlkA A ⟨n + 1, hn⟩) (tcBlkB B ⟨n + 1, hn⟩) (tcOutsAt A B n (Nat.lt_of_succ_lt hn))

theorem tc_N : cfg1.N = 13 := N_1

/-- The region's result: the running sum after the last point. -/
def tcOut (F : FTy → Type) [FloatOps F] [Named F] (A B : PatchArr F) : OutArr F := tcOutsAt A B 12 (by rw [tc_N]; decide)

/-! ## The proof data -/

/-- The region's proof data on core `c`: the two patch arrays at `A`, `B` and the result array at
    anything (`t₀`) on entry; after the body at point `t` each input's buffer at its block and the
    output's at the running sum; no invariant of its own; nothing owed; full shares; the pairs the
    core's waits have recorded bounded by `Rc` throughout (the body records none). -/
def dats (A B : PatchArr F) (t₀ : OutArr F) (Rc : Set (SemLoc sig × HIx 1)) (_ : Fin 1) (c : Dev nD) :
    Dat τ (Elt F) (HIx 1) ℕ UU ℕ cfg1 c where
  A w := match w with
    | ⟨0, _⟩ => A
    | ⟨1, _⟩ => B
    | ⟨2, _⟩ => t₀
  after w t := match w with
    | ⟨0, _⟩ => tcBlkA A t
    | ⟨1, _⟩ => tcBlkB B t
    | ⟨2, _⟩ => tcOutsAt A B t.val t.isLt
  Φ _ := BI.emp
  q _ := fullShare
  owed _ := 0
  recorded _ := Rc

section Data

variable (A B : PatchArr F) (t₀ : OutArr F) (Rc : Set (SemLoc sig × HIx 1)) (p : Fin 1) (c : Dev nD)

theorem dats_A0 : (dats A B t₀ Rc p c).A 0 = A := rfl
theorem dats_A1 : (dats A B t₀ Rc p c).A 1 = B := rfl
theorem dats_A2 : (dats A B t₀ Rc p c).A 2 = t₀ := rfl
theorem dats_Φ (t) : (dats A B t₀ Rc p c).Φ t = (BI.emp : sProp 𝕄) := rfl
theorem dats_owed (t) : (dats A B t₀ Rc p c).owed t = 0 := rfl
theorem dats_recorded (t) : (dats A B t₀ Rc p c).recorded t = Rc := rfl
theorem dats_share (w) : (dats A B t₀ Rc p c).share w = fullShare := by
  unfold Dat.share; split <;> rfl

end Data

/-! ## Loads and stores through a whole staging memref -/

section Whole

variable {sig' : RefSig} {κ : Kind} {sp : Space} {S : Shape} {e : EltTy} {Val : EltTy → Type}

/-- A load through the whole-shape rectangle at zero offsets, of a whole memref held at the contents
    that read `X`, reads `X`. -/
theorem tc_readAt_unit_zero_unread {m : Memref sig' κ sp S e} (h : m.IsWhole) {off : Fin S.rank → ℕ} (ho : off = fun _ => 0)
    (inb : ∀ a, off a + S.size a ≤ S.size a) (X : S.Idx → Val e) :
    View.readAt Val m.view (Rect.unit off S.size inb).toLoadRect (h.unread X) = X := by
  subst ho; funext x; rw [Memref.IsWhole.readAt_unread h X _ x]
  show X ((Rect.whole S).emb x) = X x; rw [Rect.emb_whole_apply]

/-- A store through it, last, leaves its payload, whatever the earlier stores and the contents before. -/
theorem tc_read_writes_cons_unit_zero (v : View sig' κ sp S e) (f : v.ty.Contents Val) {off : Fin S.rank → ℕ}
    (ho : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst ho; funext y
  have e := View.read_writes_cons_emb v f (Rect.whole S) w L y
  rw [Rect.emb_whole_apply] at e; exact e

end Whole

theorem tcZero2 : (![0, 0] : Fin S1x1.rank → ℕ) = fun _ => 0 := by funext a; fin_cases a <;> rfl
theorem tcZero3 : (![0, 0, 0] : Fin S256x3x64.rank → ℕ) = fun _ => 0 := by funext a; fin_cases a <;> rfl

/-! ## The body obligation -/

/-- The condition of the body's conditional, from the grid coordinates. -/
abbrev tcCond (i : grid1.Coords) : Prop :=
  (Scalar.cmpi .ne (Scalar.extui (Scalar.cmpi .eq (BitVec.ofNat 32 (i 0).val) 0#32)) 0#32) = 1#1
/-- It holds at the first point only. -/
theorem tcCond_iff : ∀ t : Fin cfg1.N, tcCond (grid1.coords t) ↔ t.val = 0 :=
  (by decide +kernel : ∀ t : Fin grid1.N, tcCond (grid1.coords t) ↔ t.val = 0)

set_option maxHeartbeats 1000000 in
/-- The body where the condition holds, on any whole staging memrefs: the inputs' at `x0`, `x1`, the
    output's at anything; it leaves the inputs as they were and the output at the point's sum added
    to zero. -/
theorem tc_run_first (c : Dev nD) (i : grid1.Coords) (arg1 : Memref sig .tc .vmem S256x3x64 .f32) (harg1 : arg1.IsWhole)
    (arg2 : Memref sig .tc .vmem S256x3x64 .f32) (harg2 : arg2.IsWhole) (arg3 : Memref sig .tc .vmem S1x1 .f32) (harg3 : arg3.IsWhole)
    (hc : tcCond i) (x0 x1 : Vec F S256x3x64 .f32) (d : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare d
        ∗ (iprop(owns (c : Thread nD τ) arg1 fullShare x0 ∗ owns (c : Thread nD τ) arg2 fullShare x1
            ∗ owns (c : Thread nD τ) arg3 fullShare (k1_pay2 x0 x1 k1_pay1)) -∗ K ⟨⟩))
      ⊢ wp frame (wpE (defs₀ (F := F)) 𝒱₀ c none) E (cc1__chamfer_body i arg1 harg1 arg2 harg2 arg3 harg3) K := by
  simp only [cc1__chamfer_body_eq_skeleton]; unfold cc1__chamfer_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  unfold tc_run_first.sl.v30 tc_run_first.sl.H2_1
  rw [tc_read_writes_cons_unit_zero _ _ tcZero2, tc_readAt_unit_zero_unread harg1 tcZero3, tc_readAt_unit_zero_unread harg2 tcZero3,
    View.readCov_unit_zero _ tcZero2]

set_option maxHeartbeats 1000000 in
/-- The body where the condition fails: the output's buffer at `y`, what the point before left; it
    leaves the inputs as they were and the output at the point's sum added to `y`. -/
theorem tc_run_later (c : Dev nD) (i : grid1.Coords) (arg1 : Memref sig .tc .vmem S256x3x64 .f32) (harg1 : arg1.IsWhole)
    (arg2 : Memref sig .tc .vmem S256x3x64 .f32) (harg2 : arg2.IsWhole) (arg3 : Memref sig .tc .vmem S1x1 .f32) (harg3 : arg3.IsWhole)
    (hc : ¬tcCond i) (x0 x1 : Vec F S256x3x64 .f32) (y : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare y
        ∗ (iprop(owns (c : Thread nD τ) arg1 fullShare x0 ∗ owns (c : Thread nD τ) arg2 fullShare x1
            ∗ owns (c : Thread nD τ) arg3 fullShare (k1_pay2 x0 x1 y)) -∗ K ⟨⟩))
      ⊢ wp frame (wpE (defs₀ (F := F)) 𝒱₀ c none) E (cc1__chamfer_body i arg1 harg1 arg2 harg2 arg3 harg3) K := by
  simp only [cc1__chamfer_body_eq_skeleton]; unfold cc1__chamfer_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [tc_read_writes_cons_unit_zero _ _ tcZero2, tc_readAt_unit_zero_unread harg1 tcZero3, tc_readAt_unit_zero_unread harg2 tcZero3,
    tc_readAt_unit_zero_unread harg3 tcZero2]

/-! ### What the windows' current buffers hold when the body runs -/

section Before

variable (A B : PatchArr F) (t₀ : OutArr F) (Rc : Set (SemLoc sig × HIx 1)) (p : Fin 1) (c : Dev nD)

/-- Each window's current staging memref at point `t`, as the pipeline passes it, and its wholeness. -/
abbrev tcM0 (t : Fin cfg1.N) : Memref sig .tc .vmem S256x3x64 .f32 := win1_0.stage (cfg1.slots t 0)
abbrev tcH0 (t : Fin cfg1.N) : (tcM0 t).IsWhole := hstage1_0 ((cfg1.slots t 0).cast nbuf1_0)
abbrev tcM1 (t : Fin cfg1.N) : Memref sig .tc .vmem S256x3x64 .f32 := win1_1.stage (cfg1.slots t 1)
abbrev tcH1 (t : Fin cfg1.N) : (tcM1 t).IsWhole := hstage1_1 ((cfg1.slots t 1).cast nbuf1_1)
abbrev tcM2 (t : Fin cfg1.N) : Memref sig .tc .vmem S1x1 .f32 := win1_2.stage (cfg1.slots t 2)
abbrev tcH2 (t : Fin cfg1.N) : (tcM2 t).IsWhole := hstage1_2 ((cfg1.slots t 2).cast nbuf1_2)

theorem dats_after0 (t : Fin cfg1.N) : (dats A B t₀ Rc p c).after 0 t = tcBlkA A t := by dsimp only [dats]
theorem dats_after1 (t : Fin cfg1.N) : (dats A B t₀ Rc p c).after 1 t = tcBlkB B t := by dsimp only [dats]
theorem dats_after2 (t : Fin cfg1.N) : (dats A B t₀ Rc p c).after 2 t = tcOutsAt A B t.val t.isLt := by dsimp only [dats]

/-- Each input's current buffer holds its block: it is fetched at every point. -/
theorem dats_before0 (t : Fin cfg1.N) (d) : (dats A B t₀ Rc p c).before 0 t d = tcBlkA A t := by
  rw [Dat.before_fetched _ 0 t (fetch1_0 t) d]
  unfold Dat.fetched Dat.blockOf tcBlkA; rfl
theorem dats_before1 (t : Fin cfg1.N) (d) : (dats A B t₀ Rc p c).before 1 t d = tcBlkB B t := by
  rw [Dat.before_fetched _ 1 t (fetch1_1 t) d]
  unfold Dat.fetched Dat.blockOf tcBlkB; rfl

/-- At the first point the output's buffer holds whatever it held. -/
theorem dats_before2_zero (t : Fin cfg1.N) (h0 : t.val = 0) (d) : (dats A B t₀ Rc p c).before 2 t d = d :=
  Dat.before_out_reset _ 2 rfl t (.inl h0) d

/-- At a later point it holds what the body left at the point before: it is not written back between. -/
theorem dats_before2_pos (t : Fin cfg1.N) (h0 : t.val ≠ 0) (d) :
    (dats A B t₀ Rc p c).before 2 t d = tcOutsAt A B (t.val - 1) (Nat.lt_of_le_of_lt (Nat.sub_le _ _) t.isLt) := by
  have hN : t.val < 13 := lt_of_lt_of_eq t.isLt tc_N
  rw [Dat.before_out_kept _ 2 rfl t h0 (Bool.eq_false_iff.mpr fun h => by have := (flush1_2 _).mp h; dsimp only at this; omega)
    (fun _ => rfl) (fun _ _ => rfl)]
  dsimp only [dats]

/-- The running sum at the first point, -/
theorem tcOutsAt_zero (t : Fin cfg1.N) (h0 : t.val = 0) :
    tcOutsAt A B t.val t.isLt = k1_pay2 (tcBlkA A t) (tcBlkB B t) k1_pay1 := by
  obtain ⟨n, hn⟩ := t
  cases n with
  | zero => rfl
  | succ n => exact absurd h0 (Nat.succ_ne_zero n)

/-- and at a later one. -/
theorem tcOutsAt_pos (t : Fin cfg1.N) (h0 : t.val ≠ 0) :
    tcOutsAt A B t.val t.isLt
      = k1_pay2 (tcBlkA A t) (tcBlkB B t) (tcOutsAt A B (t.val - 1) (Nat.lt_of_le_of_lt (Nat.sub_le _ _) t.isLt)) := by
  obtain ⟨n, hn⟩ := t
  cases n with
  | zero => exact absurd rfl h0
  | succ n => rfl

end Before

/-- What the body is called with at point `t`, the windows one by one, -/
def tcBodyPre (A B : PatchArr F) (t₀ : OutArr F) (Rc : Set (SemLoc sig × HIx 1)) (c : Dev nD) (ι : HIx 1) (t : Fin cfg1.N) : sProp 𝕄 :=
  iprop((dats A B t₀ Rc 0 c).Φ t.castSucc ∗ (dats A B t₀ Rc 0 c).owesAt ι t.castSucc
    ∗ (∃ d, owns (c : Thread nD τ) (tcM0 t) fullShare ((dats A B t₀ Rc 0 c).before 0 t d))
    ∗ (∃ d, owns (c : Thread nD τ) (tcM1 t) fullShare ((dats A B t₀ Rc 0 c).before 1 t d))
    ∗ (∃ d, owns (c : Thread nD τ) (tcM2 t) fullShare ((dats A B t₀ Rc 0 c).before 2 t d)))

/-- and what it returns. -/
def tcBodyPost (A B : PatchArr F) (t₀ : OutArr F) (Rc : Set (SemLoc sig × HIx 1)) (c : Dev nD) (ι : HIx 1) (t : Fin cfg1.N) : sProp 𝕄 :=
  iprop((dats A B t₀ Rc 0 c).Φ t.succ ∗ (dats A B t₀ Rc 0 c).owesAt ι t.succ
    ∗ owns (c : Thread nD τ) (tcM0 t) fullShare ((dats A B t₀ Rc 0 c).after 0 t)
    ∗ owns (c : Thread nD τ) (tcM1 t) fullShare ((dats A B t₀ Rc 0 c).after 1 t)
    ∗ owns (c : Thread nD τ) (tcM2 t) fullShare ((dats A B t₀ Rc 0 c).after 2 t))

set_option maxHeartbeats 800000 in
/-- The body at any point: the inputs' buffers hold their blocks; at the first point the condition
    holds and the output's buffer is cleared first; at a later point it fails and the buffer holds what
    the point before left; the core's tallies pass through unread. -/
theorem tc_sound_body (A B : PatchArr F) (t₀ : OutArr F) (Rc : Set (SemLoc sig × HIx 1)) (c : Dev nD) (ι : HIx 1) (t : Fin cfg1.N) :
    tcBodyPre A B t₀ Rc c ι t ⊢ wp frame (wpE (defs₀ (F := F)) 𝒱₀ c none) Set.univ (bodyAt1 t) (fun _ => tcBodyPost A B t₀ Rc c ι t) := by
  unfold tcBodyPre tcBodyPost bodyAt1
  simp only [dats_before0, dats_before1]
  rw [show (dats A B t₀ Rc 0 c).Φ t.succ = (dats A B t₀ Rc 0 c).Φ t.castSucc from rfl,
    show (dats A B t₀ Rc 0 c).owesAt ι t.succ = (dats A B t₀ Rc 0 c).owesAt ι t.castSucc from rfl,
    dats_after0, dats_after1, dats_after2]
  by_cases h0 : t.val = 0
  · simp only [dats_before2_zero A B t₀ Rc 0 c t h0]
    rw [tcOutsAt_zero A B t h0]
    iintro ⟨HΦ, Ho, ⟨%d0, H0⟩, ⟨%d1, H1⟩, ⟨%d2, H2⟩⟩
    iapply (tc_run_first c (grid1.coords t) _ _ _ _ _ _ ((tcCond_iff t).mpr h0) (tcBlkA A t) (tcBlkB B t) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · simp only [dats_before2_pos A B t₀ Rc 0 c t h0]
    rw [tcOutsAt_pos A B t h0]
    iintro ⟨HΦ, Ho, ⟨%d0, H0⟩, ⟨%d1, H1⟩, ⟨%d2, H2⟩⟩
    iapply (tc_run_later c (grid1.coords t) _ _ _ _ _ _ (fun h => h0 ((tcCond_iff t).mp h)) (tcBlkA A t) (tcBlkB B t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body at every point, from the windows' current buffers at what they then hold to what the
    proof data says it leaves; the core's tallies and recorded pairs pass through untouched. -/
theorem tc_body (A B : PatchArr F) (t₀ : OutArr F) (Rc : Set (SemLoc sig × HIx 1)) (c : Dev nD) (ι : HIx 1) :
    BodyObligation (dats A B t₀ Rc 0 c) (defs₀ (F := F)) 𝒱₀ ι Set.univ := fun t => by
  rw [bigSep_W1, bigSep_W1]
  exact tc_sound_body A B t₀ Rc c ι t

/-- At the index the region's waits are recorded at. -/
theorem body_obligation (A B : PatchArr F) (t₀ : OutArr F) (Rc : Set (SemLoc sig × HIx 1)) (c : Dev nD) :
    BodyObligation (dats A B t₀ Rc 0 c) (defs₀ (F := F)) 𝒱₀ (none : HIx 1) Set.univ :=
  tc_body A B t₀ Rc c none

/-! ## What the arrays hold at the end -/

/-- The result array has one element. -/
theorem tcIdx_elim (x y : S1x1.Idx) : x = y :=
  funext fun a => by fin_cases a <;> exact Subsingleton.elim (α := Fin 1) _ _

/-- The result array after the region: the running sum after the last point. -/
theorem arrAt_out (A B : PatchArr F) (t₀ : OutArr F) (Rc : Set (SemLoc sig × HIx 1)) (c : Dev nD) :
    (dats A B t₀ Rc 0 c).arrAt 2 cfg1.N = tcOut F A B := by
  have hf : (cfg1.win 2).flush t1_12 = true := (flush1_2 t1_12).mpr rfl
  have hdisj : ∀ t t' : Fin cfg1.N, (cfg1.win 2).flush t = true → (cfg1.win 2).flush t' = true → t ≠ t' →
      Disjoint ((cfg1.win 2).blk t).view.set ((cfg1.win 2).blk t').view.set := fun t t' h h' hne =>
    absurd (Fin.ext (by
      have := (flush1_2 t).mp h; have := (flush1_2 t').mp h'
      have := lt_of_lt_of_eq t.isLt tc_N; have := lt_of_lt_of_eq t'.isLt tc_N; omega)) hne
  funext (i : S1x1.Idx)
  have h := (dats A B t₀ Rc 0 c).arrAt_emb_eq_flushed 2 hdisj t1_12 hf i
  have hi : ((cfg1.win 2).blk t1_12).view.emb i = i := tcIdx_elim _ _
  rw [hi] at h
  exact h.trans rfl

/-- The input arrays are never written. -/
theorem arrAt_in0 (A B : PatchArr F) (t₀ : OutArr F) (Rc : Set (SemLoc sig × HIx 1)) (c : Dev nD) (n : ℕ) :
    (dats A B t₀ Rc 0 c).arrAt 0 n = A :=
  (dats A B t₀ Rc 0 c).arrAt_in 0 rfl n
theorem arrAt_in1 (A B : PatchArr F) (t₀ : OutArr F) (Rc : Set (SemLoc sig × HIx 1)) (c : Dev nD) (n : ℕ) :
    (dats A B t₀ Rc 0 c).arrAt 1 n = B :=
  (dats A B t₀ Rc 0 c).arrAt_in 1 rfl n

end Cert.Proof.KI

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.Spec.lean ====
import proofs.«212928_g62723702391633_cont_9to1_m_929_36_alg».proof.Proof.LibERealSage
import Mathlib.Order.CompleteLattice.Basic
import Mathlib.Data.Fintype.BigOperators
import Mathlib.Data.Fin.VecNotation

/-!
# The Chamfer distance between point sets, in the forms the three programs compute it

A *patch* is 64 points of three coordinates. For patches `a` (predicted) and `b` (target) the
squared distance of two points is `|p|² + |q|² − 2 p·q = ∑ d, (p d − q d)²`, which is never
negative over the reals; the Chamfer value of the pair of patches is the sum over `p` of the least
distance to a `q`, plus the sum over `q` of the least distance to a `p`. The whole result is the
mean over 4096 patches of (mean over points forward + mean over points backward), that is the
total times `1 / (64 · 4096) = 2⁻¹⁸`.

Everything is stated on the extended reals; the laws that join the forms need every coordinate
to be a real number (`Cert.LibERealSage.IsReal`).
-/

noncomputable section

namespace Cert.Chamfer

open Cert.LibERealSage

/-- The real constant `-2` as an extended real. -/
def m2 : EReal := ((-2 : ℝ) : EReal)
/-- `1/64`, `1/4096` and `2⁻¹⁸ = 1/(64·4096)` as extended reals. -/
def c64 : EReal := ((1 / 64 : ℝ) : EReal)
def c4096 : EReal := ((1 / 4096 : ℝ) : EReal)
def cScale : EReal := ((1 / 262144 : ℝ) : EReal)

/-- The squared norm of a point, as a sum over its coordinates. -/
def nrm (a : Fin 3 → EReal) : EReal := ∑ d, a d * a d

/-- The least of a family over `Fin 64`, with `⊤` for the empty start. -/
def least (f : Fin 64 → EReal) : EReal := Finset.univ.inf f

/-! ### The reference's form: clamp each squared distance at zero, then minimise -/

/-- `max (|p|² + |q|² − 2 p·q) 0`. -/
def dRef (p q : Fin 3 → EReal) : EReal := max (nrm p + nrm q - (2 : EReal) * ∑ d, p d * q d) 0

/-- Forward plus backward mean of one pair of patches. -/
def refPatch (a b : Fin 64 → Fin 3 → EReal) : EReal :=
  (∑ p, least fun q => dRef (a p) (b q)) * c64 + (∑ q, least fun p => dRef (a p) (b q)) * c64

/-- The reference's result: the mean over the 4096 patches. -/
def refTotal (x y : Fin 4096 → Fin 64 → Fin 3 → EReal) : EReal :=
  (∑ m, refPatch (x m) (y m)) * c4096

/-! ### The matrix-unit form: one contraction of length five, no clamp -/

/-- The left operand's five rows at a point: the coordinates, the squared norm, one. -/
def lhs5 (p : Fin 3 → EReal) : Fin 5 → EReal := ![p 0, p 1, p 2, nrm p, 1]
/-- The right operand's five rows at a point: `-2` times the coordinates, one, the squared norm. -/
def rhs5 (q : Fin 3 → EReal) : Fin 5 → EReal := ![m2 * q 0, m2 * q 1, m2 * q 2, 1, nrm q]

/-- `∑ k, lhs k · rhs k = −2 p·q + |p|² + |q|²`. -/
def dTc (p q : Fin 3 → EReal) : EReal := ∑ k, lhs5 p k * rhs5 q k

/-- Forward plus backward sum of one pair of patches, distances unclamped. -/
def tcPatch (a b : Fin 64 → Fin 3 → EReal) : EReal :=
  (∑ p, least fun q => dTc (a p) (b q)) + (∑ q, least fun p => dTc (a p) (b q))

/-- What grid step `g` adds: 256 patches, forward sums first, then backward sums. -/
def tcBlock (x y : Fin 4096 → Fin 64 → Fin 3 → EReal) (g : Fin 13) : EReal :=
  (∑ r : Fin 256, ∑ p, least fun q => dTc (x ⟨256 * g.val + r.val, by omega⟩ p) (y ⟨256 * g.val + r.val, by omega⟩ q))
    + (∑ r : Fin 256, ∑ q, least fun p => dTc (x ⟨256 * g.val + r.val, by omega⟩ p) (y ⟨256 * g.val + r.val, by omega⟩ q))

/-- The matrix unit's share: patches `0 … 3327`. -/
def tcTotal (x y : Fin 4096 → Fin 64 → Fin 3 → EReal) : EReal := ∑ g, tcBlock x y g

/-! ### The vector-subcore form: minimise lane-wise, then clamp -/

/-- `p 0 · p 0 + p 1 · p 1 + p 2 · p 2`, added left to right. -/
def nrm3 (p : Fin 3 → EReal) : EReal := p 0 * p 0 + p 1 * p 1 + p 2 * p 2

/-- `(|a|² + |b|²) + (−2 b₀) a₀ + (−2 b₁) a₁ + (−2 b₂) a₂`, added left to right. -/
def dSc (a b : Fin 3 → EReal) : EReal :=
  (nrm3 a + nrm3 b) + (m2 * b 0) * a 0 + (m2 * b 1) * a 1 + (m2 * b 2) * a 2

/-- Lane `j` of one direction of one patch: for the four points `16 c + j` of `A`, the least
    distance to a point of `B`, clamped at zero, summed over `c`. -/
def scDir (A B : Fin 64 → Fin 3 → EReal) (j : Fin 16) : EReal :=
  ∑ c : Fin 4, max (least fun q => dSc (A ⟨16 * c.val + j.val, by omega⟩) (B q)) 0

/-- The patch a worker handles at trip `i`: `3328 + 24 w + i`. -/
def scPatch (w : Fin 32) (i : Fin 24) : Fin 4096 := ⟨3328 + 24 * w.val + i.val, by omega⟩

/-- Lane `j` of worker `w`'s accumulator after `n` trips. -/
def scAccTo (x y : Fin 4096 → Fin 64 → Fin 3 → EReal) (w : Fin 32) (n : Nat) (j : Fin 16) : EReal :=
  ∑ i ∈ Finset.univ.filter (fun i : Fin 24 => i.val < n),
    (scDir (x (scPatch w i)) (y (scPatch w i)) j + scDir (y (scPatch w i)) (x (scPatch w i)) j)

/-- Lane `j` of worker `w`'s final accumulator. -/
def scAcc (x y : Fin 4096 → Fin 64 → Fin 3 → EReal) (w : Fin 32) (j : Fin 16) : EReal :=
  ∑ i : Fin 24, (scDir (x (scPatch w i)) (y (scPatch w i)) j + scDir (y (scPatch w i)) (x (scPatch w i)) j)

/-- The vector subcores' share: patches `3328 … 4095`. -/
def scTotal (x y : Fin 4096 → Fin 64 → Fin 3 → EReal) : EReal := ∑ w : Fin 32, ∑ j : Fin 16, scAcc x y w j

/-- The kernel's result. -/
def kerTotal (x y : Fin 4096 → Fin 64 → Fin 3 → EReal) : EReal := (tcTotal x y + scTotal x y) * cScale

/-! ### The laws -/

theorem scAccTo_zero (x y : Fin 4096 → Fin 64 → Fin 3 → EReal) (w : Fin 32) (j : Fin 16) :
    scAccTo x y w 0 j = 0 := by
  unfold scAccTo
  have h : Finset.univ.filter (fun i : Fin 24 => i.val < 0) = ∅ := by
    ext i
    simp only [Finset.mem_filter, Finset.mem_univ, true_and, Nat.not_lt_zero]
    exact iff_of_false (fun h => h) (Finset.notMem_empty i)
  rw [h, Finset.sum_empty]

theorem scAccTo_succ (x y : Fin 4096 → Fin 64 → Fin 3 → EReal) (w : Fin 32) (i : Fin 24) (j : Fin 16) :
    scAccTo x y w (i.val + 1) j
      = scAccTo x y w i.val j + (scDir (x (scPatch w i)) (y (scPatch w i)) j + scDir (y (scPatch w i)) (x (scPatch w i)) j) := by
  unfold scAccTo
  have h : Finset.univ.filter (fun k : Fin 24 => k.val < i.val + 1)
      = insert i (Finset.univ.filter (fun k : Fin 24 => k.val < i.val)) := by
    ext k
    simp only [Finset.mem_filter, Finset.mem_univ, true_and, Finset.mem_insert]
    constructor
    · intro hk
      rcases Nat.lt_succ_iff_lt_or_eq.mp hk with hk | hk
      · exact Or.inr hk
      · exact Or.inl (Fin.ext hk)
    · rintro (hk | hk)
      · rw [hk]; exact Nat.lt_succ_self _
      · exact Nat.lt_succ_of_lt hk
  have hi : i ∉ Finset.univ.filter (fun k : Fin 24 => k.val < i.val) := by
    simp only [Finset.mem_filter, Finset.mem_univ, true_and, Nat.lt_irrefl, not_false_eq_true]
  rw [h, Finset.sum_insert hi, add_comm]

theorem scAccTo_all (x y : Fin 4096 → Fin 64 → Fin 3 → EReal) (w : Fin 32) (j : Fin 16) :
    scAccTo x y w 24 j = scAcc x y w j := by
  unfold scAccTo scAcc
  have h : Finset.univ.filter (fun i : Fin 24 => i.val < 24) = Finset.univ := by
    ext i
    simp only [Finset.mem_filter, Finset.mem_univ, true_and, i.isLt]
  rw [h]

/-! ### Sums over a product of two ranges, read along one range -/

/-- The sum over i below a of the sum over j below b of h (b i + j) is the sum of h below a b. -/
theorem sum_fin_fin {M : Type*} [AddCommMonoid M] (a b : ℕ) (h : ℕ → M) :
    ∑ i : Fin a, ∑ j : Fin b, h (b * i.val + j.val) = ∑ k ∈ Finset.range (a * b), h k := by
  induction a with
  | zero => simp
  | succ a ih =>
    rw [Fin.sum_univ_castSucc, Nat.succ_mul, Finset.sum_range_add, ← ih]
    simp only [Fin.coe_castSucc, Fin.val_last]
    rw [Fin.sum_univ_eq_sum_range (fun j => h (b * a + j)) b, Nat.mul_comm b a]

/-- A family over the numbers below n, continued by zero to all the natural numbers. -/
def ext0 {M : Type*} [Zero M] {n : ℕ} (f : Fin n → M) (k : ℕ) : M :=
  if hk : k < n then f ⟨k, hk⟩ else 0

theorem ext0_of_lt {M : Type*} [Zero M] {n : ℕ} (f : Fin n → M) (k : ℕ) (hk : k < n) :
    ext0 f k = f ⟨k, hk⟩ := dif_pos hk

/-- The 4096 patches are the 13 blocks of 256 followed by the 32 workers' 24 patches each. -/
theorem sum_patches {M : Type*} [AddCommMonoid M] (T : Fin 4096 → M) :
    (∑ g : Fin 13, ∑ r : Fin 256, T ⟨256 * g.val + r.val, by omega⟩)
      + (∑ w : Fin 32, ∑ i : Fin 24, T (scPatch w i)) = ∑ m, T m := by
  have h1 : ∀ (g : Fin 13) (r : Fin 256),
      T ⟨256 * g.val + r.val, by omega⟩ = ext0 T (256 * g.val + r.val) :=
    fun g r => (ext0_of_lt T _ (by omega)).symm
  have h2 : ∀ (w : Fin 32) (i : Fin 24),
      T (scPatch w i) = ext0 T (3328 + (24 * w.val + i.val)) := by
    intro w i
    rw [ext0_of_lt T _ (by omega)]
    exact congrArg T (Fin.ext (Nat.add_assoc 3328 (24 * w.val) i.val))
  have h3 : ∀ m : Fin 4096, T m = ext0 T m.val := fun m => (ext0_of_lt T _ m.isLt).symm
  rw [Finset.sum_congr rfl (fun g _ => Finset.sum_congr rfl (fun r _ => h1 g r)),
    Finset.sum_congr rfl (fun w _ => Finset.sum_congr rfl (fun i _ => h2 w i)),
    Finset.sum_congr rfl (fun m _ => h3 m),
    sum_fin_fin 13 256 (ext0 T), sum_fin_fin 32 24 (fun n => ext0 T (3328 + n)),
    Fin.sum_univ_eq_sum_range (ext0 T) 4096]
  exact (Finset.sum_range_add (ext0 T) 3328 768).symm

/-- The 64 points of a patch are the 16 lanes' 4 points each. -/
theorem sum_lanes {M : Type*} [AddCommMonoid M] (f : Fin 64 → M) :
    ∑ j : Fin 16, ∑ c : Fin 4, f ⟨16 * c.val + j.val, by omega⟩ = ∑ p, f p := by
  have h1 : ∀ (c : Fin 4) (j : Fin 16),
      f ⟨16 * c.val + j.val, by omega⟩ = ext0 f (16 * c.val + j.val) :=
    fun c j => (ext0_of_lt f _ (by omega)).symm
  have h3 : ∀ p : Fin 64, f p = ext0 f p.val := fun p => (ext0_of_lt f _ p.isLt).symm
  rw [Finset.sum_comm,
    Finset.sum_congr rfl (fun c _ => Finset.sum_congr rfl (fun j _ => h1 c j)),
    Finset.sum_congr rfl (fun p _ => h3 p),
    sum_fin_fin 4 16 (ext0 f), Fin.sum_univ_eq_sum_range (ext0 f) 64]

/-! ### Real points -/

/-- The squared distance of two real points. -/
def sqd (p q : Fin 3 → ℝ) : ℝ := (p 0 - q 0) ^ 2 + (p 1 - q 1) ^ 2 + (p 2 - q 2) ^ 2

theorem sqd_nonneg (p q : Fin 3 → ℝ) : 0 ≤ sqd p q := by
  unfold sqd; positivity

theorem sqd_comm (p q : Fin 3 → ℝ) : sqd p q = sqd q p := by
  unfold sqd; ring

theorem two_eq_coe : (2 : EReal) = ((2 : ℝ) : EReal) := by norm_cast

/-- A finite sum of images of real numbers is the image of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem nrm_real (P : Fin 3 → EReal) (p : Fin 3 → ℝ) (hP : ∀ d, P d = (p d : EReal)) :
    nrm P = ((p 0 * p 0 + p 1 * p 1 + p 2 * p 2 : ℝ) : EReal) := by
  unfold nrm
  rw [Fin.sum_univ_three, hP 0, hP 1, hP 2]
  simp only [EReal.coe_mul, EReal.coe_add]

theorem dRef_real (P Q : Fin 3 → EReal) (p q : Fin 3 → ℝ) (hP : ∀ d, P d = (p d : EReal))
    (hQ : ∀ d, Q d = (q d : EReal)) : dRef P Q = ((sqd p q : ℝ) : EReal) := by
  unfold dRef
  have h : nrm P + nrm Q - (2 : EReal) * ∑ d, P d * Q d = ((sqd p q : ℝ) : EReal) := by
    rw [nrm_real P p hP, nrm_real Q q hQ, Fin.sum_univ_three, hP 0, hP 1, hP 2, hQ 0, hQ 1, hQ 2,
      two_eq_coe]
    simp only [← EReal.coe_mul, ← EReal.coe_add, ← EReal.coe_sub]
    exact EReal.coe_eq_coe_iff.mpr (by unfold sqd; ring)
  rw [h]
  exact max_eq_left (EReal.coe_nonneg.mpr (sqd_nonneg p q))

theorem dTc_real (P Q : Fin 3 → EReal) (p q : Fin 3 → ℝ) (hP : ∀ d, P d = (p d : EReal))
    (hQ : ∀ d, Q d = (q d : EReal)) : dTc P Q = ((sqd p q : ℝ) : EReal) := by
  have h : dTc P Q
      = P 0 * (m2 * Q 0) + P 1 * (m2 * Q 1) + P 2 * (m2 * Q 2) + nrm P * 1 + 1 * nrm Q := by
    unfold dTc
    rw [Fin.sum_univ_five]
    rfl
  rw [h, nrm_real P p hP, nrm_real Q q hQ, hP 0, hP 1, hP 2, hQ 0, hQ 1, hQ 2]
  unfold m2
  rw [← EReal.coe_one]
  simp only [← EReal.coe_mul, ← EReal.coe_add]
  exact EReal.coe_eq_coe_iff.mpr (by unfold sqd; ring)

theorem dSc_real (P Q : Fin 3 → EReal) (p q : Fin 3 → ℝ) (hP : ∀ d, P d = (p d : EReal))
    (hQ : ∀ d, Q d = (q d : EReal)) : dSc P Q = ((sqd p q : ℝ) : EReal) := by
  unfold dSc nrm3 m2
  rw [hP 0, hP 1, hP 2, hQ 0, hQ 1, hQ 2]
  simp only [← EReal.coe_mul, ← EReal.coe_add]
  exact EReal.coe_eq_coe_iff.mpr (by unfold sqd; ring)

/-- The least of 64 real numbers, none negative, is a real number and is not negative. -/
theorem least_real (f : Fin 64 → ℝ) (hf : ∀ q, 0 ≤ f q) :
    IsReal (least fun q => (f q : EReal)) ∧ 0 ≤ least fun q => (f q : EReal) := by
  unfold least
  have h0 : (0 : EReal) ≤ Finset.univ.inf fun q => (f q : EReal) :=
    Finset.le_inf (fun q _ => EReal.coe_nonneg.mpr (hf q))
  have h1 : (Finset.univ.inf fun q => (f q : EReal)) ≤ (f 0 : EReal) :=
    Finset.inf_le (Finset.mem_univ 0)
  refine ⟨(isReal_iff _).mpr ⟨?_, ?_⟩, h0⟩
  · exact ne_of_lt (lt_of_le_of_lt h1 (EReal.coe_lt_top _))
  · exact ne_of_gt (lt_of_lt_of_le EReal.bot_lt_zero h0)

/-- For real patches A and B and a point p of A: the least squared distance to a point of B. -/
def lf (A B : Fin 64 → Fin 3 → ℝ) (p : Fin 64) : EReal :=
  least fun q => ((sqd (A p) (B q) : ℝ) : EReal)

theorem lf_isReal (A B : Fin 64 → Fin 3 → ℝ) (p : Fin 64) : IsReal (lf A B p) :=
  (least_real _ (fun _ => sqd_nonneg _ _)).1

theorem lf_nonneg (A B : Fin 64 → Fin 3 → ℝ) (p : Fin 64) : 0 ≤ lf A B p :=
  (least_real _ (fun _ => sqd_nonneg _ _)).2

section Patch

variable (a b : Fin 64 → Fin 3 → EReal) (A B : Fin 64 → Fin 3 → ℝ)
  (ha : ∀ p d, a p d = (A p d : EReal)) (hb : ∀ p d, b p d = (B p d : EReal))
include ha hb

theorem fwd_ref (p : Fin 64) : (least fun q => dRef (a p) (b q)) = lf A B p :=
  congrArg least (funext fun q => dRef_real (a p) (b q) (A p) (B q) (ha p) (hb q))

theorem bwd_ref (q : Fin 64) : (least fun p => dRef (a p) (b q)) = lf B A q :=
  congrArg least (funext fun p => by
    rw [dRef_real (a p) (b q) (A p) (B q) (ha p) (hb q), sqd_comm])

theorem fwd_tc (p : Fin 64) : (least fun q => dTc (a p) (b q)) = lf A B p :=
  congrArg least (funext fun q => dTc_real (a p) (b q) (A p) (B q) (ha p) (hb q))

theorem bwd_tc (q : Fin 64) : (least fun p => dTc (a p) (b q)) = lf B A q :=
  congrArg least (funext fun p => by
    rw [dTc_real (a p) (b q) (A p) (B q) (ha p) (hb q), sqd_comm])

theorem fwd_sc (p : Fin 64) : max (least fun q => dSc (a p) (b q)) 0 = lf A B p := by
  have h : (least fun q => dSc (a p) (b q)) = lf A B p :=
    congrArg least (funext fun q => dSc_real (a p) (b q) (A p) (B q) (ha p) (hb q))
  rw [h]
  exact max_eq_left (lf_nonneg A B p)

end Patch

/-- On real coordinates the three forms of the squared distance agree and are not negative, so
    the kernel's total times `2⁻¹⁸` is the reference's mean of means. -/
theorem kerTotal_eq_refTotal (x y : Fin 4096 → Fin 64 → Fin 3 → EReal)
    (hx : ∀ m p d, IsReal (x m p d)) (hy : ∀ m p d, IsReal (y m p d)) :
    kerTotal x y = refTotal x y := by
  have hx' : ∀ m p d, ∃ r : ℝ, x m p d = (r : EReal) := hx
  have hy' : ∀ m p d, ∃ r : ℝ, y m p d = (r : EReal) := hy
  choose X hX using hx'
  choose Y hY using hy'
  have hker : tcTotal x y + scTotal x y
      = ∑ m, (∑ p, lf (X m) (Y m) p + ∑ q, lf (Y m) (X m) q) := by
    rw [← sum_patches (fun m => ∑ p, lf (X m) (Y m) p + ∑ q, lf (Y m) (X m) q)]
    refine congrArg₂ (· + ·) ?_ ?_
    · unfold tcTotal tcBlock
      refine Finset.sum_congr rfl (fun g _ => ?_)
      rw [← Finset.sum_add_distrib]
      refine Finset.sum_congr rfl (fun r _ => ?_)
      refine congrArg₂ (· + ·) ?_ ?_
      · exact Finset.sum_congr rfl (fun p _ => fwd_tc _ _ _ _ (hX _) (hY _) p)
      · exact Finset.sum_congr rfl (fun q _ => bwd_tc _ _ _ _ (hX _) (hY _) q)
    · unfold scTotal scAcc
      refine Finset.sum_congr rfl (fun w _ => ?_)
      rw [Finset.sum_comm]
      refine Finset.sum_congr rfl (fun i _ => ?_)
      rw [Finset.sum_add_distrib]
      refine congrArg₂ (· + ·) ?_ ?_
      · unfold scDir
        rw [← sum_lanes (lf (X (scPatch w i)) (Y (scPatch w i)))]
        exact Finset.sum_congr rfl (fun j _ => Finset.sum_congr rfl (fun c _ =>
          fwd_sc _ _ _ _ (hX _) (hY _) _))
      · unfold scDir
        rw [← sum_lanes (lf (Y (scPatch w i)) (X (scPatch w i)))]
        exact Finset.sum_congr rfl (fun j _ => Finset.sum_congr rfl (fun c _ =>
          fwd_sc _ _ _ _ (hY _) (hX _) _))
  have href : ∀ m, refPatch (x m) (y m)
      = (∑ p, lf (X m) (Y m) p) * c64 + (∑ q, lf (Y m) (X m) q) * c64 := by
    intro m
    unfold refPatch
    rw [Finset.sum_congr rfl (fun p _ => fwd_ref _ _ _ _ (hX m) (hY m) p),
      Finset.sum_congr rfl (fun q _ => bwd_ref _ _ _ _ (hX m) (hY m) q)]
  have hF : ∀ m, ∃ r : ℝ, ∑ p, lf (X m) (Y m) p = (r : EReal) :=
    fun m => isReal_sum_univ (lf (X m) (Y m)) (lf_isReal (X m) (Y m))
  have hB : ∀ m, ∃ r : ℝ, ∑ q, lf (Y m) (X m) q = (r : EReal) :=
    fun m => isReal_sum_univ (lf (Y m) (X m)) (lf_isReal (Y m) (X m))
  choose F hF using hF
  choose B hB using hB
  unfold kerTotal refTotal
  rw [hker, Finset.sum_congr rfl (fun m _ => href m)]
  simp only [hF, hB]
  unfold c64 c4096 cScale
  simp only [← EReal.coe_mul, ← EReal.coe_add]
  rw [coe_sum, coe_sum, ← EReal.coe_mul, ← EReal.coe_mul]
  apply EReal.coe_eq_coe_iff.mpr
  rw [Finset.sum_mul, Finset.sum_mul]
  refine Finset.sum_congr rfl (fun m _ => ?_)
  ring

end Cert.Chamfer

end
-- ==== Proof.Tail.lean ====
import proofs.«212928_g62723702391633_cont_9to1_m_929_36_alg».proof.Proof.Setup
import proofs.«212928_g62723702391633_cont_9to1_m_929_36_alg».proof.Proof.Spec
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value

/-!
# What the host does with the two shares

After both kernels @main reshapes the region's `1 × 1` sum to a scalar, sums the subcores'
`32 × 16` partial sums, adds the two and multiplies by `2⁻¹⁸`.
-/

noncomputable section

namespace Cert.Proof.KI

open Cert.KernelIdeal Cert.KernelIdeal.Gen
open Idealize.ShloMosaic Idealize.ShloMosaic.ValueIdx

variable {F : FTy → Type} [FloatOps F] [Named F]

/-- The program's result from the subcores' partial sums `Ps` and the region's sum `Ts`:
    `(reshape Ts + reduce-add Ps) · 2⁻¹⁸`, operation by operation as @main applies them. -/
def result (Ps : (⟨S32x16, .f32⟩ : BufTy).Contents (Elt F)) (Ts : (⟨S1x1, .f32⟩ : BufTy).Contents (Elt F)) :
    (⟨S_, .f32⟩ : BufTy).Contents (Elt F) :=
  mulf (addf (shapeCast S_ Ts shapeCasts_S1x1_S_)
      (Host.reduceAdd Ps (constant S_ .f32 0x00000000#32) reducesTo_S32x16_S_d0_1 h_S_))
    (constant S_ .f32 0x36800000#32)

/-- The f32 word `0x36800000` is `2⁻¹⁸ = 1 / 262144`. -/
theorem ofBits_scale : Ideal.ofBits .f32 0x36800000#32 = Cert.Chamfer.cScale := by
  unfold Cert.Chamfer.cScale
  simp [Ideal.ofBits, Ideal.ieee, -EReal.coe_mul]
  norm_num

/-- At the ideal values the result is the region's sum plus every partial sum, times `2⁻¹⁸`. -/
theorem result_ideal (Ps : (⟨S32x16, .f32⟩ : BufTy).Contents (Elt Ideal)) (Ts : (⟨S1x1, .f32⟩ : BufTy).Contents (Elt Ideal))
    (i : S_.Idx) :
    result (F := Ideal) Ps Ts i
      = (Ts (ix2 0 0) + ∑ w : Fin 32, ∑ j : Fin 16, Ps (ix2 w j)) * Cert.Chamfer.cScale := by
  unfold result
  simp only [mulf, addf, constant, Ideal.mulf_def, Ideal.addf_def, Ideal.ofBits_def, ofBits_scale, Ideal.ofBits_zero_f32, hostReduceAdd_apply]
  rw [Ideal.hostReduceAdd_total reducesTo_S32x16_S_d0_1 (fun b => b.elim0), zero_add, sum_idx2,
    shapeCast_apply Ts shapeCasts_S1x1_S_ i (ix2 0 0) (by
      show (S1x1.rowMajor (ix2 (0 : Fin 1) (0 : Fin 1))).val = (S_.rowMajor i).val
      have h1 : (S1x1.rowMajor (ix2 (0 : Fin 1) (0 : Fin 1))).val < 1 := (S1x1.rowMajor (ix2 (0 : Fin 1) (0 : Fin 1))).isLt
      have h2 : (S_.rowMajor i).val < 1 := (S_.rowMajor i).isLt
      omega)]

end Cert.Proof.KI

end
-- ==== Proof.Main.lean ====
import proofs.«212928_g62723702391633_cont_9to1_m_929_36_alg».proof.Proof.Setup
import proofs.«212928_g62723702391633_cont_9to1_m_929_36_alg».proof.Proof.ScLaunch
import proofs.«212928_g62723702391633_cont_9to1_m_929_36_alg».proof.Proof.TcRegion
import proofs.«212928_g62723702391633_cont_9to1_m_929_36_alg».proof.Proof.Tail
import Idealize.ShloMosaic.Lib.Pipeline.Regions
import Idealize.ShloMosaic.Lib.Pipeline.Frame

/-!
# @main on the TensorCore, and the program's run

@main makes the two transposed patch arrays by four host operations, starts the 32 vector subcores on the
patches 3328 and above and waits for them, runs the 13-point pipelined region on the whole patch arrays,
and combines the two shares by six more host operations. Its proof follows that order: each line of host
operations over the TensorCore's unscoped arrays held whole; the call from the upper rows of the two patch
arrays and the partial sums, which come back with the partial sums in; the region as one segment between
two states of the unscoped arrays, its waits recorded at the lowest level so that the handshake state the
call left survives it; and the result read off the arrays at the end. The run of the whole program is the
launch theorem applied to this, to the tiles' obligation and to the launch element.
-/

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat BodyObligation)

variable {F : FTy → Type} [FloatOps F] [Named F]

local notation "𝕄" => MM F

/-! ## The region -/

/-- A valuation of the TensorCore's arrays on device d. -/
abbrev TcVal (F : FTy → Type) (d : Dev nD) : Type := (b : Ref sig .tc) → Buf (Elt F) ((d.tc : Thread nD τ).loc b)

/-- The pairs a TensorCore's waits may have recorded by the end of the call: those of level at most 8. -/
def Rc8 (d : Dev nD) : Set (SemLoc sig × HIx 1) := {p | (K (F := F)).lev ((d.tc : Thread nD τ), p.1) p.2 ≤ 8}

/-- What the TensorCore owes around the region: nothing, its recorded pairs of level at most 8. -/
abbrev owesTc (d : Dev nD) : sProp 𝕄 :=
  iprop(∃ W, ⌜(K (F := F)).WBelow (d.tc : Thread nD τ) W 8⌝ ∗ owes (d.tc : Thread nD τ) (0 : CellTallies nD τ sig (HIx 1)) W)

/-- The TensorCore's arrays after the region: the region's result array at f, every other as before. -/
def setOut (d : Dev nD) (V : TcVal F d) (f : OutArr F) : TcVal F d := Function.update V main_v5 f

/-- The region's proof data entered from the arrays at V. -/
abbrev rdats (V : (d : Dev nD) → TcVal F d) (p : Fin 1) (c : Dev nD) : Dat τ (Elt F) (HIx 1) ℕ UU ℕ cfg1 c :=
  dats (V c main_v1) (V c main_v3) (V c main_v5) (Rc8 (F := F) c) p c

/-- The arrays after the region. -/
abbrev outVal (V : (d : Dev nD) → TcVal F d) (c : Dev nD) : TcVal F c := setOut c (V c) (tcOut F (V c main_v1) (V c main_v3))

theorem rdats_A (V : (d : Dev nD) → TcVal F d) (c : Dev nD) (w : Fin 3) :
    (rdats V 0 c).A w = V c (Pipeline.arrRef spec1 w) := by
  match w with
  | ⟨0, _⟩ => rfl
  | ⟨1, _⟩ => rfl
  | ⟨2, _⟩ => rfl

theorem arrAt_exit (V : (d : Dev nD) → TcVal F d) (c : Dev nD) (w : Fin 3) :
    (rdats V 0 c).arrAt w cfg1.N = outVal V c (Pipeline.arrRef spec1 w) := by
  match w with
  | ⟨0, _⟩ => exact (arrAt_in0 _ _ _ _ c _).trans (Function.update_of_ne (show main_v1 ≠ main_v5 by decide) _ _).symm
  | ⟨1, _⟩ => exact (arrAt_in1 _ _ _ _ c _).trans (Function.update_of_ne (show main_v3 ≠ main_v5 by decide) _ _).symm
  | ⟨2, _⟩ => exact (arrAt_out _ _ _ _ c).trans (show tcOut F (V c main_v1) (V c main_v3) = Function.update (V c) main_v5 (tcOut F (V c main_v1) (V c main_v3)) main_v5 from (Function.update_self (β := fun b : Ref sig .tc => Buf (Elt F) ((c.tc : Thread nD τ).loc b)) main_v5 (tcOut F (V c main_v1) (V c main_v3)) (V c)).symm)

theorem rest_exit (V : (d : Dev nD) → TcVal F d) (c : Dev nD) :
    (Pipeline.unscopedRest spec1 c (V c) : sProp 𝕄) = Pipeline.unscopedRest spec1 c (outVal V c) := by
  unfold Pipeline.unscopedRest
  exact bigSep_congr fun b hb => by
    have hne : b ≠ main_v5 := fun h => (Finset.mem_sdiff.mp hb).2 (h ▸ Finset.mem_image_of_mem _ (Finset.mem_univ (2 : Fin 3)))
    unfold outVal setOut; rw [Function.update_of_ne hne]

set_option backward.isDefEq.respectTransparency.types false in
theorem reg_entry (V : (d : Dev nD) → TcVal F d) (c : Dev nD) :
    iprop((unscopedBufs c (V c) ∗ owesTc (F := F) c) ∗ Pipeline.ownSems0 (fun k : PEmpty => (k.elim : SemLoc sig)) c ∗ levAts (K (F := F)).L (K (F := F)).lev)
      ⊢ |={Set.univ}=> iprop((rdats V 0 c).arrays ((rdats V 0 c).arrAt · 0)
          ∗ Pipeline.prefHeld (pcfgs (F := F) 0).pre c (fun _ => fullShare) (adm (F := F) 0).1
          ∗ (rdats V 0 c).owesAt (none : HIx 1) 0 ∗ (emp : sProp 𝕄) ∗ Pipeline.unscopedRest spec1 c (V c)) := by
  have hsplit := Pipeline.arrays_of_unscopedBufs (p := 0) (pcfgs (F := F)) adm (rdats V) launch1.win launch1.arr_whole c
    (fun w => dats_share _ _ _ _ _ _ w) (V c) (rdats_A V c)
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, %hW, HO⟩; iexists W; isplitr
    · ipureintro; exact fun p hp => Or.inl (hW p (Finset.mem_coe.mp hp))
    iexact HO
  isplitr; · iempintro
  iexact Hrest

set_option backward.isDefEq.respectTransparency.types false in
theorem reg_exit (V : (d : Dev nD) → TcVal F d) (c : Dev nD) :
    iprop((rdats V 0 c).arrays ((rdats V 0 c).arrAt · cfg1.N) ∗ (rdats V 0 c).owesAt (none : HIx 1) (Fin.last cfg1.N)
        ∗ (emp : sProp 𝕄) ∗ Pipeline.unscopedRest spec1 c (V c))
      ⊢ |={Set.univ}=> iprop(unscopedBufs c (outVal V c) ∗ owesTc (F := F) c) := by
  rw [Pipeline.unscopedBufs_split (Pipeline.pin (pcfgs (F := F)) adm) 0 launch1.win.arr_unscoped launch1.win.arr_inj c,
    Pipeline.arrays_eq (Pipeline.pin (pcfgs (F := F)) adm) (rdats V) 0 c launch1.arr_whole (fun w => dats_share _ _ _ _ _ _ w), ← rest_exit,
    bigSep_congr fun (w : Fin 3) _ => by rw [arrAt_exit V c w]]
  iintro ⟨Ha, HO, -, HZ⟩
  imodintro
  isplitr [HO]
  · isplitl [Ha]
    · iexact Ha
    · iexact HZ
  · unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · exact Nat.zero_le _
    iexact HO

set_option backward.isDefEq.respectTransparency.types false in
def reg (V : (d : Dev nD) → TcVal F d) :
    Pipeline.RegionSeg (pcfgs (F := F)) adm (rdats V)
      (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation _ _ _ _ c).loose
  hwaits := Pipeline.hwaits_of_owed_zero _ _ _ _ _ _ 0 fun _ _ => rfl
  pre c := iprop(unscopedBufs c (V c) ∗ owesTc (F := F) c)
  post c := iprop(unscopedBufs c (outVal V c) ∗ owesTc (F := F) c)
  X c := iprop(emp)
  Y c := iprop(emp)
  Z c := Pipeline.unscopedRest spec1 c (V c)
  hentry c := reg_entry V c
  hin c := by
    iintro -; iempintro
  hout c := by
    rw [scopedRest1_eq]; unfold Pipeline.ownSems0
    rw [show (Finset.univ : Finset PEmpty) = ∅ from Finset.univ_eq_empty, BI.bigSep_empty]
    iintro -
    isplitr; · iempintro
    isplitr <;> iempintro
  hexit c := reg_exit V c

/-! ## The region under the extended body table -/

section Region

variable [∀ e, Nonempty (Elt F e)]

set_option backward.isDefEq.respectTransparency.types false in
/-- The region under the program's own body table, entered from the arrays at V: it leaves them at outVal V. -/
theorem wp_region₀ (V : (d : Dev nD) → TcVal F d) (d : Dev nD) (Φ : PUnit → sProp 𝕄) :
    iprop(levAts (K (F := F)).L (K (F := F)).lev ∗ boundary (d.tc : Thread nD τ) ∗ unscopedBufs d (V d) ∗ owesTc (F := F) d ∗ G (F := F) d
        ∗ (iprop(boundary (d.tc : Thread nD τ) ∗ unscopedBufs d (outVal V d) ∗ owesTc (F := F) d) -∗ Φ ⟨⟩))
      ⊢ wp frame (wpE (D (F := F)) 𝒱 (d.tc : Thread nD τ) none) Set.univ
          (.op (.customCall (Pipeline.entry 0) ()) fun _ => .ret ⟨⟩) Φ := by
  have hR := Pipeline.RegionSeg.wp (pcfgs (F := F)) adm (rdats V) (none : HIx 1) pin_inj EP defs₀ 𝒱₀
    (K (F := F)).L (K (F := F)).lev (reg V) d none (fun _ h => nomatch h) (fun _ => .ret ⟨⟩) Φ
  rw [show (reg V).post d = iprop(unscopedBufs d (outVal V d) ∗ owesTc (F := F) d) from rfl,
    show (reg V).pre d = iprop(unscopedBufs d (V d) ∗ owesTc (F := F) d) from rfl] at hR
  refine BIBase.Entails.trans ?_ hR
  iintro ⟨#Hlv, Hb, Hub, HO, HG, Hk⟩
  isplitl [Hk]
  · iintro ⟨Hb, Hub, HO⟩
    rw [wp_ret]; imodintro
    iapply Hk
    isplitl [Hb]; · iexact Hb
    isplitl [Hub] <;> iassumption
  isplitl [Hb]; · iexact Hb
  isplitl [Hub HO]
  · isplitl [Hub] <;> iassumption
  isplitr; · iexact Hlv
  unfold G; iexact HG

theorem lift_entry :
    (SparseCore.liftProg (Q := 1) (.op (.customCall (Pipeline.entry (0 : Fin 1)) ()) fun _ => .ret ⟨⟩ :
        Prog (TpuEff nD τ sig (Elt F) (ΛP (F := F)) .tc) PUnit))
      = Prog.lift (.customCall (SparseCore.inner (Pipeline.entry (0 : Fin 1))) ()) := rfl

/-- The same under the extended body table, as @main calls it. -/
theorem wp_region (V : (d : Dev nD) → TcVal F d) (d : Dev nD) (Φ : PUnit → sProp 𝕄) :
    iprop(levAts (K (F := F)).L (K (F := F)).lev ∗ boundary (d.tc : Thread nD τ) ∗ unscopedBufs d (V d) ∗ owesTc (F := F) d ∗ G (F := F) d
        ∗ (iprop(boundary (d.tc : Thread nD τ) ∗ unscopedBufs d (outVal V d) ∗ owesTc (F := F) d) -∗ Φ ⟨⟩))
      ⊢ wp frame (wpE ((K (F := F)).defs (D (F := F))) 𝒱 (d.tc : Thread nD τ) none) Set.univ
          (Prog.lift (.customCall (SparseCore.inner (Pipeline.entry 0)) ())) Φ := by
  rw [← lift_entry]
  exact (wp_region₀ V d Φ).trans ((K (F := F)).wp_liftProg (D (F := F)) 𝒱 (d.tc : Thread nD τ) Set.univ none _ Φ)

end Region

/-! ## The host operations around the two kernels -/

/-- The TensorCore's unscoped arrays, as device buffers. -/
def ucRefs : Finset (DevRef τ sig) :=
  (Finset.univ.filter fun b : Ref sig .tc => ¬ b.isScoped).map ⟨Proc.devRef (sig := sig) (.tc : Proc τ), Proc.devRef_injective _⟩

theorem mem_ucRefs (b : Ref sig .tc) (h : b.isScoped = false) : Proc.devRef (τ := τ) .tc b ∈ ucRefs :=
  Finset.mem_map_of_mem _ (Finset.mem_filter.mpr ⟨Finset.mem_univ b, by rw [h]; exact Bool.false_ne_true⟩)

/-- A valuation of the device's buffers read at the TensorCore's arrays. -/
abbrev atTc (d : Dev nD) (W : Valuation τ sig (Elt F)) : TcVal F d := fun b => W (Proc.devRef .tc b)

/-- The unscoped arrays at a valuation are that set held at it. -/
theorem unscopedBufs_eq_held (d : Dev nD) (W : Valuation τ sig (Elt F)) :
    (unscopedBufs d (atTc d W) : sProp 𝕄) = held (d.tc : Thread nD τ) ucRefs W := by
  unfold unscopedBufs held ucRefs
  rw [bigSep_map]
  rfl

/-- Writing one array of a valuation, read at the TensorCore's arrays. -/
theorem atTc_update (d : Dev nD) (W : Valuation τ sig (Elt F)) (r : Ref sig .tc) (f : (Proc.devRef (τ := τ) .tc r).ty.Contents (Elt F)) :
    atTc d (Function.update W (Proc.devRef .tc r) f)
      = Function.update (β := fun b : Ref sig .tc => Buf (Elt F) ((d.tc : Thread nD τ).loc b)) (atTc d W) r f := by
  funext b
  by_cases h : b = r
  · subst h; rw [Function.update_self]; exact Function.update_self _ _ _
  · rw [Function.update_of_ne h]; exact Function.update_of_ne (StableHlo.devRef_ne_of_ne h) _ _

abbrev x' : DevRef τ sig := Proc.devRef .tc (main_arg0 : Ref sig .tc)
abbrev y' : DevRef τ sig := Proc.devRef .tc (main_arg1 : Ref sig .tc)
abbrev a' : DevRef τ sig := Proc.devRef .tc (main_v1 : Ref sig .tc)
abbrev b' : DevRef τ sig := Proc.devRef .tc (main_v3 : Ref sig .tc)
abbrev p' : DevRef τ sig := Proc.devRef .tc (main_v4 : Ref sig .tc)
abbrev t' : DevRef τ sig := Proc.devRef .tc (main_v5 : Ref sig .tc)
abbrev r' : DevRef τ sig := Proc.devRef .tc (main_v9 : Ref sig .tc)

abbrev opR0 : HloOp τ sig (Elt F) := StableHlo.reshape main_arg0 main_v0 rfl shapeCasts_S32x128x64x3_S4096x64x3
abbrev opT0 : HloOp τ sig (Elt F) := StableHlo.unary main_v0 main_v1 ((transpose S4096x3x64 [0, 2, 1] · transposes_S4096x64x3_S4096x3x64_0_2_1) : (⟨S4096x64x3, .f32⟩ : BufTy).Contents (Elt F) → (⟨S4096x3x64, .f32⟩ : BufTy).Contents (Elt F))
abbrev opR1 : HloOp τ sig (Elt F) := StableHlo.reshape main_arg1 main_v2 rfl shapeCasts_S32x128x64x3_S4096x64x3
abbrev opT1 : HloOp τ sig (Elt F) := StableHlo.unary main_v2 main_v3 ((transpose S4096x3x64 [0, 2, 1] · transposes_S4096x64x3_S4096x3x64_0_2_1) : (⟨S4096x64x3, .f32⟩ : BufTy).Contents (Elt F) → (⟨S4096x3x64, .f32⟩ : BufTy).Contents (Elt F))
abbrev opS5 : HloOp τ sig (Elt F) := StableHlo.reshape main_v5 main_v6 rfl shapeCasts_S1x1_S_
abbrev opC0 : HloOp τ sig (Elt F) := StableHlo.nullary main_cst (constant S_ .f32 0x00000000#32)
abbrev opRed : HloOp τ sig (Elt F) := StableHlo.binary main_v4 main_cst main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opAdd : HloOp τ sig (Elt F) := StableHlo.binary main_v6 main_v7 main_v8 (addf : (⟨S_, .f32⟩ : BufTy).Contents (Elt F) → (⟨S_, .f32⟩ : BufTy).Contents (Elt F) → (⟨S_, .f32⟩ : BufTy).Contents (Elt F))
abbrev opC1 : HloOp τ sig (Elt F) := StableHlo.nullary main_cst_0 (constant S_ .f32 0x36800000#32)
abbrev opMul : HloOp τ sig (Elt F) := StableHlo.binary main_v8 main_cst_0 main_v9 (mulf : (⟨S_, .f32⟩ : BufTy).Contents (Elt F) → (⟨S_, .f32⟩ : BufTy).Contents (Elt F) → (⟨S_, .f32⟩ : BufTy).Contents (Elt F))

/-- The four operations before the SparseCore call, the six after the region. -/
def ops0 : List (HloOp τ sig (Elt F)) := [opR0, opT0, opR1, opT1]
def ops1 : List (HloOp τ sig (Elt F)) := [opS5, opC0, opRed, opAdd, opC1, opMul]

/-- @main: the first line, the SparseCore call, the region, the second line. -/
theorem main_eq (d : Dev nD) :
    main (F := F) d = (StableHlo.seq ops0 >>= fun _ => (K (F := F)).run d 0 >>= fun _ =>
      Prog.lift (.customCall (SparseCore.inner (Pipeline.entry 0)) ()) >>= fun _ => StableHlo.seq ops1 >>= fun _ => pure ⟨⟩) := by
  unfold main ops0 ops1
  simp only [StableHlo.seq, bind_assoc, pure_bind]

/-! ## The arrays' contents along @main -/

theorem ops0_sub : ∀ op ∈ (ops0 (F := F)), op.bufs ⊆ ucRefs := by
  intro op h
  simp only [ops0, List.mem_cons, List.mem_nil_iff, or_false] at h
  rcases h with rfl | rfl | rfl | rfl <;>
    simp only [StableHlo.reshape_bufs, StableHlo.unary_bufs, Finset.insert_subset_iff, Finset.singleton_subset_iff] <;>
    exact ⟨mem_ucRefs _ rfl, mem_ucRefs _ rfl⟩

theorem ops1_sub : ∀ op ∈ (ops1 (F := F)), op.bufs ⊆ ucRefs := by
  intro op h
  simp only [ops1, List.mem_cons, List.mem_nil_iff, or_false] at h
  rcases h with rfl | rfl | rfl | rfl | rfl | rfl <;>
    simp only [StableHlo.reshape_bufs, StableHlo.nullary_bufs, StableHlo.binary_bufs, Finset.insert_subset_iff, Finset.singleton_subset_iff] <;>
    first | exact mem_ucRefs _ rfl | exact ⟨mem_ucRefs _ rfl, mem_ucRefs _ rfl⟩ | exact ⟨mem_ucRefs _ rfl, mem_ucRefs _ rfl, mem_ucRefs _ rfl⟩

theorem ops0_fresh : ∀ op ∈ (ops0 (F := F)), op.fresh = ∅ := by
  intro op h
  simp only [ops0, List.mem_cons, List.mem_nil_iff, or_false] at h
  rcases h with rfl | rfl | rfl | rfl <;> rfl

theorem ops1_fresh : ∀ op ∈ (ops1 (F := F)), op.fresh = ∅ := by
  intro op h
  simp only [ops1, List.mem_cons, List.mem_nil_iff, or_false] at h
  rcases h with rfl | rfl | rfl | rfl | rfl | rfl <;> rfl

section Main

variable (m : (ℓ : Loc nD τ sig) → Buf (Elt F) ℓ) (ρ : Dev nD → PrngReg)

/-- The launch valuation. -/
def W0 (d : Dev nD) : Valuation τ sig (Elt F) := fun b => m (d, b)
/-- After the first line: the two transposed patch arrays are made. -/
def WA (d : Dev nD) : Valuation τ sig (Elt F) := StableHlo.after ops0 (W0 m d)
/-- After the SparseCore call: the partial sums are in. -/
def WB (d : Dev nD) : Valuation τ sig (Elt F) := Function.update (WA m d) p' (partials (arrA m d) (arrB m d))
/-- After the region: its sum is in. -/
def WC (d : Dev nD) : Valuation τ sig (Elt F) := Function.update (WB m d) t' (tcOut F (arrA m d) (arrB m d))
/-- After the second line. -/
def WD (d : Dev nD) : Valuation τ sig (Elt F) := StableHlo.after ops1 (WC m d)

theorem WA_a (d : Dev nD) : WA m d a' = arrA m d := by
  unfold WA ops0 opR0 opT0 opR1 opT1
  rw [StableHlo.after_cons, StableHlo.after_cons, StableHlo.after_cons, StableHlo.after_cons, StableHlo.after_nil]
  rw [StableHlo.unary_result_ne main_v2 main_v3 _ _ _ _ (show (main_v1 : Ref sig .tc) ≠ main_v3 by decide), StableHlo.reshape_result_ne main_arg1 main_v2 _ _ _ _ _ (show (main_v1 : Ref sig .tc) ≠ main_v2 by decide),
    StableHlo.unary_result, StableHlo.reshape_result]
  rfl
theorem WA_b (d : Dev nD) : WA m d b' = arrB m d := by
  unfold WA ops0 opR0 opT0 opR1 opT1
  rw [StableHlo.after_cons, StableHlo.after_cons, StableHlo.after_cons, StableHlo.after_cons, StableHlo.after_nil]
  rw [StableHlo.unary_result, StableHlo.reshape_result,
    StableHlo.unary_result_ne main_v0 main_v1 _ _ _ _ (show (main_arg1 : Ref sig .tc) ≠ main_v1 by decide), StableHlo.reshape_result_ne main_arg0 main_v0 _ _ _ _ _ (show (main_arg1 : Ref sig .tc) ≠ main_v0 by decide)]
  rfl
theorem WA_x (d : Dev nD) : WA m d x' = m (xLoc d) := by
  unfold WA ops0 opR0 opT0 opR1 opT1
  rw [StableHlo.after_cons, StableHlo.after_cons, StableHlo.after_cons, StableHlo.after_cons, StableHlo.after_nil]
  rw [StableHlo.unary_result_ne main_v2 main_v3 _ _ _ _ (show (main_arg0 : Ref sig .tc) ≠ main_v3 by decide), StableHlo.reshape_result_ne main_arg1 main_v2 _ _ _ _ _ (show (main_arg0 : Ref sig .tc) ≠ main_v2 by decide),
    StableHlo.unary_result_ne main_v0 main_v1 _ _ _ _ (show (main_arg0 : Ref sig .tc) ≠ main_v1 by decide), StableHlo.reshape_result_ne main_arg0 main_v0 _ _ _ _ _ (show (main_arg0 : Ref sig .tc) ≠ main_v0 by decide)]
  rfl
theorem WA_y (d : Dev nD) : WA m d y' = m (yLoc d) := by
  unfold WA ops0 opR0 opT0 opR1 opT1
  rw [StableHlo.after_cons, StableHlo.after_cons, StableHlo.after_cons, StableHlo.after_cons, StableHlo.after_nil]
  rw [StableHlo.unary_result_ne main_v2 main_v3 _ _ _ _ (show (main_arg1 : Ref sig .tc) ≠ main_v3 by decide), StableHlo.reshape_result_ne main_arg1 main_v2 _ _ _ _ _ (show (main_arg1 : Ref sig .tc) ≠ main_v2 by decide),
    StableHlo.unary_result_ne main_v0 main_v1 _ _ _ _ (show (main_arg1 : Ref sig .tc) ≠ main_v1 by decide), StableHlo.reshape_result_ne main_arg0 main_v0 _ _ _ _ _ (show (main_arg1 : Ref sig .tc) ≠ main_v0 by decide)]
  rfl

theorem WB_a (d : Dev nD) : WB m d a' = arrA m d := (Function.update_of_ne (show a' ≠ p' by decide) _ _).trans (WA_a m d)
theorem WB_b (d : Dev nD) : WB m d b' = arrB m d := (Function.update_of_ne (show b' ≠ p' by decide) _ _).trans (WA_b m d)
theorem WB_p (d : Dev nD) : WB m d p' = partials (arrA m d) (arrB m d) := Function.update_self _ _ _
theorem WC_t (d : Dev nD) : WC m d t' = tcOut F (arrA m d) (arrB m d) := Function.update_self _ _ _
theorem WC_p (d : Dev nD) : WC m d p' = partials (arrA m d) (arrB m d) := (Function.update_of_ne (show p' ≠ t' by decide) _ _).trans (WB_p m d)
theorem WC_x (d : Dev nD) : WC m d x' = m (xLoc d) :=
  (Function.update_of_ne (show x' ≠ t' by decide) _ _).trans ((Function.update_of_ne (show x' ≠ p' by decide) _ _).trans (WA_x m d))
theorem WC_y (d : Dev nD) : WC m d y' = m (yLoc d) :=
  (Function.update_of_ne (show y' ≠ t' by decide) _ _).trans ((Function.update_of_ne (show y' ≠ p' by decide) _ _).trans (WA_y m d))

theorem WD_x (d : Dev nD) : WD m d x' = m (xLoc d) := by
  unfold WD ops1 opS5 opC0 opRed opAdd opC1 opMul
  rw [StableHlo.after_cons, StableHlo.after_cons, StableHlo.after_cons, StableHlo.after_cons, StableHlo.after_cons, StableHlo.after_cons, StableHlo.after_nil]
  rw [StableHlo.binary_result_ne main_v8 main_cst_0 main_v9 _ _ _ _ _ (show (main_arg0 : Ref sig .tc) ≠ main_v9 by decide), StableHlo.nullary_result_ne main_cst_0 _ _ _ (show (main_arg0 : Ref sig .tc) ≠ main_cst_0 by decide),
    StableHlo.binary_result_ne main_v6 main_v7 main_v8 _ _ _ _ _ (show (main_arg0 : Ref sig .tc) ≠ main_v8 by decide), StableHlo.binary_result_ne main_v4 main_cst main_v7 _ _ _ _ _ (show (main_arg0 : Ref sig .tc) ≠ main_v7 by decide),
    StableHlo.nullary_result_ne main_cst _ _ _ (show (main_arg0 : Ref sig .tc) ≠ main_cst by decide), StableHlo.reshape_result_ne main_v5 main_v6 _ _ _ _ _ (show (main_arg0 : Ref sig .tc) ≠ main_v6 by decide)]
  exact WC_x m d
theorem WD_y (d : Dev nD) : WD m d y' = m (yLoc d) := by
  unfold WD ops1 opS5 opC0 opRed opAdd opC1 opMul
  rw [StableHlo.after_cons, StableHlo.after_cons, StableHlo.after_cons, StableHlo.after_cons, StableHlo.after_cons, StableHlo.after_cons, StableHlo.after_nil]
  rw [StableHlo.binary_result_ne main_v8 main_cst_0 main_v9 _ _ _ _ _ (show (main_arg1 : Ref sig .tc) ≠ main_v9 by decide), StableHlo.nullary_result_ne main_cst_0 _ _ _ (show (main_arg1 : Ref sig .tc) ≠ main_cst_0 by decide),
    StableHlo.binary_result_ne main_v6 main_v7 main_v8 _ _ _ _ _ (show (main_arg1 : Ref sig .tc) ≠ main_v8 by decide), StableHlo.binary_result_ne main_v4 main_cst main_v7 _ _ _ _ _ (show (main_arg1 : Ref sig .tc) ≠ main_v7 by decide),
    StableHlo.nullary_result_ne main_cst _ _ _ (show (main_arg1 : Ref sig .tc) ≠ main_cst by decide), StableHlo.reshape_result_ne main_v5 main_v6 _ _ _ _ _ (show (main_arg1 : Ref sig .tc) ≠ main_v6 by decide)]
  exact WC_y m d
theorem WD_r (d : Dev nD) : WD m d r' = result (partials (arrA m d) (arrB m d)) (tcOut F (arrA m d) (arrB m d)) := by
  unfold WD ops1 opS5 opC0 opRed opAdd opC1 opMul
  rw [StableHlo.after_cons, StableHlo.after_cons, StableHlo.after_cons, StableHlo.after_cons, StableHlo.after_cons, StableHlo.after_cons, StableHlo.after_nil]
  rw [StableHlo.binary_result, StableHlo.nullary_result_ne main_cst_0 _ _ _ (show (main_v8 : Ref sig .tc) ≠ main_cst_0 by decide), StableHlo.nullary_result,
    StableHlo.binary_result, StableHlo.binary_result_ne main_v4 main_cst main_v7 _ _ _ _ _ (show (main_v6 : Ref sig .tc) ≠ main_v7 by decide), StableHlo.binary_result,
    StableHlo.nullary_result_ne main_cst _ _ _ (show (main_v6 : Ref sig .tc) ≠ main_cst by decide), StableHlo.nullary_result_ne main_cst _ _ _ (show (main_v4 : Ref sig .tc) ≠ main_cst by decide), StableHlo.nullary_result,
    StableHlo.reshape_result, StableHlo.reshape_result_ne main_v5 main_v6 _ _ _ _ _ (show (main_v4 : Ref sig .tc) ≠ main_v6 by decide), WC_t, WC_p]
  rfl

end Main

/-! ## @main on the TensorCore -/

section Run

variable (m : (ℓ : Loc nD τ sig) → Buf (Elt F) ℓ) (ρ : Dev nD → PrngReg)

/-- The three arrays the SparseCore call works on. -/
abbrev T3 : Finset (DevRef τ sig) := {a', b', p'}
/-- The three arrays the claim reads. -/
abbrev TF : Finset (DevRef τ sig) := {x', y', r'}

theorem T3_sub : (T3 : Finset (DevRef τ sig)) ⊆ ucRefs := by
  simp only [T3, Finset.insert_subset_iff, Finset.singleton_subset_iff]
  exact ⟨mem_ucRefs _ rfl, mem_ucRefs _ rfl, mem_ucRefs _ rfl⟩
theorem TF_sub : (TF : Finset (DevRef τ sig)) ⊆ ucRefs := by
  simp only [TF, Finset.insert_subset_iff, Finset.singleton_subset_iff]
  exact ⟨mem_ucRefs _ rfl, mem_ucRefs _ rfl, mem_ucRefs _ rfl⟩

/-- The unscoped arrays: the call's three, and the rest. -/
theorem held_T3 (d : Dev nD) (W : Valuation τ sig (Elt F)) :
    (held (d.tc : Thread nD τ) ucRefs W : sProp 𝕄)
      = iprop(((aLoc d ↦{fullShare} W a') ∗ (bLoc d ↦{fullShare} W b') ∗ (pLoc d ↦{fullShare} W p')) ∗ held (d.tc : Thread nD τ) (ucRefs \ T3) W) := by
  have h3 : (held (d.tc : Thread nD τ) T3 W : sProp 𝕄)
      = iprop((aLoc d ↦{fullShare} W a') ∗ (bLoc d ↦{fullShare} W b') ∗ (pLoc d ↦{fullShare} W p')) := by
    unfold held T3
    rw [SparseCore.bigSep_insert' (by decide), SparseCore.bigSep_insert' (by decide), bigSep_singleton]
  rw [StableHlo.held_sub_split (d.tc : Thread nD τ) T3_sub W, h3]

/-- The unscoped arrays: the claim's three, and the rest. -/
theorem held_TF (d : Dev nD) (W : Valuation τ sig (Elt F)) :
    (held (d.tc : Thread nD τ) ucRefs W : sProp 𝕄)
      = iprop(((xLoc d ↦{fullShare} W x') ∗ (yLoc d ↦{fullShare} W y') ∗ (rLoc d ↦{fullShare} W r')) ∗ held (d.tc : Thread nD τ) (ucRefs \ TF) W) := by
  have h3 : (held (d.tc : Thread nD τ) TF W : sProp 𝕄)
      = iprop((xLoc d ↦{fullShare} W x') ∗ (yLoc d ↦{fullShare} W y') ∗ (rLoc d ↦{fullShare} W r')) := by
    unfold held TF
    rw [SparseCore.bigSep_insert' (by decide), SparseCore.bigSep_insert' (by decide), bigSep_singleton]
  rw [StableHlo.held_sub_split (d.tc : Thread nD τ) TF_sub W, h3]

/-- The arrays the call does not touch are the same before and after it. -/
theorem held_rest_WB (d : Dev nD) :
    (held (d.tc : Thread nD τ) (ucRefs \ T3) (WB m d) : sProp 𝕄) = held (d.tc : Thread nD τ) (ucRefs \ T3) (WA m d) :=
  StableHlo.held_congr (d.tc : Thread nD τ) fun b hb => by
    have hne : b ≠ p' := fun h => (Finset.mem_sdiff.mp hb).2 (h ▸ by simp only [T3, Finset.mem_insert, Finset.mem_singleton, or_true])
    unfold WB; rw [Function.update_of_ne hne]

/-- The region's arrays after it, from the arrays after the call. -/
theorem outVal_WB (d : Dev nD) : outVal (fun d => atTc d (WB m d)) d = atTc d (WC m d) := by
  unfold outVal setOut WC
  rw [atTc_update]
  show Function.update (atTc d (WB m d)) main_v5 (tcOut F (WB m d a') (WB m d b')) = _
  rw [WB_a, WB_b]

/-- The unscoped arrays as the region leaves them, held at the valuation after it. -/
theorem region_out (d : Dev nD) :
    (unscopedBufs d (outVal (fun d => atTc d (WB m d)) d) : sProp 𝕄) = held (d.tc : Thread nD τ) ucRefs (WC m d) := by
  rw [outVal_WB, unscopedBufs_eq_held]

/-- The TensorCore's handshake state after the call: what it owes, and the rest. -/
theorem tcSt_one (d : Dev nD) : ∃ R : sProp 𝕄, ((K (F := F)).tcSt EH d 1 : sProp 𝕄) = iprop(owesTc (F := F) d ∗ R) :=
  ⟨_, by unfold SparseCore.Cfg.tcSt; rw [(K (F := F)).Otc_end d le_rfl]⟩

/-- The level facts, out of the records every thread consults. -/
theorem ctx_lev (κ : GSem nD τ sig → ℕ) :
    ((K (F := F)).ctx EH (P m) κ : sProp 𝕄) ⊢ levAts (K (F := F)).L (K (F := F)).lev := by
  unfold SparseCore.Cfg.ctx; exact sep_elim_left

/-- What @main leaves the claim: the two arguments as launched, the result at the program's value. -/
abbrev FIN (d : Dev nD) : sProp 𝕄 :=
  iprop((xLoc d ↦{fullShare} m (xLoc d)) ∗ (yLoc d ↦{fullShare} m (yLoc d))
    ∗ (rLoc d ↦{fullShare} result (partials (arrA m d) (arrB m d)) (tcOut F (arrA m d) (arrB m d))))

variable [∀ e, Nonempty (Elt F e)]

set_option maxHeartbeats 1000000 in
/-- @main on device d's TensorCore: the first line of host operations, the SparseCore call on the two patch arrays' upper
    rows and the partial sums, the pipelined region on the whole patch arrays, the second line. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨Rst, hRst⟩ := tcSt_one (F := F) d
  have hRst' : ((K (F := F)).tcSt EH d ((0 : Fin 1).val + 1) : sProp 𝕄) = iprop(owesTc (F := F) d ∗ Rst) := hRst
  unfold SparseCore.Cfg.tcRes
  rw [main_eq, show (fun b => m ((SparseCore.T d : Thread nD τ).loc b)) = atTc d (W0 m d) from rfl, unscopedBufs_eq_held]
  iintro ⟨#Hctx, Hst, ⟨Hb, Hheld, -, -⟩, HG⟩
  -- the first line
  iapply (StableHlo.wp_seq 𝒱 none Set.univ d ucRefs _ ops0 ops0_sub ops0_fresh (W0 m d)) $$ [Hb Hheld]
  · isplitl [Hb] <;> iassumption
  iintro ⟨Hb, Hheld⟩
  rw [show StableHlo.after ops0 (W0 m d) = WA m d from rfl]
  ihave Hh := (Entails.of_eq (held_T3 d (WA m d))) $$ Hheld
  icases Hh with ⟨⟨Ha, Hbb, Hp⟩, Hrest⟩
  rw [WA_a, WA_b]
  ihave Ha2 := (pointsTo_split_subset (Finset.subset_univ scSet)).1 $$ Ha
  icases Ha2 with ⟨Ha, Har⟩
  ihave Hb2 := (pointsTo_split_subset (Finset.subset_univ scSet)).1 $$ Hbb
  icases Hb2 with ⟨Hbb, Hbr⟩
  -- the SparseCore call
  rw [wp_bind]
  iapply ((K (F := F)).wp_run (D (F := F)) 𝒱 (EH := EH) (P := P m) κ d 0) $$ [Hst Ha Hbb Hp Har Hbr Hrest Hb HG]
  isplitr; · iexact Hctx
  isplitl [Hst]; · iexact Hst
  isplitl [Ha Hbb Hp]
  · iapply (st0_intro m d _)
    isplitl [Ha]; · iexact Ha
    isplitl [Hbb]; · iexact Hbb
    iexact Hp
  iintro ⟨Hst, Hdn⟩
  ihave Hdn' := (dn0_elim m d) $$ Hdn
  icases Hdn' with ⟨Ha, Hbb, Hp⟩
  ihave Ha := (pointsTo_split_subset (ℓ := aLoc d) (q := fullShare) (f := arrA m d) (Finset.subset_univ scSet)).2 $$ [Ha Har]
  · isplitl [Ha] <;> iassumption
  ihave Hbb := (pointsTo_split_subset (ℓ := bLoc d) (q := fullShare) (f := arrB m d) (Finset.subset_univ scSet)).2 $$ [Hbb Hbr]
  · isplitl [Hbb] <;> iassumption
  ihave Hheld := (Entails.of_eq ((held_T3 d (WB m d)).trans (by rw [WB_a, WB_b, WB_p, held_rest_WB])).symm) $$ [Ha Hbb Hp Hrest]
  · isplitl [Ha Hbb Hp]
    · isplitl [Ha]; · iexact Ha
      isplitl [Hbb] <;> iassumption
    · iexact Hrest
  ihave Hub := (Entails.of_eq (unscopedBufs_eq_held d (WB m d)).symm) $$ Hheld
  -- the region
  ihave Hst' := (Entails.of_eq hRst') $$ Hst
  icases Hst' with ⟨HO, HR⟩
  ihave Hlv := (ctx_lev m κ) $$ Hctx
  rw [wp_bind]
  iapply (wp_region (fun d => atTc d (WB m d)) d _) $$ [Hb Hub HO HG HR]
  isplitr; · iexact Hlv
  isplitl [Hb]; · iexact Hb
  isplitl [Hub]; · iexact Hub
  isplitl [HO]; · iexact HO
  isplitl [HG]; · iexact HG
  iintro ⟨Hb, Hub, HO⟩
  ihave Hub := (Entails.of_eq (region_out m d)) $$ Hub
  -- the second line
  iapply (StableHlo.wp_seq 𝒱 none Set.univ d ucRefs _ ops1 ops1_sub ops1_fresh (WC m d)) $$ [Hb Hub]
  · isplitl [Hb] <;> iassumption
  iintro ⟨Hb, Hheld⟩
  rw [show StableHlo.after ops1 (WC m d) = WD m d from rfl]
  ihave Hh := (Entails.of_eq (held_TF d (WD m d))) $$ Hheld
  icases Hh with ⟨⟨Hx, Hy, Hr⟩, -⟩
  rw [WD_x, WD_y, WD_r, wp_pure]; imodintro
  isplitl [HO HR]
  · rw [hRst]; isplitl [HO] <;> iassumption
  isplitl [Hx]; · iexact Hx
  isplitl [Hy] <;> iassumption

/-! ## The program's run -/

def fq (d : Dev nD) (s' : Phys nD τ sig (Elt F)) : Prop :=
  s'.mem.mem (rLoc d) = result (partials (arrA m d) (arrB m d)) (tcOut F (arrA m d) (arrB m d))
    ∧ s'.mem.mem (xLoc d) = m (xLoc d) ∧ s'.mem.mem (yLoc d) = m (yLoc d)

omit [∀ e, Nonempty (Elt F e)] in
theorem hfin (d : Dev nD) (s' : Phys nD τ sig (Elt F)) : iprop(FIN m d ∗ SI s') ⊢ (⌜fq m d s'⌝ : sProp 𝕄) := by
  iintro ⟨⟨Hx, Hy, Hr⟩, HSI⟩
  icombine HSI Hx gives %hx
  icombine HSI Hy gives %hy
  icombine HSI Hr gives %hr
  ipureintro
  exact ⟨funext fun i => hr i (Finset.mem_univ i), funext fun i => hx i (Finset.mem_univ i), funext fun i => hy i (Finset.mem_univ i)⟩

/-- The claim's post: on every device the result array holds the program's value of the two argument arrays, and these
    are as launched. -/
def QC : PUnit × MemSt nD τ sig (Elt F) → Prop := fun r =>
  ∀ c : Dev nD, r.2.mem (rLoc c) = result (partials (arrA m c) (arrB m c)) (tcOut F (arrA m c) (arrB m c))
    ∧ r.2.mem (xLoc c) = m (xLoc c) ∧ r.2.mem (yLoc c) = m (yLoc c)

/-- From any memory with every semaphore at zero, every weakly fair execution of the device's threads terminates, and
    every final state has the result array at the program's value and the arguments unchanged. -/
theorem run_main : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Run

end Cert.Proof.KI

end
-- ==== Proof.MinChain.lean ====
import proofs.«212928_g62723702391633_cont_9to1_m_929_36_alg».proof.Proof.Spec
import Mathlib.Data.Finset.Lattice.Fold
import Mathlib.Data.List.Basic

/-!
# Running minima

A running minimum started at `⊤` and updated once for each index of a list is the least value
over the list's indices; two such running minima over lists that together hold every index of
`Fin 64` combine, by one more `min`, to the least value over all 64.
-/

noncomputable section

namespace Cert.Chamfer

/-- The running minimum of `f` along the list `L`, from the start value `s`. -/
def runMin (f : Fin 64 → EReal) (s : EReal) (L : List (Fin 64)) : EReal := L.foldl (fun m q => min m (f q)) s

theorem runMin_nil (f : Fin 64 → EReal) (s : EReal) : runMin f s [] = s := rfl

theorem runMin_cons (f : Fin 64 → EReal) (s : EReal) (q : Fin 64) (L : List (Fin 64)) :
    runMin f s (q :: L) = runMin f (min s (f q)) L := rfl

/-- The running minimum is the start value met with the least value over the list. -/
theorem runMin_eq (f : Fin 64 → EReal) (s : EReal) (L : List (Fin 64)) :
    runMin f s L = s ⊓ L.toFinset.inf f := by
  induction L generalizing s with
  | nil => simp [runMin]
  | cons q L ih =>
    rw [runMin_cons, ih, List.toFinset_cons, Finset.inf_insert]
    show (s ⊓ f q) ⊓ _ = s ⊓ (f q ⊓ _)
    exact inf_assoc _ _ _

/-- Two running minima from `⊤` over lists that together hold every index give the least value. -/
theorem min_runMin_eq_least (f : Fin 64 → EReal) (L0 L1 : List (Fin 64))
    (h : L0.toFinset ∪ L1.toFinset = Finset.univ) :
    min (runMin f ⊤ L0) (runMin f ⊤ L1) = least f := by
  rw [runMin_eq, runMin_eq, top_inf_eq, top_inf_eq]
  show L0.toFinset.inf f ⊓ L1.toFinset.inf f = least f
  rw [← Finset.inf_union, h]
  rfl

end Cert.Chamfer

end
-- ==== Proof.Points.lean ====
import Idealize.ShloMosaic.Lib.ValueIdx
import Idealize.ShloMosaic.PureOps.Ideal

/-! The input array `f32[32, 128, 64, 3]` read as 4096 patches of 64 points of 3 coordinates:
    patch `m = 128 b + g` is entry `(b, g)` (the row-major flattening of the two leading axes). -/

namespace Cert.Chamfer

open Idealize.ShloMosaic

/-- The input array's shape. -/
abbrev SIn : Shape := ⟨4, ![32, 128, 64, 3]⟩

/-- The input array as patches of points. -/
def pts (X : SIn.Idx → EReal) : Fin 4096 → Fin 64 → Fin 3 → EReal :=
  fun m p d => X (ValueIdx.ix4 (⟨m.val / 128, by omega⟩ : Fin 32) (⟨m.val % 128, by omega⟩ : Fin 128) p d)

end Cert.Chamfer
-- ==== Proof.ScTileValue.lean ====
import proofs.«212928_g62723702391633_cont_9to1_m_929_36_alg».proof.Proof.ScTile
import proofs.«212928_g62723702391633_cont_9to1_m_929_36_alg».proof.Proof.MinChain
import proofs.«212928_g62723702391633_cont_9to1_m_929_36_alg».proof.Proof.Points
import Idealize.ShloMosaic.PureOps.Ideal
import Idealize.ShloMosaic.PureOps.IdealRules
import Idealize.ShloMosaic.Lib.Pipeline.Value

/-!
# What the vector-subcore kernel computes, at the extended reals

The trip's accumulator, read at a lane: the old accumulator plus, for each direction of the patch
pair and each of the four points the lane holds, the least squared distance to the other patch
(two interleaved running minima met) clamped at zero. Over the 24 trips of a worker that is the
specification's accumulator, and the partial sums are its table.
-/

noncomputable section

namespace Cert.Proof.KI

open Cert.KernelIdeal Cert.KernelIdeal.Gen

open Idealize.ShloMosaic
open Idealize.ShloMosaic.Tactic

/-! ## Reading a scratch at a trip's row -/

theorem reshape3 (h : S16.numel = S1x1x16.numel) (i : S16.Idx) :
    Shape.reshapeEquiv h i = Fin.cons ⟨0, Nat.one_pos⟩ (Fin.cons ⟨0, Nat.one_pos⟩ i) := by
  have h1 : S16.numel = S1x16.numel := rfl
  have h2 : S1x16.numel = S1x1x16.numel := rfl
  rw [show Shape.reshapeEquiv h i = Shape.reshapeEquiv h2 (Shape.reshapeEquiv h1 i) from
    (Shape.reshapeEquiv_reshapeEquiv h2 h1 i).symm]
  rw [Shape.reshapeEquiv_cons_one (n := 1) (d := ![16]) h1 i, Shape.reshapeEquiv_cons_one (n := 2) (d := ![1, 16]) h2 _]
  rfl

theorem leaf_sA (f : (⟨S24x3x64, .f32⟩ : BufTy).Contents (Elt Ideal)) (off : Fin 3 → ℕ)
    (inb : ∀ a, off a + (![1, 1, 16] : Fin 3 → ℕ) a ≤ S24x3x64.size a) (h : S1x1x16.ShapeCasts S16) (i : S16.Idx) :
    View.readAt (Elt Ideal) (View.whole cc0_scratch0) (Rect.unit (s := S24x3x64) off ![1, 1, 16] inb).toLoadRect f ((@Shape.reshapeEquiv S1x1x16 S16 h) i)
      = f (ValueIdx.ix3 (⟨off 0, by have := inb 0; simp at this; omega⟩ : Fin 24) (⟨off 1, by have := inb 1; simp at this; omega⟩ : Fin 3)
          (⟨off 2 + (i 0).val, by have := inb 2; have := (i 0).isLt; simp at *; omega⟩ : Fin 64)) := by
  rw [reshape3]
  simp only [View.readAt_apply, View.read_whole]
  congr 1
  funext a
  apply Fin.ext
  rw [LoadRect.idx_apply]
  match a with
  | ⟨0, _⟩ => show off 0 + 1 * 0 = off 0; omega
  | ⟨1, _⟩ => show off 1 + 1 * 0 = off 1; omega
  | ⟨2, _⟩ => show off 2 + 1 * (i 0).val = off 2 + (i 0).val; omega

theorem leaf_sB (f : (⟨S24x3x64, .f32⟩ : BufTy).Contents (Elt Ideal)) (off : Fin 3 → ℕ)
    (inb : ∀ a, off a + (![1, 1, 16] : Fin 3 → ℕ) a ≤ S24x3x64.size a) (h : S1x1x16.ShapeCasts S16) (i : S16.Idx) :
    View.readAt (Elt Ideal) (View.whole cc0_scratch1) (Rect.unit (s := S24x3x64) off ![1, 1, 16] inb).toLoadRect f ((@Shape.reshapeEquiv S1x1x16 S16 h) i)
      = f (ValueIdx.ix3 (⟨off 0, by have := inb 0; simp at this; omega⟩ : Fin 24) (⟨off 1, by have := inb 1; simp at this; omega⟩ : Fin 3)
          (⟨off 2 + (i 0).val, by have := inb 2; have := (i 0).isLt; simp at *; omega⟩ : Fin 64)) := by
  rw [reshape3]
  simp only [View.readAt_apply, View.read_whole]
  congr 1
  funext a
  apply Fin.ext
  rw [LoadRect.idx_apply]
  match a with
  | ⟨0, _⟩ => show off 0 + 1 * 0 = off 0; omega
  | ⟨1, _⟩ => show off 1 + 1 * 0 = off 1; omega
  | ⟨2, _⟩ => show off 2 + 1 * (i 0).val = off 2 + (i 0).val; omega

/-! ## Constants at the extended reals -/

theorem scTile_ofBits_zero : Ideal.ofBits .f32 0#32 = 0 := by
  simp [Ideal.ofBits, Ideal.ieee]
theorem scTile_ofBits_neg_two : Ideal.ofBits .f32 0xC0000000#32 = ((-2 : ℝ) : EReal) := by
  simp [Ideal.ofBits, Ideal.ieee, -EReal.coe_mul]; norm_num
theorem scTile_pos_big : Named.named (F := Ideal) κ "pos_big" (φ := .f32) 0x7F61B1E6#32 = (⊤ : EReal) :=
  IdealRules.named_const.ideal_named_scalar _ _ _ _ rfl

theorem vec3_0 (a b c : ℕ) : (![a, b, c] : Fin 3 → ℕ) 0 = a := rfl
theorem vec3_1 (a b c : ℕ) : (![a, b, c] : Fin 3 → ℕ) 1 = b := rfl
theorem vec3_2 (a b c : ℕ) : (![a, b, c] : Fin 3 → ℕ) 2 = c := rfl
theorem vec1_any (a : ℕ) (x : Fin 1) : (![a] : Fin 1 → ℕ) x = a := Matrix.cons_val_fin_one a _ x

/-! ## One trip at a lane -/

open Cert.Chamfer

/-- The patch in row k of a scratch: coordinate dd of point p. -/
def rowPt (f : (⟨S24x3x64, .f32⟩ : BufTy).Contents (Elt Ideal)) (k : Fin k0_t1_loop.trips) (p : Fin 64) (dd : Fin 3) : EReal :=
  f (ValueIdx.ix3 (⟨k.val, lt_of_lt_of_le k.isLt k0_t1_abs.2.1⟩ : Fin 24) dd p)

/-- The points the two interleaved running minima visit. -/
def visit0 : List (Fin 64) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨32, by decide⟩, ⟨33, by decide⟩, ⟨34, by decide⟩, ⟨35, by decide⟩, ⟨36, by decide⟩, ⟨37, by decide⟩, ⟨38, by decide⟩, ⟨39, by decide⟩, ⟨40, by decide⟩, ⟨41, by decide⟩, ⟨42, by decide⟩, ⟨43, by decide⟩, ⟨44, by decide⟩, ⟨45, by decide⟩, ⟨46, by decide⟩, ⟨47, by decide⟩]
def visit1 : List (Fin 64) := [⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩, ⟨48, by decide⟩, ⟨49, by decide⟩, ⟨50, by decide⟩, ⟨51, by decide⟩, ⟨52, by decide⟩, ⟨53, by decide⟩, ⟨54, by decide⟩, ⟨55, by decide⟩, ⟨56, by decide⟩, ⟨57, by decide⟩, ⟨58, by decide⟩, ⟨59, by decide⟩, ⟨60, by decide⟩, ⟨61, by decide⟩, ⟨62, by decide⟩, ⟨63, by decide⟩]
theorem visit_cover : visit0.toFinset ∪ visit1.toFinset = Finset.univ := by decide

/-- The squared distance as the trip adds it up, the coordinates named by their numbers. -/
def dScE (a b : Fin 3 → EReal) : EReal :=
  (a ⟨0, by decide⟩ * a ⟨0, by decide⟩ + a ⟨1, by decide⟩ * a ⟨1, by decide⟩ + a ⟨2, by decide⟩ * a ⟨2, by decide⟩
      + (b ⟨0, by decide⟩ * b ⟨0, by decide⟩ + b ⟨1, by decide⟩ * b ⟨1, by decide⟩ + b ⟨2, by decide⟩ * b ⟨2, by decide⟩))
    + ((-2 : ℝ) : EReal) * b ⟨0, by decide⟩ * a ⟨0, by decide⟩ + ((-2 : ℝ) : EReal) * b ⟨1, by decide⟩ * a ⟨1, by decide⟩
    + ((-2 : ℝ) : EReal) * b ⟨2, by decide⟩ * a ⟨2, by decide⟩

theorem dScE_eq (a b : Fin 3 → EReal) : dScE a b = dSc a b := rfl

/-- One point's term of a directed sum, as the trip computes it: two running minima met, clamped at zero. -/
def dtermE (A B : Fin 64 → Fin 3 → EReal) (p : Fin 64) : EReal :=
  max (min (runMin (fun q => dScE (A p) (B q)) ⊤ visit0) (runMin (fun q => dScE (A p) (B q)) ⊤ visit1)) 0

/-- One point's term of a directed sum: its least distance to the other patch, clamped at zero. -/
def dterm (A B : Fin 64 → Fin 3 → EReal) (p : Fin 64) : EReal := max (least fun q => dSc (A p) (B q)) 0

theorem dtermE_eq (A B : Fin 64 → Fin 3 → EReal) (p : Fin 64) : dtermE A B p = dterm A B p := by
  unfold dtermE dterm
  rw [min_runMin_eq_least _ visit0 visit1 visit_cover]
  rfl

theorem scDir_eq (A B : Fin 64 → Fin 3 → EReal) (jv : ℕ) (hj : jv < 16) :
    scDir A B ⟨jv, hj⟩ = dterm A B ⟨0 + jv, by omega⟩ + dterm A B ⟨16 + jv, by omega⟩
      + dterm A B ⟨32 + jv, by omega⟩ + dterm A B ⟨48 + jv, by omega⟩ := by
  unfold scDir dterm; rw [Fin.sum_univ_four]; rfl

/-- The lane of an index of the 16-lane vector. -/
def lane (j : S16.Idx) : Fin 16 := ⟨(j 0).val, (j 0).isLt⟩

set_option maxHeartbeats 16000000 in
set_option maxRecDepth 65536 in
theorem tripStep_laneE (fa fb : (⟨S24x3x64, .f32⟩ : BufTy).Contents (Elt Ideal)) (k : Fin k0_t1_loop.trips) (acc : FVec Ideal S16 .f32) (j : S16.Idx) :
    tripStep (F := Ideal) fa fb k acc j
      = acc j
        + dtermE (rowPt fa k) (rowPt fb k) (⟨0 + (j 0).val, by have := (j 0).isLt; simp at this; omega⟩ : Fin 64) + dtermE (rowPt fa k) (rowPt fb k) (⟨16 + (j 0).val, by have := (j 0).isLt; simp at this; omega⟩ : Fin 64)
        + dtermE (rowPt fa k) (rowPt fb k) (⟨32 + (j 0).val, by have := (j 0).isLt; simp at this; omega⟩ : Fin 64) + dtermE (rowPt fa k) (rowPt fb k) (⟨48 + (j 0).val, by have := (j 0).isLt; simp at this; omega⟩ : Fin 64)
        + dtermE (rowPt fb k) (rowPt fa k) (⟨0 + (j 0).val, by have := (j 0).isLt; simp at this; omega⟩ : Fin 64) + dtermE (rowPt fb k) (rowPt fa k) (⟨16 + (j 0).val, by have := (j 0).isLt; simp at this; omega⟩ : Fin 64)
        + dtermE (rowPt fb k) (rowPt fa k) (⟨32 + (j 0).val, by have := (j 0).isLt; simp at this; omega⟩ : Fin 64) + dtermE (rowPt fb k) (rowPt fa k) (⟨48 + (j 0).val, by have := (j 0).isLt; simp at this; omega⟩ : Fin 64) := by
  unfold tripStep
  delta tripRun
  dsimp only
  sl_unfold_run_names
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151, k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170, k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189, k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208, k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227, k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246, k0_pay1247, k0_pay1248, k0_pay1249, k0_pay1250, k0_pay1251, k0_pay1253, k0_pay1254, addf, mulf, minimumf, maximumf, broadcast, shapeCast, extractStridedSlice, extractAt,
    Ideal.addf_def, Ideal.mulf_def, Ideal.minimumf_def, Ideal.maximumf_def, Ideal.ofBits_def, Scalar.ofBits,
    scTile_ofBits_zero, scTile_ofBits_neg_two, scTile_pos_big]
  simp only [leaf_sA, leaf_sB]
  simp only [k0_off2_eq, k0_off3_eq, k0_off4_eq, k0_off5_eq, k0_off6_eq, k0_off7_eq, k0_off8_eq, k0_off9_eq, k0_off10_eq, k0_off11_eq, k0_off12_eq, k0_off13_eq]
  simp only [vec3_0, vec3_1, vec3_2, vec1_any, Nat.add_zero, Nat.reduceAdd]
  simp only [dtermE, runMin, List.foldl_cons, List.foldl_nil, visit0, visit1, dScE, rowPt]

/-- One trip adds the patch pair's two directed sums at the lane. -/
theorem tripStep_lane (fa fb : (⟨S24x3x64, .f32⟩ : BufTy).Contents (Elt Ideal)) (k : Fin k0_t1_loop.trips) (acc : FVec Ideal S16 .f32) (j : S16.Idx) :
    tripStep (F := Ideal) fa fb k acc j
      = acc j + (scDir (rowPt fa k) (rowPt fb k) (lane j) + scDir (rowPt fb k) (rowPt fa k) (lane j)) := by
  rw [tripStep_laneE]
  simp only [dtermE_eq]
  unfold lane
  rw [scDir_eq _ _ (j 0).val (j 0).isLt, scDir_eq _ _ (j 0).val (j 0).isLt]
  simp only [add_assoc]

/-! ## The arrays at a tile's patches -/

theorem trips_eq : k0_t1_loop.trips = 24 := by decide

theorem patches_apply (X : (⟨S32x128x64x3, .f32⟩ : BufTy).Contents (Elt Ideal)) (m : Fin 4096) (dd : Fin 3) (p : Fin 64) :
    patches X (ValueIdx.ix3 m dd p) = Cert.Chamfer.pts X m p dd := by
  unfold patches Cert.Chamfer.pts
  rw [transpose_apply [0, 2, 1] _ _ (ValueIdx.ix3 m dd p) (ValueIdx.ix3 m p dd : S4096x64x3.Idx)
    (fun b => match b with | ⟨0, _⟩ => rfl | ⟨1, _⟩ => rfl | ⟨2, _⟩ => rfl)]
  refine shapeCast_apply X _ _ (ValueIdx.ix4 (⟨m.val / 128, by omega⟩ : Fin 32) (⟨m.val % 128, by omega⟩ : Fin 128) p dd) ?_
  rw [Shape.rowMajor_val_four, Shape.rowMajor_val_three]
  show ((m.val / 128 * 128 + m.val % 128) * 64 + p.val) * 3 + dd.val = (m.val * 64 + p.val) * 3 + dd.val
  have := Nat.div_add_mod m.val 128
  rw [show m.val / 128 * 128 + m.val % 128 = m.val by omega]

/-- Row k of the slab of worker w's tile is patch 3328 + 24 w + k of the array. -/
theorem slabOf_apply (A : (⟨S4096x3x64, .f32⟩ : BufTy).Contents (Elt Ideal)) (w : Fin 32) (k : Fin 24) (dd : Fin 3) (p : Fin 64) :
    slabOf (tileOf w) A (ValueIdx.ix3 k dd p) = A (ValueIdx.ix3 (Cert.Chamfer.scPatch w k) dd p) := by
  unfold slabOf
  rw [View.read_apply]
  show A ((aSlab (tileOf w)).view.emb (ValueIdx.ix3 k dd p)) = _
  congr 1
  funext a
  apply Fin.ext
  show (k0_off1 (tileOf w)) a + 1 * ((ValueIdx.ix3 k dd p) a).val = _
  rw [k0_off1_eq]
  have hw := w.isLt
  have h0 : ((tileOf w) 0).val = w.val % 2 := rfl
  have h1 : ((tileOf w) 1).val = w.val / 2 := rfl
  match a with
  | ⟨0, _⟩ => show 48 * ((tileOf w) 1).val + 24 * ((tileOf w) 0).val + 3328 + 1 * k.val = 3328 + 24 * w.val + k.val; rw [h0, h1]; omega
  | ⟨1, _⟩ => show 0 + 1 * dd.val = dd.val; omega
  | ⟨2, _⟩ => show 0 + 1 * p.val = p.val; omega

/-! ## The trips, and the partial sums -/

theorem accTo_zero_lane (fa fb : (⟨S24x3x64, .f32⟩ : BufTy).Contents (Elt Ideal)) (j : S16.Idx) : accTo (F := Ideal) fa fb 0 j = 0 := by
  show k0_pay1252 (F := Ideal) j = 0
  simp only [k0_pay1252, broadcast, Scalar.ofBits, Ideal.ofBits_def, scTile_ofBits_zero]

/-- After n trips the accumulator's lane is the worker's sum over its first n patches. -/
theorem accTo_lane (fa fb : (⟨S24x3x64, .f32⟩ : BufTy).Contents (Elt Ideal)) (x y : Fin 4096 → Fin 64 → Fin 3 → EReal) (w : Fin 32)
    (ha : ∀ k : Fin k0_t1_loop.trips, rowPt fa k = x (scPatch w ⟨k.val, lt_of_lt_of_le k.isLt k0_t1_abs.2.1⟩))
    (hb : ∀ k : Fin k0_t1_loop.trips, rowPt fb k = y (scPatch w ⟨k.val, lt_of_lt_of_le k.isLt k0_t1_abs.2.1⟩))
    (n : ℕ) (hn : n ≤ 24) (j : S16.Idx) : accTo (F := Ideal) fa fb n j = scAccTo x y w n (lane j) := by
  induction n with
  | zero => rw [accTo_zero_lane]; exact (scAccTo_zero x y w (lane j)).symm
  | succ n ih =>
    have hlt : n < k0_t1_loop.trips := by rw [trips_eq]; omega
    rw [show accTo fa fb (n + 1) = tripStep fa fb ⟨n, hlt⟩ (accTo fa fb n) from accTo_succ fa fb ⟨n, hlt⟩,
      tripStep_lane, ih (by omega), ha, hb]
    exact (scAccTo_succ x y w ⟨n, by omega⟩ (lane j)).symm

/-- What worker w's tile stores, at a lane. -/
theorem tileAcc_lane (X Y : (⟨S32x128x64x3, .f32⟩ : BufTy).Contents (Elt Ideal)) (w : Fin 32) (j : S16.Idx) :
    tileAcc (F := Ideal) (patches X) (patches Y) (tileOf w) j = scAcc (Cert.Chamfer.pts X) (Cert.Chamfer.pts Y) w (lane j) := by
  have e : ∀ (v : FVec Ideal S16 .f32) (j : S16.Idx), k0_pay1255 v j = v j := fun v j => by
    show shapeCast S16 v shapeCasts_S16_S16 j = v j
    unfold shapeCast; rw [Shape.reshapeEquiv_self]
  unfold tileAcc
  rw [e, trips_eq,
    accTo_lane (slabOf (tileOf w) (patches X)) (slabOf (tileOf w) (patches Y)) (Cert.Chamfer.pts X) (Cert.Chamfer.pts Y) w
      (fun k => funext fun p => funext fun dd =>
        (slabOf_apply (patches X) w ⟨k.val, lt_of_lt_of_le k.isLt k0_t1_abs.2.1⟩ dd p).trans (patches_apply X _ dd p))
      (fun k => funext fun p => funext fun dd =>
        (slabOf_apply (patches Y) w ⟨k.val, lt_of_lt_of_le k.isLt k0_t1_abs.2.1⟩ dd p).trans (patches_apply Y _ dd p)) 24 le_rfl,
    scAccTo_all]

/-- At the extended reals the partial sums are the workers' accumulators of the specification. -/
theorem partials_ideal (X Y : (⟨S32x128x64x3, .f32⟩ : BufTy).Contents (Elt Ideal)) :
    partials (F := Ideal) (patches X) (patches Y)
      = fun i => Cert.Chamfer.scAcc (Cert.Chamfer.pts X) (Cert.Chamfer.pts Y) ⟨(i 0).val, (i 0).isLt⟩ ⟨(i 1).val, (i 1).isLt⟩ := by
  funext i
  exact tileAcc_lane X Y ⟨(i 0).val, (i 0).isLt⟩ (ValueIdx.ix1 ⟨(i 1).val, (i 1).isLt⟩)

end Cert.Proof.KI

end
-- ==== Proof.TcPay.lean ====
/-
  The matrix-unit kernel body's two stored values, read at the ideal instance at the one index of the `1 × 1` output.

  The first store is the zero that starts the accumulation. The second adds to the accumulator the Chamfer sum of one
  block of 256 patches: each patch's 64 × 64 squared distances `|p|² + |q|² − 2 p·q` come from ONE contraction of length
  five — the left operand's rows are the point's three coordinates, its squared norm and one; the right operand's are
  `-2` times the coordinates, one and the squared norm —, the forward term takes the least over the second set for each
  point of the first, the backward term the least over the first for each point of the second, and both are summed over
  every patch and point.

  Each operation that is not pointwise is read at explicit coordinates by a lemma of its own: the sum over the coordinate
  axis, the concatenation's rows, the batched product, the two minimum reductions (a fold of `min` from `⊤` is the
  infimum over the axis), and the sum over both free axes of a `1 × 256 × 64` view.
-/
import proofs.«212928_g62723702391633_cont_9to1_m_929_36_alg».proof.Proof.Gen.KernelIdeal.Skeleton
import proofs.«212928_g62723702391633_cont_9to1_m_929_36_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Data.Finset.Lattice.Fold

noncomputable section

namespace Cert.Proof.TcPay

open Cert.KernelIdeal Cert.KernelIdeal.Gen Cert.Chamfer Idealize.ShloMosaic Idealize.ShloMosaic.ValueIdx

/-! ### The constants the body spells -/

/-- The pattern of `1.0` denotes `1`. -/
theorem ofBits_one : Ideal.ofBits .f32 0x3F800000#32 = 1 := by
  simp [Ideal.ofBits, Ideal.ieee, -EReal.coe_mul]; norm_num

/-- The pattern of `-2.0` denotes `-2`. -/
theorem ofBits_m2 : Ideal.ofBits .f32 0xC0000000#32 = m2 := by
  unfold m2
  simp [Ideal.ofBits, Ideal.ieee, -EReal.coe_mul]; norm_num

/-- The pattern of `+∞` denotes `⊤`. -/
theorem ofBits_top : Ideal.ofBits .f32 0x7F800000#32 = (⊤ : EReal) := by
  simp [Ideal.ofBits, Ideal.ieee]

/-- The fold of `min` from `⊤` over a finite set is the infimum. -/
theorem fold_min_top {ι : Type} (s : Finset ι) (f : ι → EReal) : s.fold min ⊤ f = s.inf f := rfl

/-- A 256x3x64 block as 256 patches of 64 points of 3 coordinates. -/
def blkPts (v : Vec Ideal S256x3x64 .f32) : Fin 256 → Fin 64 → Fin 3 → EReal := fun r p d => v (ix3 r d p)

/-- The sum over the coordinate axis, kept as a unit axis. -/
theorem rowsum_apply (x : FVec Ideal S256x3x64 .f32) (h : S256x3x64.Reduces [1] S256x64) (hc : S256x64.ShapeCasts S256x1x64)
    (hφ : FKind.Formats .f32) (hacc : (0x00000000#32 : BitVec 32) = FKind.add.neutral .f32 hφ) (r : Fin 256) (p : Fin 64) :
    shapeCast S256x1x64 (multiReduction (F := Ideal) .add [1] S256x64 x 0x00000000#32 h hφ hacc) hc (ix3 r 0 p)
      = ∑ d : Fin 3, x (ix3 r d p) := by
  refine (shapeCast_apply _ hc (ix3 r 0 p) (ix2 r p) ?_).trans ?_
  · rewrite [Shape.rowMajor_val_two, Shape.rowMajor_val_three]
    show r.val * 64 + p.val = (r.val * 1 + 0) * 64 + p.val
    omega
  · refine (Ideal.multiReduction_add_single x _ h hφ hacc (ix2 r p)).trans ?_
    refine Finset.sum_congr rfl fun d _ => congrArg x (funext fun a => Fin.ext ?_)
    match a with
    | ⟨0, _⟩ => rfl
    | ⟨1, _⟩ => rfl
    | ⟨2, _⟩ => rfl

/-- The three pieces laid along the middle axis: rows 0, 1, 2 come from the first. -/
theorem cat_lo (A : FVec Ideal S256x3x64 .f32) (B C : FVec Ideal S256x1x64 .f32)
    (h : Shape.Concatenates [S256x3x64, S256x1x64, S256x1x64] S256x5x64 1) (r : Fin 256) (p : Fin 64)
    (d : Fin 3) (k : Fin 5) (hk : k.val = d.val) :
    concatenate S256x5x64 1 [⟨S256x3x64, A⟩, ⟨S256x1x64, B⟩, ⟨S256x1x64, C⟩] h (ix3 r k p) = A (ix3 r d p) := by
  refine concatenate_apply_piece (α := Ideal .f32) (t := S256x5x64) (1 : Fin 3) [⟨S256x3x64, A⟩, ⟨S256x1x64, B⟩, ⟨S256x1x64, C⟩] h (ix3 r k p) 0 (by show 0 < 3; decide) S256x3x64 A rfl rfl 0 rfl (ix3 r d p) ?_ ?_
  · intro b hb
    match b with
    | ⟨0, _⟩ => rfl
    | ⟨1, _⟩ => exact absurd rfl hb
    | ⟨2, _⟩ => rfl
  · show 0 + d.val = k.val
    omega

/-- Row 3 comes from the second piece. -/
theorem cat_3 (A : FVec Ideal S256x3x64 .f32) (B C : FVec Ideal S256x1x64 .f32)
    (h : Shape.Concatenates [S256x3x64, S256x1x64, S256x1x64] S256x5x64 1) (r : Fin 256) (p : Fin 64)
    (k : Fin 5) (hk : k.val = 3) :
    concatenate S256x5x64 1 [⟨S256x3x64, A⟩, ⟨S256x1x64, B⟩, ⟨S256x1x64, C⟩] h (ix3 r k p) = B (ix3 r 0 p) := by
  refine concatenate_apply_piece (α := Ideal .f32) (t := S256x5x64) (1 : Fin 3) [⟨S256x3x64, A⟩, ⟨S256x1x64, B⟩, ⟨S256x1x64, C⟩] h (ix3 r k p) 1 (by show 1 < 3; decide) S256x1x64 B rfl rfl 3 rfl (ix3 r 0 p) ?_ ?_
  · intro b hb
    match b with
    | ⟨0, _⟩ => rfl
    | ⟨1, _⟩ => exact absurd rfl hb
    | ⟨2, _⟩ => rfl
  · show 3 + 0 = k.val
    omega

/-- Row 4 comes from the third piece. -/
theorem cat_4 (A : FVec Ideal S256x3x64 .f32) (B C : FVec Ideal S256x1x64 .f32)
    (h : Shape.Concatenates [S256x3x64, S256x1x64, S256x1x64] S256x5x64 1) (r : Fin 256) (p : Fin 64)
    (k : Fin 5) (hk : k.val = 4) :
    concatenate S256x5x64 1 [⟨S256x3x64, A⟩, ⟨S256x1x64, B⟩, ⟨S256x1x64, C⟩] h (ix3 r k p) = C (ix3 r 0 p) := by
  refine concatenate_apply_piece (α := Ideal .f32) (t := S256x5x64) (1 : Fin 3) [⟨S256x3x64, A⟩, ⟨S256x1x64, B⟩, ⟨S256x1x64, C⟩] h (ix3 r k p) 2 (by show 2 < 3; decide) S256x1x64 C rfl rfl 4 rfl (ix3 r 0 p) ?_ ?_
  · intro b hb
    match b with
    | ⟨0, _⟩ => rfl
    | ⟨1, _⟩ => exact absurd rfl hb
    | ⟨2, _⟩ => rfl
  · show 4 + 0 = k.val
    omega

/-! ### The two operands' rows, and the distance -/

/-- The left operand at `(r, k, p)`: the point's coordinates, its squared norm, one. -/
theorem lhs_row (v : FVec Ideal S256x3x64 .f32) (h : S256x3x64.Reduces [1] S256x64) (hc : S256x64.ShapeCasts S256x1x64)
    (hcat : Shape.Concatenates [S256x3x64, S256x1x64, S256x1x64] S256x5x64 1)
    (hφ : FKind.Formats .f32) (hacc : (0x00000000#32 : BitVec 32) = FKind.add.neutral .f32 hφ) (r : Fin 256) (p : Fin 64) (k : Fin 5) :
    concatenate S256x5x64 1
        [⟨S256x3x64, v⟩,
         ⟨S256x1x64, shapeCast S256x1x64 (multiReduction (F := Ideal) .add [1] S256x64 (mulf v v) 0x00000000#32 h hφ hacc) hc⟩,
         ⟨S256x1x64, broadcast S256x1x64 (Scalar.ofBits (F := Ideal) .f32 0x3F800000#32)⟩] hcat (ix3 r k p)
      = lhs5 (blkPts v r p) k := by
  match k with
  | ⟨0, _⟩ => exact cat_lo _ _ _ hcat r p 0 _ rfl
  | ⟨1, _⟩ => exact cat_lo _ _ _ hcat r p 1 _ rfl
  | ⟨2, _⟩ => exact cat_lo _ _ _ hcat r p 2 _ rfl
  | ⟨3, _⟩ => exact (cat_3 _ _ _ hcat r p _ rfl).trans (rowsum_apply _ h hc hφ hacc r p)
  | ⟨4, _⟩ => exact (cat_4 _ _ _ hcat r p _ rfl).trans ofBits_one

/-- The right operand at `(r, k, q)`: `-2` times the point's coordinates, one, its squared norm. -/
theorem rhs_row (v : FVec Ideal S256x3x64 .f32) (h : S256x3x64.Reduces [1] S256x64) (hc : S256x64.ShapeCasts S256x1x64)
    (hcat : Shape.Concatenates [S256x3x64, S256x1x64, S256x1x64] S256x5x64 1)
    (hφ : FKind.Formats .f32) (hacc : (0x00000000#32 : BitVec 32) = FKind.add.neutral .f32 hφ) (r : Fin 256) (q : Fin 64) (k : Fin 5) :
    concatenate S256x5x64 1
        [⟨S256x3x64, mulf (broadcast S256x3x64 (Scalar.ofBits (F := Ideal) .f32 0xC0000000#32)) v⟩,
         ⟨S256x1x64, broadcast S256x1x64 (Scalar.ofBits (F := Ideal) .f32 0x3F800000#32)⟩,
         ⟨S256x1x64, shapeCast S256x1x64 (multiReduction (F := Ideal) .add [1] S256x64 (mulf v v) 0x00000000#32 h hφ hacc) hc⟩] hcat (ix3 r k q)
      = rhs5 (blkPts v r q) k := by
  match k with
  | ⟨0, _⟩ => exact (cat_lo _ _ _ hcat r q 0 _ rfl).trans (congrArg (· * v (ix3 r 0 q)) ofBits_m2)
  | ⟨1, _⟩ => exact (cat_lo _ _ _ hcat r q 1 _ rfl).trans (congrArg (· * v (ix3 r 1 q)) ofBits_m2)
  | ⟨2, _⟩ => exact (cat_lo _ _ _ hcat r q 2 _ rfl).trans (congrArg (· * v (ix3 r 2 q)) ofBits_m2)
  | ⟨3, _⟩ => exact (cat_3 _ _ _ hcat r q _ rfl).trans ofBits_one
  | ⟨4, _⟩ => exact (cat_4 _ _ _ hcat r q _ rfl).trans (rowsum_apply _ h hc hφ hacc r q)

/-! ### The batched product: one contracted axis of length five, the patch a batch axis -/

/-- The left operand's index on each of its axes: the patch, the contraction position, the point. -/
theorem lhs_dot_0 (i : S256x64x64.Idx) (q : dot_S256x5x64_S256x5x64_S256x64x64_1_1_2_2_0_0.contr.Idx) :
    (dot_S256x5x64_S256x5x64_S256x64x64_1_1_2_2_0_0.lhsIdx i q 0).val = (i 0).val := by
  unfold DotDims.lhsIdx
  rw [dif_pos (show (0 : Fin S256x5x64.rank) ∈ dot_S256x5x64_S256x5x64_S256x64x64_1_1_2_2_0_0.lhsBatch by decide)]
  rfl
theorem lhs_dot_1 (i : S256x64x64.Idx) (q : dot_S256x5x64_S256x5x64_S256x64x64_1_1_2_2_0_0.contr.Idx) :
    (dot_S256x5x64_S256x5x64_S256x64x64_1_1_2_2_0_0.lhsIdx i q 1).val = (q ⟨0, by decide⟩).val :=
  dot_S256x5x64_S256x5x64_S256x64x64_1_1_2_2_0_0.lhsIdx_val_of_single rfl i q
theorem lhs_dot_2 (i : S256x64x64.Idx) (q : dot_S256x5x64_S256x5x64_S256x64x64_1_1_2_2_0_0.contr.Idx) :
    (dot_S256x5x64_S256x5x64_S256x64x64_1_1_2_2_0_0.lhsIdx i q 2).val = (i 1).val := by
  unfold DotDims.lhsIdx
  rw [dif_neg (show ¬(2 : Fin S256x5x64.rank) ∈ dot_S256x5x64_S256x5x64_S256x64x64_1_1_2_2_0_0.lhsBatch by decide), dif_pos (show (2 : Fin S256x5x64.rank) ∈ dot_S256x5x64_S256x5x64_S256x64x64_1_1_2_2_0_0.lhsNonContracting by decide)]
  rfl
/-- The right operand's likewise. -/
theorem rhs_dot_0 (i : S256x64x64.Idx) (q : dot_S256x5x64_S256x5x64_S256x64x64_1_1_2_2_0_0.contr.Idx) :
    (dot_S256x5x64_S256x5x64_S256x64x64_1_1_2_2_0_0.rhsIdx i q 0).val = (i 0).val := by
  unfold DotDims.rhsIdx
  rw [dif_pos (show (0 : Fin S256x5x64.rank) ∈ dot_S256x5x64_S256x5x64_S256x64x64_1_1_2_2_0_0.rhsBatch by decide)]
  rfl
theorem rhs_dot_1 (i : S256x64x64.Idx) (q : dot_S256x5x64_S256x5x64_S256x64x64_1_1_2_2_0_0.contr.Idx) :
    (dot_S256x5x64_S256x5x64_S256x64x64_1_1_2_2_0_0.rhsIdx i q 1).val = (q ⟨0, by decide⟩).val :=
  dot_S256x5x64_S256x5x64_S256x64x64_1_1_2_2_0_0.rhsIdx_val_of_single rfl i q
theorem rhs_dot_2 (i : S256x64x64.Idx) (q : dot_S256x5x64_S256x5x64_S256x64x64_1_1_2_2_0_0.contr.Idx) :
    (dot_S256x5x64_S256x5x64_S256x64x64_1_1_2_2_0_0.rhsIdx i q 2).val = (i 2).val := by
  unfold DotDims.rhsIdx
  rw [dif_neg (show ¬(2 : Fin S256x5x64.rank) ∈ dot_S256x5x64_S256x5x64_S256x64x64_1_1_2_2_0_0.rhsBatch by decide), dif_pos (show (2 : Fin S256x5x64.rank) ∈ dot_S256x5x64_S256x5x64_S256x64x64_1_1_2_2_0_0.rhsNonContracting by decide)]
  rfl

/-- Entry `(r, p, q)` of the product is the sum over the five rows of the operands' entries `(r, k, p)` and `(r, k, q)`. -/
theorem dot_apply (A B : FVec Ideal S256x5x64 .f32) (r : Fin 256) (p q : Fin 64) :
    FloatOps.matmul dot_S256x5x64_S256x5x64_S256x64x64_1_1_2_2_0_0 none A B (constant (F := Ideal) S256x64x64 .f32 0x00000000#32) (ix3 r p q)
      = ∑ k : Fin 5, A (ix3 r k p) * B (ix3 r k q) := by
  rw [Ideal.matmul_constant_zero_apply, ← Equiv.sum_comp (ValueIdx.contrEquiv1 dot_S256x5x64_S256x5x64_S256x64x64_1_1_2_2_0_0 5 rfl rfl).symm]
  refine Finset.sum_congr rfl fun k _ => ?_
  have hk := ValueIdx.contrEquiv1_symm_val dot_S256x5x64_S256x5x64_S256x64x64_1_1_2_2_0_0 5 rfl rfl k
  have el : dot_S256x5x64_S256x5x64_S256x64x64_1_1_2_2_0_0.lhsIdx (ix3 r p q) ((ValueIdx.contrEquiv1 dot_S256x5x64_S256x5x64_S256x64x64_1_1_2_2_0_0 5 rfl rfl).symm k) = ix3 r k p := funext fun a => Fin.ext (by
    match a with
    | ⟨0, _⟩ => exact lhs_dot_0 _ _
    | ⟨1, _⟩ => exact (lhs_dot_1 _ _).trans hk
    | ⟨2, _⟩ => exact lhs_dot_2 _ _)
  have er : dot_S256x5x64_S256x5x64_S256x64x64_1_1_2_2_0_0.rhsIdx (ix3 r p q) ((ValueIdx.contrEquiv1 dot_S256x5x64_S256x5x64_S256x64x64_1_1_2_2_0_0 5 rfl rfl).symm k) = ix3 r k q := funext fun a => Fin.ext (by
    match a with
    | ⟨0, _⟩ => exact rhs_dot_0 _ _
    | ⟨1, _⟩ => exact (rhs_dot_1 _ _).trans hk
    | ⟨2, _⟩ => exact rhs_dot_2 _ _)
  rw [el, er]

/-! ### The two minimum reductions -/

/-- The least over the last axis. -/
theorem min_last_apply (x : FVec Ideal S256x64x64 .f32) (h : S256x64x64.Reduces [2] S256x64)
    (hφ : FKind.Formats .f32) (hacc : (0x7F800000#32 : BitVec 32) = FKind.minimumf.neutral .f32 hφ) (r : Fin 256) (p : Fin 64) :
    multiReduction (F := Ideal) .minimumf [2] S256x64 x 0x7F800000#32 h hφ hacc (ix2 r p)
      = least fun q => x (ix3 r p q) := by
  refine (multiReduction_minimumf_eq_fold x _ h hφ hacc (ix2 r p)).trans ?_
  refine (h.fold_filter_drop_single _ _ x (ix2 r p)).trans ?_
  show (Finset.univ : Finset (Fin 64)).fold min (Ideal.ofBits .f32 0x7F800000#32) (x ∘ h.lift (ix2 r p)) = _
  rw [ofBits_top]
  refine (fold_min_top _ _).trans ?_
  unfold least
  refine congrArg (Finset.univ.inf) (funext fun q => congrArg x (funext fun a => Fin.ext ?_))
  match a with
  | ⟨0, _⟩ => rfl
  | ⟨1, _⟩ => rfl
  | ⟨2, _⟩ => rfl

/-- The least over the middle axis. -/
theorem min_mid_apply (x : FVec Ideal S256x64x64 .f32) (h : S256x64x64.Reduces [1] S256x64)
    (hφ : FKind.Formats .f32) (hacc : (0x7F800000#32 : BitVec 32) = FKind.minimumf.neutral .f32 hφ) (r : Fin 256) (q : Fin 64) :
    multiReduction (F := Ideal) .minimumf [1] S256x64 x 0x7F800000#32 h hφ hacc (ix2 r q)
      = least fun p => x (ix3 r p q) := by
  refine (multiReduction_minimumf_eq_fold x _ h hφ hacc (ix2 r q)).trans ?_
  refine (h.fold_filter_drop_single _ _ x (ix2 r q)).trans ?_
  show (Finset.univ : Finset (Fin 64)).fold min (Ideal.ofBits .f32 0x7F800000#32) (x ∘ h.lift (ix2 r q)) = _
  rw [ofBits_top]
  refine (fold_min_top _ _).trans ?_
  unfold least
  refine congrArg (Finset.univ.inf) (funext fun p => congrArg x (funext fun a => Fin.ext ?_))
  match a with
  | ⟨0, _⟩ => rfl
  | ⟨1, _⟩ => rfl
  | ⟨2, _⟩ => rfl

/-! ### The sum over every patch and point -/

/-- An index of the `1 × 256 × 64` shape is its two free coordinates. -/
def idxEquiv (n0 n1 : Nat) : (⟨3, ![1, n0, n1]⟩ : Shape).Idx ≃ Fin n0 × Fin n1 where
  toFun i := (i 1, i 2)
  invFun a := ix3 (0 : Fin 1) a.1 a.2
  left_inv i := funext fun a => by
    match a with
    | ⟨0, _⟩ => exact Subsingleton.elim (α := Fin 1) _ _
    | ⟨1, _⟩ => rfl
    | ⟨2, _⟩ => rfl
  right_inv _ := rfl

/-- The sum of a `256 × 64` vector viewed `1 × 256 × 64`, over both its free axes. -/
theorem total_apply (x : FVec Ideal S256x64 .f32) (hc : S256x64.ShapeCasts S1x256x64) (h : S1x256x64.Reduces [1, 2] S1)
    (hφ : FKind.Formats .f32) (hacc : (0x00000000#32 : BitVec 32) = FKind.add.neutral .f32 hφ) (j : S1.Idx) :
    multiReduction (F := Ideal) .add [1, 2] S1 (shapeCast S1x256x64 x hc) 0x00000000#32 h hφ hacc j
      = ∑ r : Fin 256, ∑ p : Fin 64, x (ix2 r p) := by
  refine (Ideal.multiReduction_add_total _ _ h (fun b => by match b with | ⟨0, _⟩ => rfl) hφ hacc j).trans ?_
  rw [← Equiv.sum_comp (idxEquiv 256 64).symm, Fintype.sum_prod_type]
  refine Finset.sum_congr rfl fun r _ => Finset.sum_congr rfl fun p _ => ?_
  refine (shapeCast_addUnit_apply ![256, 64] x hc _).trans (congrArg x (funext fun a => ?_))
  match a with
  | ⟨0, _⟩ => rfl
  | ⟨1, _⟩ => rfl

/-! ### The kernel's vectors, named -/

/-- The squared norms of a block's points, kept as a row. -/
abbrev sqn (v : FVec Ideal S256x3x64 .f32) : FVec Ideal S256x1x64 .f32 :=
  shapeCast S256x1x64 (multiReduction (F := Ideal) .add [1] S256x64 (mulf v v) 0x00000000#32 reduces_S256x3x64_S256x64 (.inl rfl) rfl)
    shapeCasts_S256x64_S256x1x64

/-- The row of ones. -/
abbrev ones : FVec Ideal S256x1x64 .f32 := broadcast S256x1x64 (Scalar.ofBits (F := Ideal) .f32 0x3F800000#32)

/-- The left operand: coordinates, squared norm, one. -/
abbrev lhsV (v : FVec Ideal S256x3x64 .f32) : FVec Ideal S256x5x64 .f32 :=
  concatenate S256x5x64 1 [⟨S256x3x64, v⟩, ⟨S256x1x64, sqn v⟩, ⟨S256x1x64, ones⟩]
    concatenates_S256x3x64_S256x1x64_S256x1x64_S256x5x64_d1

/-- The right operand: `-2` times the coordinates, one, squared norm. -/
abbrev rhsV (v : FVec Ideal S256x3x64 .f32) : FVec Ideal S256x5x64 .f32 :=
  concatenate S256x5x64 1
    [⟨S256x3x64, mulf (broadcast S256x3x64 (Scalar.ofBits (F := Ideal) .f32 0xC0000000#32)) v⟩, ⟨S256x1x64, ones⟩, ⟨S256x1x64, sqn v⟩]
    concatenates_S256x3x64_S256x1x64_S256x1x64_S256x5x64_d1

/-- All the squared distances of a block: entry `(r, p, q)`. -/
abbrev d2 (a b : FVec Ideal S256x3x64 .f32) : FVec Ideal S256x64x64 .f32 :=
  matmul dot_S256x5x64_S256x5x64_S256x64x64_1_1_2_2_0_0 none (lhsV a) (rhsV b) (constant (F := Ideal) S256x64x64 .f32 0x00000000#32)

/-- Entry `(r, p, q)` is the squared distance, in the contraction's form, of point `p` of patch `r` of the first block
    and point `q` of patch `r` of the second. -/
theorem d2_apply (a b : FVec Ideal S256x3x64 .f32) (r : Fin 256) (p q : Fin 64) :
    d2 a b (ix3 r p q) = dTc (blkPts a r p) (blkPts b r q) := by
  refine (dot_apply (lhsV a) (rhsV b) r p q).trans ?_
  unfold dTc
  exact Finset.sum_congr rfl fun k _ => congrArg₂ (· * ·)
    (lhs_row a _ _ _ _ _ r p k) (rhs_row b _ _ _ _ _ r q k)

/-- A `1 × 1 × 1` view of the sum over both axes, read at its one entry. -/
theorem total_extract (x : FVec Ideal S256x64 .f32) (hc : S256x64.ShapeCasts S1x256x64) (h : S1x256x64.Reduces [1, 2] S1)
    (hc' : S1.ShapeCasts S1x1x1) (hpos : ∀ a, (![0, 0, 0] : Fin 3 → Nat) a < S1x1x1.size a)
    (hφ : FKind.Formats .f32) (hacc : (0x00000000#32 : BitVec 32) = FKind.add.neutral .f32 hφ) :
    extractAt ![0, 0, 0] (shapeCast S1x1x1 (multiReduction (F := Ideal) .add [1, 2] S1 (shapeCast S1x256x64 x hc) 0x00000000#32 h hφ hacc) hc') hpos
      = ∑ r : Fin 256, ∑ p : Fin 64, x (ix2 r p) := by
  unfold extractAt
  refine (shapeCast_apply _ hc' _ (ix1 (0 : Fin 1)) ?_).trans (total_apply x hc h hφ hacc _)
  rewrite [Shape.rowMajor_val_one, Shape.rowMajor_val_three]
  rfl

/-- The forward term as the body computes it: the least over the last axis, summed over the other two. -/
def fwdV (a b : FVec Ideal S256x3x64 .f32) : EReal :=
  extractAt ![0, 0, 0]
    (shapeCast S1x1x1
      (multiReduction (F := Ideal) .add [1, 2] S1
        (shapeCast S1x256x64
          (multiReduction (F := Ideal) .minimumf [2] S256x64 (d2 a b) 0x7F800000#32 reduces_S256x64x64_S256x64 (.inl rfl) rfl)
          shapeCasts_S256x64_S1x256x64)
        0x00000000#32 reduces_S1x256x64_S1 (.inl rfl) rfl)
      shapeCasts_S1_S1x1x1)
    inpos_S1x1x1_p0_0_0

/-- The backward term as the body computes it: the least over the middle axis, summed over the other two. -/
def bwdV (a b : FVec Ideal S256x3x64 .f32) : EReal :=
  extractAt ![0, 0, 0]
    (shapeCast S1x1x1
      (multiReduction (F := Ideal) .add [1, 2] S1
        (shapeCast S1x256x64
          (multiReduction (F := Ideal) .minimumf [1] S256x64 (d2 a b) 0x7F800000#32 reduces_S256x64x64_S256x64_2 (.inl rfl) rfl)
          shapeCasts_S256x64_S1x256x64)
        0x00000000#32 reduces_S1x256x64_S1 (.inl rfl) rfl)
      shapeCasts_S1_S1x1x1)
    inpos_S1x1x1_p0_0_0

/-- Forward: for each point of the first set, the least distance to the second. -/
theorem fwd_apply (a b : FVec Ideal S256x3x64 .f32) :
    fwdV a b = ∑ r : Fin 256, ∑ p : Fin 64, least fun q => dTc (blkPts a r p) (blkPts b r q) := by
  unfold fwdV
  refine (total_extract _ _ _ _ _ _ _).trans ?_
  refine Finset.sum_congr rfl fun r _ => Finset.sum_congr rfl fun p _ => ?_
  refine (min_last_apply _ _ _ _ r p).trans ?_
  exact congrArg least (funext fun q => d2_apply a b r p q)

/-- Backward: for each point of the second set, the least distance to the first. -/
theorem bwd_apply (a b : FVec Ideal S256x3x64 .f32) :
    bwdV a b = ∑ r : Fin 256, ∑ q : Fin 64, least fun p => dTc (blkPts a r p) (blkPts b r q) := by
  unfold bwdV
  refine (total_extract _ _ _ _ _ _ _).trans ?_
  refine Finset.sum_congr rfl fun r _ => Finset.sum_congr rfl fun q _ => ?_
  refine (min_mid_apply _ _ _ _ r q).trans ?_
  exact congrArg least (funext fun p => d2_apply a b r p q)

/-- What the body stores from two blocks and the accumulator's old value. -/
def payOf (a b : FVec Ideal S256x3x64 .f32) (c : FVec Ideal S1x1 .f32) : FVec Ideal S1x1 .f32 :=
  addf c (broadcast S1x1 (Scalar.addf (fwdV a b) (bwdV a b)))

/-- At its one index: the old value plus the forward and backward sums. -/
theorem payOf_apply (a b : FVec Ideal S256x3x64 .f32) (c : FVec Ideal S1x1 .f32) (j : S1x1.Idx) :
    payOf a b c j
      = c j + ((∑ r : Fin 256, ∑ p : Fin 64, least fun q => dTc (blkPts a r p) (blkPts b r q))
             + (∑ r : Fin 256, ∑ q : Fin 64, least fun p => dTc (blkPts a r p) (blkPts b r q))) := by
  unfold payOf
  rw [addf_apply, broadcast_apply, Ideal.scalar_addf_def, fwd_apply, bwd_apply]

/-! ### The two stored values -/

/-- The first store writes zero. -/
theorem k1_pay1_apply (j : S1x1.Idx) : k1_pay1 (F := Ideal) j = 0 := by
  unfold k1_pay1
  exact Ideal.ofBits_zero_f32

/-- The second stored value is `payOf` of the two blocks and the old value, each behind a cast to its own shape. -/
theorem k1_pay2_eq (v3 v5 : Vec Ideal S256x3x64 .f32) (v30 : Vec Ideal S1x1 .f32) :
    k1_pay2 (F := Ideal) v3 v5 v30
      = payOf (shapeCast S256x3x64 v3 shapeCasts_S256x3x64_S256x3x64) (shapeCast S256x3x64 v5 shapeCasts_S256x3x64_S256x3x64)
          (shapeCast S1x1 v30 shapeCasts_S1x1_S1x1) := rfl

/-- The second store adds the block's forward and backward sums of least squared distances to the accumulator. -/
theorem k1_pay2_apply (v3 v5 : Vec Ideal S256x3x64 .f32) (v30 : Vec Ideal S1x1 .f32) (j : S1x1.Idx) :
    k1_pay2 (F := Ideal) v3 v5 v30 j
      = v30 j + ((∑ r : Fin 256, ∑ p : Fin 64, least fun q => dTc (blkPts v3 r p) (blkPts v5 r q))
               + (∑ r : Fin 256, ∑ q : Fin 64, least fun p => dTc (blkPts v3 r p) (blkPts v5 r q))) := by
  rw [k1_pay2_eq, shapeCast_self v3, shapeCast_self v5, shapeCast_self v30]
  exact payOf_apply v3 v5 v30 j

end Cert.Proof.TcPay
-- ==== Proof.TcRegionValue.lean ====
import proofs.«212928_g62723702391633_cont_9to1_m_929_36_alg».proof.Proof.TcRegion
import proofs.«212928_g62723702391633_cont_9to1_m_929_36_alg».proof.Proof.TcPay
import proofs.«212928_g62723702391633_cont_9to1_m_929_36_alg».proof.Proof.Spec
import proofs.«212928_g62723702391633_cont_9to1_m_929_36_alg».proof.Proof.Points
import Idealize.ShloMosaic.Lib.ValueIdx
import Mathlib.Algebra.BigOperators.Fin

/-!
# The region's result is the matrix unit's share `tcTotal`

Block `t` of a transposed patch array is the 256 patches `256 t … 256 t + 255` of the input it was
made from; each point adds its block's forward and backward sums of least distances to what the point
before left, starting from zero; so after the thirteenth point the result array holds the sum of the
thirteen blocks' sums.
-/

noncomputable section

namespace Cert.Proof.KI

open Cert.KernelIdeal Cert.KernelIdeal.Gen Cert.Chamfer
open Idealize.ShloMosaic Idealize.ShloMosaic.ValueIdx

/-! ## Where a block's element sits (any float instance) -/

section Index

variable {F : FTy → Type} [FloatOps F] [Named F]

/-- The two input windows' block index at point `t` is `(t, 0, 0)`. -/
theorem tc_index0 : ∀ (t : Fin grid1.N) (a : Fin 3), win1_0.index t a = ![t.val, 0, 0] a := by decide +kernel
theorem tc_index1 : ∀ (t : Fin grid1.N) (a : Fin 3), win1_1.index t a = ![t.val, 0, 0] a := by decide +kernel

/-- Element `(r, d, p)` of block `t` of the first array is its element `(256 t + r, d, p)`. -/
theorem tcBlkA_at (A : PatchArr F) (t : Fin cfg1.N) (r : Fin 256) (d : Fin 3) (p : Fin 64) :
    tcBlkA A t (ix3 r d p) = A (ix3 (⟨256 * t.val + r.val, by have := lt_of_lt_of_eq t.isLt tc_N; omega⟩ : Fin 4096) d p) := by
  unfold tcBlkA
  rw [View.read_apply, cast_eq]
  refine congrArg A (funext fun a => Fin.ext ?_)
  have hr := r.isLt; have hN := lt_of_lt_of_eq t.isLt tc_N
  show ((win1_0.rect t).emb (ix3 r d p) a : ℕ) = _
  rw [Pipeline.Window.rect_emb_val, tc_index0]
  match a with
  | ⟨0, _⟩ => show t.val * 256 + r.val = 256 * t.val + r.val; omega
  | ⟨1, _⟩ => show 0 * 3 + d.val = d.val; omega
  | ⟨2, _⟩ => show 0 * 64 + p.val = p.val; omega

/-- The same for the second array. -/
theorem tcBlkB_at (B : PatchArr F) (t : Fin cfg1.N) (r : Fin 256) (d : Fin 3) (p : Fin 64) :
    tcBlkB B t (ix3 r d p) = B (ix3 (⟨256 * t.val + r.val, by have := lt_of_lt_of_eq t.isLt tc_N; omega⟩ : Fin 4096) d p) := by
  unfold tcBlkB
  rw [View.read_apply, cast_eq]
  refine congrArg B (funext fun a => Fin.ext ?_)
  have hr := r.isLt; have hN := lt_of_lt_of_eq t.isLt tc_N
  show ((win1_1.rect t).emb (ix3 r d p) a : ℕ) = _
  rw [Pipeline.Window.rect_emb_val, tc_index1]
  match a with
  | ⟨0, _⟩ => show t.val * 256 + r.val = 256 * t.val + r.val; omega
  | ⟨1, _⟩ => show 0 * 3 + d.val = d.val; omega
  | ⟨2, _⟩ => show 0 * 64 + p.val = p.val; omega

/-- Element `(m, d, p)` of the transposed patch array is coordinate `d` of point `p` of patch `m` of the
    input: the flattening of the two leading axes is row-major. -/
theorem patches_at (X : (⟨S32x128x64x3, .f32⟩ : BufTy).Contents (Elt F)) (m : Fin 4096) (d : Fin 3) (p : Fin 64) :
    patches X (ix3 m d p) = X (ix4 (⟨m.val / 128, by omega⟩ : Fin 32) (⟨m.val % 128, by omega⟩ : Fin 128) p d) := by
  unfold patches
  rw [transpose_apply [0, 2, 1] _ _ (ix3 m d p) (ix3 m p d) (fun b => by match b with | ⟨0, _⟩ => rfl | ⟨1, _⟩ => rfl | ⟨2, _⟩ => rfl)]
  refine shapeCast_apply X _ (ix3 m p d) _ ?_
  have hm := m.isLt; have hp := p.isLt; have hd := d.isLt
  show ((⟨4, ![32, 128, 64, 3]⟩ : Shape).rowMajor (ix4 (⟨m.val / 128, by omega⟩ : Fin 32) (⟨m.val % 128, by omega⟩ : Fin 128) p d)).val
      = ((⟨3, ![4096, 64, 3]⟩ : Shape).rowMajor (ix3 m p d)).val
  rw [Shape.rowMajor_val_four, Shape.rowMajor_val_three]
  show ((m.val / 128 * 128 + m.val % 128) * 64 + p.val) * 3 + d.val = (m.val * 64 + p.val) * 3 + d.val
  omega

end Index

/-! ## The points' sums, over the extended reals -/

section Value

open Cert.Proof.TcPay

variable (X Y : (⟨S32x128x64x3, .f32⟩ : BufTy).Contents (Elt Ideal))

/-- Row `r` of block `t` of the first transposed array is patch `256 t + r` of the first input. -/
theorem blkPts_A (t : Fin cfg1.N) (r : Fin 256) (p : Fin 64) :
    blkPts (tcBlkA (F := Ideal) (patches X) t) r p
      = pts X (⟨256 * t.val + r.val, by have := lt_of_lt_of_eq t.isLt tc_N; omega⟩ : Fin 4096) p := by
  funext d; unfold blkPts; rw [tcBlkA_at, patches_at]; rfl

/-- The same for the second. -/
theorem blkPts_B (t : Fin cfg1.N) (r : Fin 256) (p : Fin 64) :
    blkPts (tcBlkB (F := Ideal) (patches Y) t) r p
      = pts Y (⟨256 * t.val + r.val, by have := lt_of_lt_of_eq t.isLt tc_N; omega⟩ : Fin 4096) p := by
  funext d; unfold blkPts; rw [tcBlkB_at, patches_at]; rfl

/-- What point `t` stores: its block's sum added to what the output held. -/
theorem tcPoint (t : Fin cfg1.N) (acc : Vec Ideal S1x1 .f32) (j : S1x1.Idx) :
    k1_pay2 (F := Ideal) (tcBlkA (patches X) t) (tcBlkB (patches Y) t) acc j
      = acc j + tcBlock (pts X) (pts Y) ⟨t.val, lt_of_lt_of_eq t.isLt tc_N⟩ := by
  rw [k1_pay2_apply]
  simp only [blkPts_A, blkPts_B]
  rfl

/-- The running sum does not depend on how its point is written. -/
theorem tcOutsAt_congr {F : FTy → Type} [FloatOps F] [Named F] (A B : PatchArr F) {n m : ℕ} (e : n = m)
    (hn : n < cfg1.N) (hm : m < cfg1.N) : tcOutsAt A B n hn = tcOutsAt A B m hm := by
  subst e; rfl

/-- After point `n` the output holds the sum of the blocks' sums up to `n`. -/
theorem tcOutsAt_sum : ∀ (n : ℕ) (hn : n < cfg1.N) (j : S1x1.Idx),
    tcOutsAt (F := Ideal) (patches X) (patches Y) n hn j = ∑ g ∈ Finset.range (n + 1), ext0 (tcBlock (pts X) (pts Y)) g
  | 0, hn, j => by
    have h := tcOutsAt_zero (F := Ideal) (patches X) (patches Y) (⟨0, hn⟩ : Fin cfg1.N) rfl
    dsimp only at h
    rw [h, tcPoint, k1_pay1_apply, zero_add, Finset.sum_range_one, ext0_of_lt _ _ (by decide)]
  | n + 1, hn, j => by
    have h := tcOutsAt_pos (F := Ideal) (patches X) (patches Y) (⟨n + 1, hn⟩ : Fin cfg1.N) (Nat.succ_ne_zero n)
    dsimp only at h
    rw [h, tcPoint, tcOutsAt_congr _ _ (Nat.add_sub_cancel n 1) _ (Nat.lt_of_succ_lt hn),
      tcOutsAt_sum n (Nat.lt_of_succ_lt hn) j, Finset.sum_range_succ _ (n + 1),
      ext0_of_lt _ _ (lt_of_lt_of_eq hn tc_N)]

/-- THE REGION'S VALUE: the result array holds the matrix unit's share. -/
theorem tcOut_value : tcOut Ideal (patches X) (patches Y) = fun _ => tcTotal (pts X) (pts Y) := by
  funext j
  unfold tcOut tcTotal
  rw [tcOutsAt_sum X Y 12 _ j]
  show ∑ g ∈ Finset.range 13, ext0 (tcBlock (pts X) (pts Y)) g = ∑ g : Fin 13, tcBlock (pts X) (pts Y) g
  rw [← Fin.sum_univ_eq_sum_range (ext0 (tcBlock (pts X) (pts Y))) 13]
  exact Finset.sum_congr rfl fun g _ => ext0_of_lt _ _ g.isLt

end Value

end Cert.Proof.KI

end
-- ==== Proof.RefValue.lean ====
import proofs.«212928_g62723702391633_cont_9to1_m_929_36_alg».proof.Proof.Gen.ReferenceIdeal.Run
import proofs.«212928_g62723702391633_cont_9to1_m_929_36_alg».proof.Proof.Gen.ReferenceIdeal.Read
import proofs.«212928_g62723702391633_cont_9to1_m_929_36_alg».proof.Proof.Spec
import proofs.«212928_g62723702391633_cont_9to1_m_929_36_alg».proof.Proof.Points
import Idealize.ShloMosaic.Lib.ValueIdx
import Idealize.ShloMosaic.Lib.ValueIdxRank1
import Idealize.ShloMosaic.PureOps.Ideal
import Idealize.ShloMosaic.PureOps.Ideal.Laws
import Idealize.ShloMosaic.PureOps.Reduce
import Mathlib.Data.Finset.Lattice.Fold
import Mathlib.Algebra.BigOperators.Group.Finset.Basic

/-!
# The reference program's result is the mean of means `refTotal`

The reference reshapes each input `f32[32, 128, 64, 3]` to 4096 patches of 64 points, forms for every
patch the 64 × 64 table of clamped squared distances `max (|p|² + |q|² − 2 p·q) 0`, takes the least
entry of every row and of every column, sums each family of 64 minima and divides by 64, adds the two
quotients, sums over the 4096 patches and divides by 4096. Read one operation at a time, at indices
named by their coordinates, that is `Cert.Chamfer.refTotal` of the two inputs as point arrays.
-/

noncomputable section

namespace Cert.Proof.RefValue

open Idealize.ShloMosaic Idealize.ShloMosaic.ValueIdx
open Cert.ReferenceIdeal Cert.ReferenceIdeal.Gen Cert.ReferenceIdeal.Read Cert.Chamfer

/-! ### The constants the program spells -/

/-- The pattern of `+∞` denotes the top element. -/
theorem ofBits_top : Ideal.ofBits .f32 0x7F800000#32 = ⊤ := by
  simp [Ideal.ofBits, Ideal.ieee]

/-- The pattern of `2.0` denotes `2`. -/
theorem ofBits_two : Ideal.ofBits .f32 0x40000000#32 = (2 : EReal) := by
  simp [Ideal.ofBits, Ideal.ieee, -EReal.coe_mul]; norm_num; rfl

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `4096.0` denotes the real `4096`. -/
theorem ofBits_4096 : Ideal.ofBits .f32 0x45800000#32 = ((4096 : ℝ) : EReal) := by
  simp [Ideal.ofBits, Ideal.ieee, -EReal.coe_mul]; norm_num

/-- The fold of `min` from `⊤` over the 64 coordinates is the least of the family. -/
theorem fold_min_top (f : Fin 64 → EReal) :
    (Finset.univ : Finset (Fin 64)).fold (FloatOps.minimumf (F := Ideal) (φ := .f32)) (⊤ : EReal) f = least f := rfl

/-! ### The reshaped inputs are the point arrays -/

/-- Element `(m, p, d)` of the first input reshaped to `4096 × 64 × 3` is coordinate `d` of point `p` of patch `m`:
    the flattening is row-major, so patch `m` is entry `(m / 128, m % 128)` of the two leading axes. -/
theorem v0_at (X : (⟨S32x128x64x3, .f32⟩ : BufTy).Contents (Elt Ideal)) (m : Fin 4096) (p : Fin 64) (d : Fin 3) :
    val_main_v0 (F := Ideal) X (ix3 m p d) = pts X m p d := by
  rw [val_main_v0_apply]
  have hm := m.isLt
  have hp := p.isLt
  have hd := d.isLt
  refine congrArg X (funext fun a => Fin.ext ?_)
  match a with
  | ⟨0, _⟩ => show ((m.val * 64 + p.val) * 3 + d.val) / 24576 = m.val / 128; omega
  | ⟨1, _⟩ => show ((m.val * 64 + p.val) * 3 + d.val) / 192 % 128 = m.val % 128; omega
  | ⟨2, _⟩ => show ((m.val * 64 + p.val) * 3 + d.val) / 3 % 64 = p.val; omega
  | ⟨3, _⟩ => show ((m.val * 64 + p.val) * 3 + d.val) % 3 = d.val; omega

/-- The same for the second input. -/
theorem v1_at (Y : (⟨S32x128x64x3, .f32⟩ : BufTy).Contents (Elt Ideal)) (m : Fin 4096) (p : Fin 64) (d : Fin 3) :
    val_main_v1 (F := Ideal) Y (ix3 m p d) = pts Y m p d := by
  rw [val_main_v1_apply]
  have hm := m.isLt
  have hp := p.isLt
  have hd := d.isLt
  refine congrArg Y (funext fun a => Fin.ext ?_)
  match a with
  | ⟨0, _⟩ => show ((m.val * 64 + p.val) * 3 + d.val) / 24576 = m.val / 128; omega
  | ⟨1, _⟩ => show ((m.val * 64 + p.val) * 3 + d.val) / 192 % 128 = m.val % 128; omega
  | ⟨2, _⟩ => show ((m.val * 64 + p.val) * 3 + d.val) / 3 % 64 = p.val; omega
  | ⟨3, _⟩ => show ((m.val * 64 + p.val) * 3 + d.val) % 3 = d.val; omega

/-! ### Squared norms and inner products -/

/-- The sum of squares over the coordinate axis, at `(m, p)`, is the squared norm of point `p` of patch `m`. -/
theorem v3_at (X : (⟨S32x128x64x3, .f32⟩ : BufTy).Contents (Elt Ideal)) (m : Fin 4096) (p : Fin 64) :
    val_main_v3 (F := Ideal) X (ix2 m p) = nrm (pts X m p) := by
  rw [val_main_v3_apply, val_main_cst_apply, Ideal.ofBits_def, Ideal.ofBits_zero_f32, zero_add]
  unfold nrm
  refine Finset.sum_congr rfl fun d _ => ?_
  have e : idx_main_v3 (ix2 m p) d = ix3 m p d := funext fun a => Fin.ext (by match a with | ⟨0, _⟩ => rfl | ⟨1, _⟩ => rfl | ⟨2, _⟩ => rfl)
  rw [e, val_main_v2_apply, v0_at, Ideal.mulf_def]

/-- The same for the second input. -/
theorem v5_at (Y : (⟨S32x128x64x3, .f32⟩ : BufTy).Contents (Elt Ideal)) (m : Fin 4096) (q : Fin 64) :
    val_main_v5 (F := Ideal) Y (ix2 m q) = nrm (pts Y m q) := by
  rw [val_main_v5_apply, val_main_cst_0_apply, Ideal.ofBits_def, Ideal.ofBits_zero_f32, zero_add]
  unfold nrm
  refine Finset.sum_congr rfl fun d _ => ?_
  have e : idx_main_v5 (ix2 m q) d = ix3 m q d := funext fun a => Fin.ext (by match a with | ⟨0, _⟩ => rfl | ⟨1, _⟩ => rfl | ⟨2, _⟩ => rfl)
  rw [e, val_main_v4_apply, v1_at, Ideal.mulf_def]

/-- The batched contraction over the coordinate axis, at `(m, p, q)`, is the inner product of point `p` of the first
    input's patch `m` with point `q` of the second's. -/
theorem v6_at (X Y : (⟨S32x128x64x3, .f32⟩ : BufTy).Contents (Elt Ideal)) (m : Fin 4096) (p q : Fin 64) :
    val_main_v6 (F := Ideal) X Y (ix3 m p q) = ∑ d, pts X m p d * pts Y m q d := by
  rw [val_main_v6_apply]
  refine Finset.sum_congr rfl fun d _ => ?_
  have el : lidx_main_v6 (ix3 m p q) d = ix3 m p d := funext fun a => Fin.ext (by match a with | ⟨0, _⟩ => rfl | ⟨1, _⟩ => rfl | ⟨2, _⟩ => rfl)
  have er : ridx_main_v6 (ix3 m p q) d = ix3 m q d := funext fun a => Fin.ext (by match a with | ⟨0, _⟩ => rfl | ⟨1, _⟩ => rfl | ⟨2, _⟩ => rfl)
  rw [el, er, v0_at, v1_at]

/-! ### The table of clamped squared distances -/

/-- Entry `(m, p, q)` of the table: `max (|p|² + |q|² − 2 p·q) 0`. -/
theorem v16_at (X Y : (⟨S32x128x64x3, .f32⟩ : BufTy).Contents (Elt Ideal)) (m : Fin 4096) (p q : Fin 64) :
    val_main_v16 (F := Ideal) X Y (ix3 m p q) = dRef (pts X m p) (pts Y m q) := by
  have e9 : idx_main_v7 (idx_main_v9 (ix3 m p q)) = ix2 m p := funext fun a => Fin.ext (by match a with | ⟨0, _⟩ => rfl | ⟨1, _⟩ => rfl)
  have e10 : idx_main_v8 (idx_main_v10 (ix3 m p q)) = ix2 m q := funext fun a => Fin.ext (by match a with | ⟨0, _⟩ => rfl | ⟨1, _⟩ => rfl)
  rw [val_main_v16_apply, val_main_v14_apply, val_main_v11_apply, val_main_v9_apply, val_main_v7_apply, e9, v3_at,
    val_main_v10_apply, val_main_v8_apply, e10, v5_at, val_main_v13_apply, val_main_v12_apply, val_main_cst_1_apply,
    v6_at, val_main_v15_apply, val_main_cst_2_apply]
  simp only [Ideal.ofBits_def, Ideal.maximumf_def, Ideal.subf_def, Ideal.addf_def, Ideal.mulf_def,
    Ideal.ofBits_zero_f32, ofBits_two]
  rfl

/-! ### Row and column minima -/

/-- The least entry of row `(m, p)` of the table: the minimum over `q`. -/
theorem v17_at (X Y : (⟨S32x128x64x3, .f32⟩ : BufTy).Contents (Elt Ideal)) (m : Fin 4096) (p : Fin 64) :
    val_main_v17 (F := Ideal) X Y (ix2 m p) = least fun q => dRef (pts X m p) (pts Y m q) := by
  have h : S4096x64x64.Reduces [2] S4096x64 := by decide
  unfold val_main_v17
  rw [Host.reduce_eq_fold_single FloatOps.minimumf _ _ reducesTo_S4096x64x64_S4096x64_d2 h h_S_,
    val_main_cst_3_apply, Ideal.ofBits_def, ofBits_top]
  have hf : (val_main_v16 (F := Ideal) X Y ∘ h.lift (ix2 m p)) = fun q : Fin 64 => dRef (pts X m p) (pts Y m q) :=
    funext fun (k : Fin 64) => by
      have e : h.lift (ix2 m p) k = ix3 m p k := funext fun a => Fin.ext (by match a with | ⟨0, _⟩ => rfl | ⟨1, _⟩ => rfl | ⟨2, _⟩ => rfl)
      exact (congrArg (val_main_v16 (F := Ideal) X Y) e).trans (v16_at X Y m p k)
  exact (congrArg (fun f : Fin 64 → EReal =>
    (Finset.univ : Finset (Fin 64)).fold (FloatOps.minimumf (F := Ideal) (φ := .f32)) (⊤ : EReal) f) hf).trans (fold_min_top _)

/-- The least entry of column `(m, q)` of the table: the minimum over `p`. -/
theorem v21_at (X Y : (⟨S32x128x64x3, .f32⟩ : BufTy).Contents (Elt Ideal)) (m : Fin 4096) (q : Fin 64) :
    val_main_v21 (F := Ideal) X Y (ix2 m q) = least fun p => dRef (pts X m p) (pts Y m q) := by
  have h : S4096x64x64.Reduces [1] S4096x64 := by decide
  unfold val_main_v21
  rw [Host.reduce_eq_fold_single FloatOps.minimumf _ _ reducesTo_S4096x64x64_S4096x64_d1 h h_S_,
    val_main_cst_6_apply, Ideal.ofBits_def, ofBits_top]
  have hf : (val_main_v16 (F := Ideal) X Y ∘ h.lift (ix2 m q)) = fun p : Fin 64 => dRef (pts X m p) (pts Y m q) :=
    funext fun (k : Fin 64) => by
      have e : h.lift (ix2 m q) k = ix3 m k q := funext fun a => Fin.ext (by match a with | ⟨0, _⟩ => rfl | ⟨1, _⟩ => rfl | ⟨2, _⟩ => rfl)
      exact (congrArg (val_main_v16 (F := Ideal) X Y) e).trans (v16_at X Y m k q)
  exact (congrArg (fun f : Fin 64 → EReal =>
    (Finset.univ : Finset (Fin 64)).fold (FloatOps.minimumf (F := Ideal) (φ := .f32)) (⊤ : EReal) f) hf).trans (fold_min_top _)

/-! ### One patch -/

/-- The forward mean of patch `m`: the 64 row minima summed, times `1/64`. -/
theorem v20_at (X Y : (⟨S32x128x64x3, .f32⟩ : BufTy).Contents (Elt Ideal)) (m : Fin 4096) :
    val_main_v20 (F := Ideal) X Y (ix1 m) = (∑ p, least fun q => dRef (pts X m p) (pts Y m q)) * c64 := by
  have s : val_main_v18 (F := Ideal) X Y (ix1 m) = ∑ p, least fun q => dRef (pts X m p) (pts Y m q) := by
    rw [val_main_v18_apply, val_main_cst_4_apply, Ideal.ofBits_def, Ideal.ofBits_zero_f32, zero_add]
    refine Finset.sum_congr rfl fun p _ => ?_
    have e : idx_main_v18 (ix1 m) p = ix2 m p := funext fun a => Fin.ext (by match a with | ⟨0, _⟩ => rfl | ⟨1, _⟩ => rfl)
    rw [e, v17_at]
  rw [val_main_v20_apply, s, val_main_v19_apply, val_main_cst_5_apply, Ideal.hostDivf_def, Ideal.ofBits_def, ofBits_64,
    Ideal.div_coe (y := 64) (by norm_num)]
  rfl

/-- The backward mean of patch `m`: the 64 column minima summed, times `1/64`. -/
theorem v24_at (X Y : (⟨S32x128x64x3, .f32⟩ : BufTy).Contents (Elt Ideal)) (m : Fin 4096) :
    val_main_v24 (F := Ideal) X Y (ix1 m) = (∑ q, least fun p => dRef (pts X m p) (pts Y m q)) * c64 := by
  have s : val_main_v22 (F := Ideal) X Y (ix1 m) = ∑ q, least fun p => dRef (pts X m p) (pts Y m q) := by
    rw [val_main_v22_apply, val_main_cst_7_apply, Ideal.ofBits_def, Ideal.ofBits_zero_f32, zero_add]
    refine Finset.sum_congr rfl fun q _ => ?_
    have e : idx_main_v22 (ix1 m) q = ix2 m q := funext fun a => Fin.ext (by match a with | ⟨0, _⟩ => rfl | ⟨1, _⟩ => rfl)
    rw [e, v21_at]
  rw [val_main_v24_apply, s, val_main_v23_apply, val_main_cst_8_apply, Ideal.hostDivf_def, Ideal.ofBits_def, ofBits_64,
    Ideal.div_coe (y := 64) (by norm_num)]
  rfl

/-- Forward plus backward mean of patch `m`. -/
theorem v25_at (X Y : (⟨S32x128x64x3, .f32⟩ : BufTy).Contents (Elt Ideal)) (m : Fin 4096) :
    val_main_v25 (F := Ideal) X Y (ix1 m) = refPatch (pts X m) (pts Y m) := by
  rw [val_main_v25_apply, v20_at, v24_at, Ideal.addf_def]
  rfl

/-! ### The mean over the patches -/

/-- The sum over every patch. -/
theorem v26_at (X Y : (⟨S32x128x64x3, .f32⟩ : BufTy).Contents (Elt Ideal)) (i : S_.Idx) :
    val_main_v26 (F := Ideal) X Y i = ∑ m : Fin 4096, refPatch (pts X m) (pts Y m) := by
  rw [val_main_v26_apply, val_main_cst_9_apply, Ideal.ofBits_def, Ideal.ofBits_zero_f32, zero_add]
  refine ((Equiv.sum_comp (idxEquiv1 (n := 4096)).symm (val_main_v25 (F := Ideal) X Y)).symm.trans ?_)
  exact Finset.sum_congr rfl fun m _ => v25_at X Y m

/-- The reference's result is `refTotal` of the two inputs read as point arrays. -/
theorem ref_value (X Y : (⟨S32x128x64x3, .f32⟩ : BufTy).Contents (Elt Ideal)) :
    Cert.ReferenceIdeal.Read.val_main_v27 (F := Ideal) X Y = fun _ => Cert.Chamfer.refTotal (Cert.Chamfer.pts X) (Cert.Chamfer.pts Y) := by
  funext i
  rw [val_main_v27_apply, v26_at, val_main_cst_10_apply, Ideal.hostDivf_def, Ideal.ofBits_def, ofBits_4096,
    Ideal.div_coe (y := 4096) (by norm_num)]
  rfl

end Cert.Proof.RefValue

end
-- ==== Proof.RefFrame.lean ====
import proofs.«212928_g62723702391633_cont_9to1_m_929_36_alg».proof.Defs
import proofs.«212928_g62723702391633_cont_9to1_m_929_36_alg».proof.Proof.Gen.ReferenceIdeal
import proofs.«212928_g62723702391633_cont_9to1_m_929_36_alg».proof.Proof.Gen.ReferenceIdeal.Run
import proofs.«212928_g62723702391633_cont_9to1_m_929_36_alg».proof.Proof.Gen.ReferenceIdeal.Read
import proofs.«212928_g62723702391633_cont_9to1_m_929_36_alg».proof.Proof.Gen.Pre_finite_inputs

/-! The reference program's frame: it runs to its end, and its two argument arrays are as they were. -/

noncomputable section

namespace Cert.Proof.RefFrame

open Idealize.ShloMosaic Idealize.SL.Sem

/-- The reference's run with the result forgotten. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Finite.lean ====
import proofs.«212928_g62723702391633_cont_9to1_m_929_36_alg».proof.Pre_finite_inputs
import proofs.«212928_g62723702391633_cont_9to1_m_929_36_alg».proof.Proof.Gen.Pre_finite_inputs
import proofs.«212928_g62723702391633_cont_9to1_m_929_36_alg».proof.Proof.LibERealSage
import Idealize.ShloMosaic.PureOps.Ideal
import Idealize.ShloMosaic.Lib.ReduceAll
import Idealize.ShloMosaic.Lib.Affine
import Idealize.ShloMosaic.Lib.ValueIdx

/-! The precondition says `|x| < +∞` of every entry of both inputs; on the extended reals that is
    exactly: every entry is a real number. -/

noncomputable section

namespace Cert.Proof.Finite

open Idealize.ShloMosaic Cert.LibERealSage Cert.Pre_finite_inputs

instance : Subsingleton S_.Idx := ⟨fun a b => funext fun d => d.elim0⟩

/-- An extended real whose absolute value `max x (-x)` lies below `⊤` is a real number. -/
theorem isReal_of_abs_lt_top (x : EReal) (h : max x (-x) < ⊤) : IsReal x := by
  induction x using EReal.rec with
  | bot => simp at h
  | coe r => exact ⟨r, rfl⟩
  | top => simp at h

/-- One entry's test: the comparison word is one only below `⊤`. -/
theorem isReal_of_word (x : EReal) (h : Ideal.cmp .olt (max x (-x)) (Ideal.ofBits .f32 0x7F800000#32) = 1#1) : IsReal x := by
  apply isReal_of_abs_lt_top
  have ht : Ideal.ofBits .f32 0x7F800000#32 = (⊤ : EReal) := by simp [Ideal.ofBits, Ideal.ieee]
  rw [ht] at h
  by_contra hn
  simp [Ideal.cmp, hn] at h

theorem finite_of_pre [Facts] (X Y : FVec Ideal S32x128x64x3 .f32) (h : fn (F := Ideal) X Y = fun _ => 1#1) :
    (∀ i, IsReal (X i)) ∧ (∀ i, IsReal (Y i)) := by
  have h0 := congrFun h ValueIdx.ix0
  dsimp only [fn] at h0
  obtain ⟨h1, h2⟩ := IntOp.andi_eq_one.1 h0
  refine ⟨fun i => ?_, fun i => ?_⟩
  · exact isReal_of_word (X i) (Host.reduce_andi_all _ _ _ _ _ h1 i)
  · exact isReal_of_word (Y i) (Host.reduce_andi_all _ _ _ _ _ h2 i)

end Cert.Proof.Finite

end
-- ==== Proof.Preserves.lean ====
import proofs.«212928_g62723702391633_cont_9to1_m_929_36_alg».proof.Defs
import Idealize.ShloMosaic.PureOps.IdealRules

/-! The idealization's ledger: the finite stand-in `3·10³⁸` that starts each running minimum is read as `⊤`, twice. -/

noncomputable section

namespace Cert.Proof.Preserves

open Idealize.ShloMosaic

theorem preserves : Cert.preserves_Kernel_KernelIdeal :=
  ⟨IdealRules.named_const.statement Cert.KernelIdeal.κ "pos_big" .f32 0x7F61B1E6#32 ⊤ rfl,
   IdealRules.named_const.statement Cert.KernelIdeal.κ "pos_big" .f32 0x7F61B1E6#32 ⊤ rfl⟩

end Cert.Proof.Preserves

end
-- ==== Proof.lean ====
/-
  The Chamfer distance between predicted and target point patches: the kernel (3328 patches on the matrix unit
  in 13 pipelined steps, 768 patches on 32 vector subcores, the two shares added and scaled by `2⁻¹⁸`) against
  the reference (the mean over 4096 patches of the forward and backward means of clamped least squared distances).

  Frames. Each kernel program is run by the launch theorem for programs with vector-subcore calls: every subcore's
  task is one symbolic run of its body (three local copies, each waited at once, around a 24-trip loop that only
  reads its two scratch buffers), the TensorCore's @main is the host reshapes and transposes, the call, the pipelined
  region entered from inside that program, and the closing host arithmetic. The run names the result as one pure
  term of the two inputs; each kernel frame is that run with the value forgotten, at the word-level values for the
  printed kernel and at the extended reals for its idealization. The reference's frame is its run.

  Values. At the extended reals the subcores leave, lane by lane, the sum over their patches of
  `max (min_q d) 0`, the region leaves the sum over its patches of `min_q d` unclamped, and the reference computes
  `min_q (max d 0)`; on real coordinates `d = ∑ (p - q)² ≥ 0`, so the three agree, and the means regroup to the
  one scale `2⁻¹⁸` because every term is real. That every coordinate is real is the precondition.

  The idealization's ledger has one rule applied twice: the finite start value of the running minima is read as `⊤`.
-/
import proofs.«212928_g62723702391633_cont_9to1_m_929_36_alg».proof.Defs
import proofs.«212928_g62723702391633_cont_9to1_m_929_36_alg».proof.Proof.Gen.Kernel
import proofs.«212928_g62723702391633_cont_9to1_m_929_36_alg».proof.Proof.Gen.KernelIdeal
import proofs.«212928_g62723702391633_cont_9to1_m_929_36_alg».proof.Proof.Gen.ReferenceIdeal
import proofs.«212928_g62723702391633_cont_9to1_m_929_36_alg».proof.Proof.Gen.Pre_finite_inputs
import proofs.«212928_g62723702391633_cont_9to1_m_929_36_alg».proof.Proof.Main
import proofs.«212928_g62723702391633_cont_9to1_m_929_36_alg».proof.Proof.MainB
import proofs.«212928_g62723702391633_cont_9to1_m_929_36_alg».proof.Proof.ScTileValue
import proofs.«212928_g62723702391633_cont_9to1_m_929_36_alg».proof.Proof.TcRegionValue
import proofs.«212928_g62723702391633_cont_9to1_m_929_36_alg».proof.Proof.Tail
import proofs.«212928_g62723702391633_cont_9to1_m_929_36_alg».proof.Proof.Spec
import proofs.«212928_g62723702391633_cont_9to1_m_929_36_alg».proof.Proof.Points
import proofs.«212928_g62723702391633_cont_9to1_m_929_36_alg».proof.Proof.RefValue
import proofs.«212928_g62723702391633_cont_9to1_m_929_36_alg».proof.Proof.RefFrame
import proofs.«212928_g62723702391633_cont_9to1_m_929_36_alg».proof.Proof.Finite
import proofs.«212928_g62723702391633_cont_9to1_m_929_36_alg».proof.Proof.Preserves
import Idealize.ShloMosaic.Adequacy
import Idealize.ShloMosaic.Init

noncomputable section

namespace Cert.Proof

open Idealize.ShloMosaic Idealize.SL.Sem Cert.Chamfer Cert.LibERealSage

/-- On real inputs the kernel's result term, read at the extended reals, is the reference's mean of means. -/
theorem kernel_value (X Y : (⟨Cert.KernelIdeal.S32x128x64x3, .f32⟩ : BufTy).Contents (Elt Ideal))
    (hX : ∀ i, IsReal (X i)) (hY : ∀ i, IsReal (Y i)) :
    KI.result (F := Ideal) (KI.partials (KI.patches X) (KI.patches Y)) (KI.tcOut Ideal (KI.patches X) (KI.patches Y))
      = fun _ => refTotal (pts X) (pts Y) := by
  funext i
  rw [KI.result_ideal, KI.partials_ideal, KI.tcOut_value]
  exact kerTotal_eq_refTotal (pts X) (pts Y) (fun m p d => hX _) (fun m p d => hY _)

theorem frame_p : Cert.frame_Kernel := fun m ρ _ =>
  (θ_run Cert.Kernel.defs _ _).mono (fun _ h c => (h c).2) (KB.run_main (F := Bits) m ρ)

theorem frame_pi : Cert.frame_KernelIdeal := fun m ρ _ =>
  (θ_run Cert.KernelIdeal.defs _ _).mono (fun _ h c => (h c).2) (KI.run_main (F := Ideal) m ρ)

theorem algebraic : Cert.algebraic_KernelIdeal_ReferenceIdeal := by
  intro m ρ m' ρ' hpre hagree
  refine ⟨fun c => KI.result (F := Ideal) (KI.partials (KI.arrA m c) (KI.arrB m c)) (KI.tcOut Ideal (KI.arrA m c) (KI.arrB m c)),
    KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Finite.finite_of_pre _ _ (hpre c)
  rw [(hagree c).1, (hagree c).2]
  exact (Cert.ReferenceIdeal.Read.val_main_v27_eq _ _).trans
    ((RefValue.ref_value _ _).trans (kernel_value _ _ hX hY).symm)

theorem claim : Cert.Claim := ⟨Cert.Kernel.Gen.facts, Cert.KernelIdeal.Gen.facts, Cert.ReferenceIdeal.Gen.facts, Cert.Pre_finite_inputs.Gen.facts,
  frame_p, frame_pi, RefFrame.frame_ri, Preserves.preserves, algebraic⟩

end Cert.Proof

end
